-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768 : Shape := ⟨1, ![32768]⟩
abbrev S3x1024 : Shape := ⟨2, ![3, 1024]⟩
abbrev S3 : Shape := ⟨1, ![3]⟩
abbrev S6x1024 : Shape := ⟨2, ![6, 1024]⟩
abbrev S6 : Shape := ⟨1, ![6]⟩
abbrev S1323x3 : Shape := ⟨2, ![1323, 3]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768 : S_.BroadcastsInDim S32768 (![] : Fin 0 → Fin S32768.rank)
  reducesTo_S32768_S_d0 : S32768.ReducesTo [0] S_
  bcast_S_S3x1024 : S_.BroadcastsInDim S3x1024 (![] : Fin 0 → Fin S3x1024.rank)
  reducesTo_S3x1024_S_d0_1 : S3x1024.ReducesTo [0, 1] S_
  bcast_S_S3 : S_.BroadcastsInDim S3 (![] : Fin 0 → Fin S3.rank)
  reducesTo_S3_S_d0 : S3.ReducesTo [0] S_
  bcast_S_S6x1024 : S_.BroadcastsInDim S6x1024 (![] : Fin 0 → Fin S6x1024.rank)
  reducesTo_S6x1024_S_d0_1 : S6x1024.ReducesTo [0, 1] S_
  bcast_S_S6 : S_.BroadcastsInDim S6 (![] : Fin 0 → Fin S6.rank)
  reducesTo_S6_S_d0 : S6.ReducesTo [0] S_
  bcast_S_S1323x3 : S_.BroadcastsInDim S1323x3 (![] : Fin 0 → Fin S1323x3.rank)
  reducesTo_S1323x3_S_d0_1 : S1323x3.ReducesTo [0, 1] S_

variable [Facts]

def fn_part1 {F : FTy → Type} [FloatOps F] (main_arg4 : FVec F S6x1024 .f32) (main_arg5 : FVec F S6 .f32) (main_arg6 : FVec F S1323x3 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S6x1024 .f32 := Host.absf main_arg4
  let main_cst_6 : FVec F S_ .f32 := constant S_ .f32 0x7F800000#32
  let main_v20 : FVec F S6x1024 .f32 := broadcastInDim S6x1024 ![] bcast_S_S6x1024 main_cst_6
  let main_v21 : IVec S6x1024 1 := cmpf .olt main_v19 main_v20
  let main_c_7 : IVec S_ 1 := constantI S_ 1 1#1
  let main_v22 : IVec S_ 1 := (fun x v => Host.reduce IntOp.andi x v reducesTo_S6x1024_S_d0_1 h_S_) main_v21 main_c_7
  let main_v23 : IVec S_ 1 := andi main_v18 main_v22
  let main_v24 : FVec F S6 .f32 := Host.absf main_arg5
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_v29 : FVec F S1323x3 .f32 := Host.absf main_arg6
  let main_cst_10 : FVec F S_ .f32 := constant S_ .f32 0x7F800000#32
  let main_v30 : FVec F S1323x3 .f32 := broadcastInDim S1323x3 ![] bcast_S_S1323x3 main_cst_10
  let main_v31 : IVec S1323x3 1 := cmpf .olt main_v29 main_v30
  let main_c_11 : IVec S_ 1 := constantI S_ 1 1#1
  let main_v32 : IVec S_ 1 := (fun x v => Host.reduce IntOp.andi x v reducesTo_S1323x3_S_d0_1 h_S_) main_v31 main_c_11
  let main_v33 : IVec S_ 1 := andi main_v28 main_v32
  main_v33

def fn {F : FTy → Type} [FloatOps F] (main_arg0 : FVec F S32768x1024 .f32) (main_arg1 : FVec F S32768 .f32) (main_arg2 : FVec F S3x1024 .f32) (main_arg3 : FVec F S3 .f32) (main_arg4 : FVec F S6x1024 .f32) (main_arg5 : FVec F S6 .f32) (main_arg6 : FVec F S1323x3 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768 .f32 := Host.absf main_arg1
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S3x1024 .f32 := Host.absf main_arg2
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_c_3 : IVec S_ 1 := constantI S_ 1 1#1
  let main_v12 : IVec S_ 1 := (fun x v => Host.reduce IntOp.andi x v reducesTo_S3x1024_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_arg5 main_arg6 main_v13 main_v16
-- ==== Kernel.lean ====
abbrev S32768x1024 : Shape := ⟨2, ![32768, 1024]⟩
abbrev S32768 : Shape := ⟨1, ![32768]⟩
abbrev S3x1024 : Shape := ⟨2, ![3, 1024]⟩
abbrev S3 : Shape := ⟨1, ![3]⟩
abbrev S6x1024 : Shape := ⟨2, ![6, 1024]⟩
abbrev S6 : Shape := ⟨1, ![6]⟩
abbrev S1323x3 : Shape := ⟨2, ![1323, 3]⟩
abbrev S32768x1 : Shape := ⟨2, ![32768, 1]⟩
abbrev S3x1323 : Shape := ⟨2, ![3, 1323]⟩
abbrev S32768x1323 : Shape := ⟨2, ![32768, 1323]⟩
abbrev S256x1024 : Shape := ⟨2, ![256, 1024]⟩
abbrev S256x1 : Shape := ⟨2, ![256, 1]⟩
abbrev S256x1323 : Shape := ⟨2, ![256, 1323]⟩
abbrev S256x3 : Shape := ⟨2, ![256, 3]⟩
abbrev S1x3 : Shape := ⟨2, ![1, 3]⟩
abbrev S256x6 : Shape := ⟨2, ![256, 6]⟩
abbrev S1x6 : Shape := ⟨2, ![1, 6]⟩
abbrev S1x1323 : Shape := ⟨2, ![1, 1323]⟩
abbrev S256 : Shape := ⟨1, ![256]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768, .f32⟩
  | .hbm, ⟨2, _⟩ => ⟨S3x1024, .f32⟩
  | .hbm, ⟨3, _⟩ => ⟨S3, .f32⟩
  | .hbm, ⟨4, _⟩ => ⟨S6x1024, .f32⟩
  | .hbm, ⟨5, _⟩ => ⟨S6, .f32⟩
  | .hbm, ⟨6, _⟩ => ⟨S1323x3, .f32⟩
  | .hbm, ⟨7, _⟩ => ⟨S32768x1, .f32⟩
  | .hbm, ⟨8, _⟩ => ⟨S3x1323, .f32⟩
  | .hbm, ⟨9, _⟩ => ⟨S32768x1323, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S3x1024, .f32⟩
  | .local _ .vmem, ⟨5, _⟩ => ⟨S3, .f32⟩
  | .local _ .vmem, ⟨6, _⟩ => ⟨S6x1024, .f32⟩
  | .local _ .vmem, ⟨7, _⟩ => ⟨S6, .f32⟩
  | .local _ .vmem, ⟨8, _⟩ => ⟨S3x1323, .f32⟩
  | .local _ .vmem, ⟨9, _⟩ => ⟨S256x1323, .f32⟩
  | .local _ .vmem, ⟨10, _⟩ => ⟨S256x1323, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1323 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1323 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32768_S32768x1 : S32768.ShapeCasts S32768x1
  transposes_S1323x3_S3x1323_1_0 : S1323x3.Transposes [1, 0] S3x1323
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S3x1024_S3x1024_0_0 : ∀ a, (![0, 0] : Fin 2 → Nat) a + S3x1024.size a ≤ S3x1024.size a
  h_S3x1024 : 0 < S3x1024.numel
  inb_S6x1024_S6x1024_0_0 : ∀ a, (![0, 0] : Fin 2 → Nat) a + S6x1024.size a ≤ S6x1024.size a
  h_S6x1024 : 0 < S6x1024.numel
  inb_S3_S3_0 : ∀ a, (![0] : Fin 1 → Nat) a + S3.size a ≤ S3.size a
  h_S3 : 0 < S3.numel
  shapeCasts_S3_S1x3 : S3.ShapeCasts S1x3
  broadcasts_S1x3_S256x3 : S1x3.Broadcasts S256x3
  inb_S6_S6_0 : ∀ a, (![0] : Fin 1 → Nat) a + S6.size a ≤ S6.size a
  h_S6 : 0 < S6.numel
  shapeCasts_S6_S1x6 : S6.ShapeCasts S1x6
  broadcasts_S1x6_S256x6 : S1x6.Broadcasts S256x6
  inb_S256x1_S256x1_0_0 : ∀ a, (![0, 0] : Fin 2 → Nat) a + S256x1.size a ≤ S256x1.size a
  h_S256x1 : 0 < S256x1.numel
  shapeCasts_S256x1_S256x1 : S256x1.ShapeCasts S256x1
  slices_S256x6_o0_0_S256x1 : S256x6.Slices ![0, 0] S256x1
  slices_S256x6_o0_1_S256x1 : S256x6.Slices ![0, 1] S256x1
  slices_S256x6_o0_2_S256x1 : S256x6.Slices ![0, 2] S256x1
  slices_S256x6_o0_3_S256x1 : S256x6.Slices ![0, 3] S256x1
  slices_S256x6_o0_4_S256x1 : S256x6.Slices ![0, 4] S256x1
  slices_S256x6_o0_5_S256x1 : S256x6.Slices ![0, 5] S256x1
  slices_S256x3_o0_0_S256x1 : S256x3.Slices ![0, 0] S256x1
  slices_S256x3_o0_1_S256x1 : S256x3.Slices ![0, 1] S256x1
  slices_S256x3_o0_2_S256x1 : S256x3.Slices ![0, 2] S256x1
  inb_S3x1323_S1x1323_0_0 : ∀ a, (![0, 0] : Fin 2 → Nat) a + S1x1323.size a ≤ S3x1323.size a
  h_S1x1323 : 0 < S1x1323.numel
  shapeCasts_S1x1323_S1x1323 : S1x1323.ShapeCasts S1x1323
  inb_S3x1323_S1x1323_1_0 : ∀ a, (![1, 0] : Fin 2 → Nat) a + S1x1323.size a ≤ S3x1323.size a
  inb_S3x1323_S1x1323_2_0 : ∀ a, (![2, 0] : Fin 2 → Nat) a + S1x1323.size a ≤ S3x1323.size a
  broadcasts_S1x1323_S256x1323 : S1x1323.Broadcasts S256x1323
  broadcasts_S256x1_S256x1323 : S256x1.Broadcasts S256x1323
  reduces_S256x1323_S256 : S256x1323.Reduces [1] S256
  shapeCasts_S256_S256x1 : S256.ShapeCasts S256x1
  inb_S256x1323_S256x1323_0_0 : ∀ a, (![0, 0] : Fin 2 → Nat) a + S256x1323.size a ≤ S256x1323.size a
  h_S256x1323 : 0 < S256x1323.numel
  dot_S256x1024_S3x1024_S256x3_1_1_0_0_n_n_wf : DotDims.WF S256x1024 S3x1024 S256x3 [1] [1] [0] [0] [] []
  dot_S256x1024_S6x1024_S256x6_1_1_0_0_n_n_wf : DotDims.WF S256x1024 S6x1024 S256x6 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S32768x1.size a
  hwx0_1 : ∀ i : grid0.Coords, EltTy.bits .f32 = 32 ∨ (Rect.block (s := S32768x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024.size a ≤ S3x1024.size a
  hwx0_2 : ∀ i : grid0.Coords, EltTy.bits .f32 = 32 ∨ (Rect.block (s := S3x1024) S3x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3.size a ≤ S3.size a
  hwx0_3 : ∀ i : grid0.Coords, EltTy.bits .f32 = 32 ∨ (Rect.block (s := S3) S3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x1024.size a ≤ S6x1024.size a
  hwx0_4 : ∀ i : grid0.Coords, EltTy.bits .f32 = 32 ∨ (Rect.block (s := S6x1024) S6x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6.size a ≤ S6.size a
  hwx0_5 : ∀ i : grid0.Coords, EltTy.bits .f32 = 32 ∨ (Rect.block (s := S6) S6.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1323.size a ≤ S3x1323.size a
  hwx0_6 : ∀ i : grid0.Coords, EltTy.bits .f32 = 32 ∨ (Rect.block (s := S3x1323) S3x1323.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1323.size a ≤ S32768x1323.size a
  hwx0_7 : ∀ i : grid0.Coords, EltTy.bits .f32 = 32 ∨ (Rect.block (s := S32768x1323) S256x1323.size (cc0_transform_7 i) (hinb0_7 i)).WholeWords (EltTy.packing .f32)

variable [Facts₀]

def dot_S256x1024_S3x1024_S256x3_1_1_0_0_n_n : DotDims S256x1024 S3x1024 S256x3 where
  lhsContracting := [1]
  rhsContracting := [1]
  lhsNonContracting := [0]
  rhsNonContracting := [0]
  lhsBatch := []
  rhsBatch := []
  wf := dot_S256x1024_S3x1024_S256x3_1_1_0_0_n_n_wf
def dot_S256x1024_S6x1024_S256x6_1_1_0_0_n_n : DotDims S256x1024 S6x1024 S256x6 where
  lhsContracting := [1]
  rhsContracting := [1]
  lhsNonContracting := [0]
  rhsNonContracting := [0]
  lhsBatch := []
  rhsBatch := []
  wf := dot_S256x1024_S6x1024_S256x6_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S3x1323.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x1323.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768 : Shape := ⟨1, ![32768]⟩
abbrev S3x1024 : Shape := ⟨2, ![3, 1024]⟩
abbrev S3 : Shape := ⟨1, ![3]⟩
abbrev S6x1024 : Shape := ⟨2, ![6, 1024]⟩
abbrev S6 : Shape := ⟨1, ![6]⟩
abbrev S1323x3 : Shape := ⟨2, ![1323, 3]⟩
abbrev S1024x3 : Shape := ⟨2, ![1024, 3]⟩
abbrev S32768x3 : Shape := ⟨2, ![32768, 3]⟩
abbrev S1x3 : Shape := ⟨2, ![1, 3]⟩
abbrev S1024x6 : Shape := ⟨2, ![1024, 6]⟩
abbrev S32768x6 : Shape := ⟨2, ![32768, 6]⟩
abbrev S1x6 : Shape := ⟨2, ![1, 6]⟩
abbrev S_ : Shape := ⟨0, ![]⟩
abbrev S32768x1 : Shape := ⟨2, ![32768, 1]⟩
abbrev S1x1323x3 : Shape := ⟨3, ![1, 1323, 3]⟩
abbrev S32768x1x3 : Shape := ⟨3, ![32768, 1, 3]⟩
abbrev S32768x1323x3 : Shape := ⟨3, ![32768, 1323, 3]⟩
abbrev S32768x1323x1 : Shape := ⟨3, ![32768, 1323, 1]⟩
abbrev S32768x1323 : Shape := ⟨2, ![32768, 1323]⟩

abbrev nBuf : Space → Nat
  | .hbm => 170
  | .vmem => 0
  | .smem => 0
  | _ => 0

abbrev hbmTy0_0 (i : Nat) : BufTy := match i % 128 with
  | 0 => ⟨S32768x1024, .f32⟩
  | 1 => ⟨S32768, .f32⟩
  | 2 => ⟨S3x1024, .f32⟩
  | 3 => ⟨S3, .f32⟩
  | 4 => ⟨S6x1024, .f32⟩
  | 5 => ⟨S6, .f32⟩
  | 6 => ⟨S1323x3, .f32⟩
  | 7 => ⟨S6, .f32⟩
  | 8 => ⟨S1024x3, .f32⟩
  | 9 => ⟨S32768x3, .f32⟩
  | 10 => ⟨S1x3, .f32⟩
  | 11 => ⟨S32768x3, .f32⟩
  | 12 => ⟨S32768x3, .f32⟩
  | 13 => ⟨S1024x6, .f32⟩
  | 14 => ⟨S32768x6, .f32⟩
  | 15 => ⟨S1x6, .f32⟩
  | 16 => ⟨S32768x6, .f32⟩
  | 17 => ⟨S32768x6, .f32⟩
  | 18 => ⟨S_, .f32⟩
  | 19 => ⟨S32768x6, .f32⟩
  | 20 => ⟨S32768x6, .i1⟩
  | 21 => ⟨S_, .f32⟩
  | 22 => ⟨S32768x6, .f32⟩
  | 23 => ⟨S32768x6, .f32⟩
  | 24 => ⟨S_, .f32⟩
  | 25 => ⟨S32768x6, .f32⟩
  | 26 => ⟨S32768x6, .f32⟩
  | 27 => ⟨S32768x6, .f32⟩
  | 28 => ⟨S32768x6, .f32⟩
  | 29 => ⟨S_, .f32⟩
  | 30 => ⟨S_, .f32⟩
  | 31 => ⟨S_, .f32⟩
  | 32 => ⟨S32768, .f32⟩
  | 33 => ⟨S32768, .f32⟩
  | 34 => ⟨S_, .f32⟩
  | 35 => ⟨S32768, .f32⟩
  | 36 => ⟨S32768, .f32⟩
  | 37 => ⟨S_, .f32⟩
  | 38 => ⟨S32768, .f32⟩
  | 39 => ⟨S32768, .f32⟩
  | 40 => ⟨S32768x1, .f32⟩
  | 41 => ⟨S32768x6, .f32⟩
  | 42 => ⟨S32768x6, .f32⟩
  | 43 => ⟨S_, .f32⟩
  | 44 => ⟨S32768x1, .f32⟩
  | 45 => ⟨S32768x1, .f32⟩
  | 46 => ⟨S1x6, .f32⟩
  | 47 => ⟨S32768x6, .f32⟩
  | 48 => ⟨S32768x6, .f32⟩
  | 49 => ⟨S32768x6, .f32⟩
  | 50 => ⟨S32768x6, .f32⟩
  | 51 => ⟨S32768x1, .f32⟩
  | 52 => ⟨S32768, .f32⟩
  | 53 => ⟨S_, .f32⟩
  | 54 => ⟨S32768, .f32⟩
  | 55 => ⟨S32768, .f32⟩
  | 56 => ⟨S32768, .f32⟩
  | 57 => ⟨S32768, .f32⟩
  | 58 => ⟨S32768, .i1⟩
  | 59 => ⟨S32768, .f32⟩
  | 60 => ⟨S32768, .f32⟩
  | 61 => ⟨S32768, .f32⟩
  | 62 => ⟨S32768, .f32⟩
  | 63 => ⟨S32768, .f32⟩
  | 64 => ⟨S32768, .f32⟩
  | 65 => ⟨S32768, .f32⟩
  | 66 => ⟨S32768, .f32⟩
  | 67 => ⟨S32768x1, .f32⟩
  | 68 => ⟨S32768, .f32⟩
  | 69 => ⟨S32768x1, .f32⟩
  | 70 => ⟨S32768, .f32⟩
  | 71 => ⟨S_, .f32⟩
  | 72 => ⟨S32768, .f32⟩
  | 73 => ⟨S32768, .f32⟩
  | 74 => ⟨S32768, .f32⟩
  | 75 => ⟨S32768, .f32⟩
  | 76 => ⟨S32768, .i1⟩
  | 77 => ⟨S32768, .f32⟩
  | 78 => ⟨S32768, .f32⟩
  | 79 => ⟨S32768, .f32⟩
  | 80 => ⟨S32768, .f32⟩
  | 81 => ⟨S32768, .f32⟩
  | 82 => ⟨S32768, .f32⟩
  | 83 => ⟨S32768, .f32⟩
  | 84 => ⟨S32768, .f32⟩
  | 85 => ⟨S32768x1, .f32⟩
  | 86 => ⟨S32768, .f32⟩
  | 87 => ⟨S32768x1, .f32⟩
  | 88 => ⟨S32768, .f32⟩
  | 89 => ⟨S32768x1, .f32⟩
  | 90 => ⟨S32768, .f32⟩
  | 91 => ⟨S_, .f32⟩
  | 92 => ⟨S32768, .f32⟩
  | 93 => ⟨S32768, .f32⟩
  | 94 => ⟨S32768, .f32⟩
  | 95 => ⟨S32768, .f32⟩
  | 96 => ⟨S32768, .i1⟩
  | 97 => ⟨S32768, .f32⟩
  | 98 => ⟨S32768, .f32⟩
  | 99 => ⟨S32768, .f32⟩
  | 100 => ⟨S32768, .f32⟩
  | 101 => ⟨S32768, .f32⟩
  | 102 => ⟨S32768, .f32⟩
  | 103 => ⟨S32768, .f32⟩
  | 104 => ⟨S32768, .f32⟩
  | 105 => ⟨S1x1323x3, .f32⟩
  | 106 => ⟨S32768x1x3, .f32⟩
  | 107 => ⟨S32768x1323x3, .f32⟩
  | 108 => ⟨S32768x1323x3, .f32⟩
  | 109 => ⟨S32768x1323x3, .f32⟩
  | 110 => ⟨S32768x1323x1, .f32⟩
  | 111 => ⟨S32768x1323, .f32⟩
  | 112 => ⟨S32768x1323x1, .f32⟩
  | 113 => ⟨S32768x1323, .f32⟩
  | 114 => ⟨S32768x1323x1, .f32⟩
  | 115 => ⟨S32768x1323, .f32⟩
  | 116 => ⟨S32768x1, .f32⟩
  | 117 => ⟨S32768x1323, .f32⟩
  | 118 => ⟨S32768x1323, .f32⟩
  | 119 => ⟨S32768x1, .f32⟩
  | 120 => ⟨S32768x1323, .f32⟩
  | 121 => ⟨S32768x1323, .f32⟩
  | 122 => ⟨S32768x1323, .f32⟩
  | 123 => ⟨S32768x1, .f32⟩
  | 124 => ⟨S32768x1323, .f32⟩
  | 125 => ⟨S32768x1323, .f32⟩
  | 126 => ⟨S32768x1, .f32⟩
  | 127 => ⟨S32768x1323, .f32⟩
  | _ => ⟨S32768x1024, .f32⟩

abbrev hbmTy0_1 (i : Nat) : BufTy := match i % 128 with
  | 0 => ⟨S32768x1323, .f32⟩
  | 1 => ⟨S32768x1323, .f32⟩
  | 2 => ⟨S32768x1, .f32⟩
  | 3 => ⟨S32768x1323, .f32⟩
  | 4 => ⟨S32768x1323, .f32⟩
  | 5 => ⟨S32768x1323, .f32⟩
  | 6 => ⟨S32768x1, .f32⟩
  | 7 => ⟨S32768x1323, .f32⟩
  | 8 => ⟨S32768x1323, .f32⟩
  | 9 => ⟨S32768x1323, .f32⟩
  | 10 => ⟨S32768x1323, .f32⟩
  | 11 => ⟨S32768x1323, .f32⟩
  | 12 => ⟨S32768x1323, .f32⟩
  | 13 => ⟨S32768x1323, .f32⟩
  | 14 => ⟨S32768, .f32⟩
  | 15 => ⟨S32768, .f32⟩
  | 16 => ⟨S32768, .f32⟩
  | 17 => ⟨S32768, .f32⟩
  | 18 => ⟨S32768, .f32⟩
  | 19 => ⟨S_, .f32⟩
  | 20 => ⟨S32768x1323, .f32⟩
  | 21 => ⟨S32768x1323, .f32⟩
  | 22 => ⟨S32768x1, .f32⟩
  | 23 => ⟨S32768x1323, .f32⟩
  | 24 => ⟨S32768x1323, .f32⟩
  | 25 => ⟨S_, .f32⟩
  | 26 => ⟨S32768x1323, .f32⟩
  | 27 => ⟨S32768x1323, .f32⟩
  | 28 => ⟨S_, .f32⟩
  | 29 => ⟨S32768, .f32⟩
  | 30 => ⟨S32768x1, .f32⟩
  | 31 => ⟨S32768x1323, .f32⟩
  | 32 => ⟨S32768x1323, .f32⟩
  | 33 => ⟨S32768x1323, .f32⟩
  | 34 => ⟨S_, .f32⟩
  | 35 => ⟨S32768, .f32⟩
  | 36 => ⟨S32768x1, .f32⟩
  | 37 => ⟨S_, .f32⟩
  | 38 => ⟨S32768x1, .f32⟩
  | 39 => ⟨S32768x1, .f32⟩
  | 40 => ⟨S32768x1323, .f32⟩
  | 41 => ⟨S32768x1323, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_call3_cst : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_call4_cst : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_7 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_8 : Ref sig .tc := ⟨.hbm, 153, rfl⟩
abbrev main_v93 : Ref sig .tc := ⟨.hbm, 154, rfl⟩
abbrev main_v94 : Ref sig .tc := ⟨.hbm, 155, rfl⟩
abbrev main_cst_9 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_cst_10 : Ref sig .tc := ⟨.hbm, 162, rfl⟩
abbrev main_v100 : Ref sig .tc := ⟨.hbm, 163, rfl⟩
abbrev main_v101 : Ref sig .tc := ⟨.hbm, 164, rfl⟩
abbrev main_cst_11 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩

abbrev nD : Nat := 1
abbrev τ : Topo := Topo.v7x

variable {F : FTy → Type} [FloatOps F]

class Facts₀ : Prop where
  transposes_S3x1024_S1024x3_1_0 : S3x1024.Transposes [1, 0] S1024x3
  bcast_S3_S1x3_1 : S3.BroadcastsInDim S1x3 (![1] : Fin 1 → Fin S1x3.rank)
  bcast_S1x3_S32768x3_0_1 : S1x3.BroadcastsInDim S32768x3 (![0, 1] : Fin 2 → Fin S32768x3.rank)
  transposes_S6x1024_S1024x6_1_0 : S6x1024.Transposes [1, 0] S1024x6
  bcast_S6_S1x6_1 : S6.BroadcastsInDim S1x6 (![1] : Fin 1 → Fin S1x6.rank)
  bcast_S1x6_S32768x6_0_1 : S1x6.BroadcastsInDim S32768x6 (![0, 1] : Fin 2 → Fin S32768x6.rank)
  bcast_S_S32768x6 : S_.BroadcastsInDim S32768x6 (![] : Fin 0 → Fin S32768x6.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x6_0_1 : S32768x1.BroadcastsInDim S32768x6 (![0, 1] : Fin 2 → Fin S32768x6.rank)
  bcast_S_S32768x1 : S_.BroadcastsInDim S32768x1 (![] : Fin 0 → Fin S32768x1.rank)
  slices_S32768x6_S32768x1_0_0 : S32768x6.Slices ![0, 0] S32768x1
  shapeCasts_S32768x1_S32768 : S32768x1.ShapeCasts S32768
  slices_S32768x6_S32768x1_0_1 : S32768x6.Slices ![0, 1] S32768x1
  slices_S32768x6_S32768x1_0_2 : S32768x6.Slices ![0, 2] S32768x1
  slices_S32768x6_S32768x1_0_3 : S32768x6.Slices ![0, 3] S32768x1
  slices_S32768x6_S32768x1_0_4 : S32768x6.Slices ![0, 4] S32768x1
  slices_S32768x6_S32768x1_0_5 : S32768x6.Slices ![0, 5] S32768x1
  bcast_S1323x3_S1x1323x3_1_2 : S1323x3.BroadcastsInDim S1x1323x3 (![1, 2] : Fin 2 → Fin S1x1323x3.rank)
  bcast_S32768x3_S32768x1x3_0_2 : S32768x3.BroadcastsInDim S32768x1x3 (![0, 2] : Fin 2 → Fin S32768x1x3.rank)
  bcast_S1x1323x3_S32768x1323x3_0_1_2 : S1x1323x3.BroadcastsInDim S32768x1323x3 (![0, 1, 2] : Fin 3 → Fin S32768x1323x3.rank)
  bcast_S32768x1x3_S32768x1323x3_0_1_2 : S32768x1x3.BroadcastsInDim S32768x1323x3 (![0, 1, 2] : Fin 3 → Fin S32768x1323x3.rank)
  slices_S32768x1323x3_S32768x1323x1_0_0_0 : S32768x1323x3.Slices ![0, 0, 0] S32768x1323x1
  shapeCasts_S32768x1323x1_S32768x1323 : S32768x1323x1.ShapeCasts S32768x1323
  slices_S32768x1323x3_S32768x1323x1_0_0_1 : S32768x1323x3.Slices ![0, 0, 1] S32768x1323x1
  slices_S32768x1323x3_S32768x1323x1_0_0_2 : S32768x1323x3.Slices ![0, 0, 2] S32768x1323x1
  bcast_S32768x1_S32768x1323_0_1 : S32768x1.BroadcastsInDim S32768x1323 (![0, 1] : Fin 2 → Fin S32768x1323.rank)
  bcast_S_S32768x1323 : S_.BroadcastsInDim S32768x1323 (![] : Fin 0 → Fin S32768x1323.rank)
  reducesTo_S32768x1323_S32768_d1 : S32768x1323.ReducesTo [1] S32768
  h_S_ : 0 < S_.numel
  dot_S32768x1024_S1024x3_S32768x3_1_0_0_1_n_n_wf : DotDims.WF S32768x1024 S1024x3 S32768x3 [1] [0] [0] [1] [] []
  dot_S32768x1024_S1024x6_S32768x6_1_0_0_1_n_n_wf : DotDims.WF S32768x1024 S1024x6 S32768x6 [1] [0] [0] [1] [] []

variable [Facts₀]

def dot_S32768x1024_S1024x3_S32768x3_1_0_0_1_n_n : DotDims S32768x1024 S1024x3 S32768x3 where
  lhsContracting := [1]
  rhsContracting := [0]
  lhsNonContracting := [0]
  rhsNonContracting := [1]
  lhsBatch := []
  rhsBatch := []
  wf := dot_S32768x1024_S1024x3_S32768x3_1_0_0_1_n_n_wf
def dot_S32768x1024_S1024x6_S32768x6_1_0_0_1_n_n : DotDims S32768x1024 S1024x6 S32768x6 where
  lhsContracting := [1]
  rhsContracting := [0]
  lhsNonContracting := [0]
  rhsNonContracting := [1]
  lhsBatch := []
  rhsBatch := []
  wf := dot_S32768x1024_S1024x6_S32768x6_1_0_0_1_n_n_wf

class Facts : Prop extends Facts₀ where

variable [Facts]
-- ==== Proof.Spec.lean ====
/-
  The function both programs compute, one sample (one row of the representation) at a time, on the extended
  reals. A sample's row `xr` of 1024 features gives, through two small linear maps, a mean `mean k` (k < 3) and six
  raw scales; `elu1` makes the scales positive; the sample's signal probability `s`, clipped to [0, 1] and cubed
  (`alpha`), mixes them with the isotropic lower-triangular factor 5·I: the diagonal entries (0, 2, 5 in row-major
  order) are `alpha·scale + (1 - alpha)·5` passed through `softplus`, the entries below the diagonal (1, 3, 4)
  are `alpha·scale`. With L that lower-triangular factor, `z = L⁻¹ (pix n - mean)` by forward substitution
  (`gz0`, `gz1`, `gz2`), the log-density of pixel n is `-½ |z|² - log det L - 1.5·log 2π` (`logp`), and the result is the
  softmax of that row over the 1323 pixels, stabilised by the row's maximum, with 1e-10 added to the normaliser
  (`outRow`). Every operation is the exact one of the extended reals (`Ideal.div`, `Ideal.exp`, `Ideal.log`,
  `Ideal.log1p`); the four float literals that are never evaluated stay the f32 words the programs print.
-/
import Idealize.ShloMosaic.PureOps.Ideal
import Idealize.ShloMosaic.PureOps.Ideal.Laws

noncomputable section

namespace Cert.Spec

open Idealize.ShloMosaic
open scoped BigOperators

/-- The isotropic width 5, as the f32 word the programs print. -/
abbrev five : EReal := Ideal.ofBits .f32 0x40A00000#32
/-- The factor -1/2 of the quadratic form. -/
abbrev negHalf : EReal := Ideal.ofBits .f32 0xBF000000#32
/-- 1.5 · log 2π, rounded to f32 (the same word in both programs). -/
abbrev logNorm : EReal := Ideal.ofBits .f32 0x40306FAB#32
/-- The 1e-10 added to the softmax's normaliser (the same word in both programs). -/
abbrev eps : EReal := Ideal.ofBits .f32 0x2EDBE6FF#32

/-- A row's inner product with one weight row. -/
def dot (xr w : Fin 1024 → EReal) : EReal := ∑ j : Fin 1024, xr j * w j

/-- elu(r) + 1: `r + 1` above zero, `e^{min(r, 0)}` otherwise. -/
def elu1 (r : EReal) : EReal := if 0 < r then r + 1 else Ideal.exp (min r 0)

/-- The signal probability clipped to [0, 1]: always a real number, whatever `s` is. -/
def clip01 (s : EReal) : EReal := min 1 (max 0 s)

/-- The mixing weight: the clipped probability cubed. -/
def alpha (s : EReal) : EReal := clip01 s * clip01 s * clip01 s

/-- softplus as log-add-exp against 0: `max(x, 0) + log(1 + e^{-|x|})`, with `|x| = max x (-x)`. -/
def softplus (x : EReal) : EReal := max x 0 + Ideal.log1p (Ideal.exp (-(max x (-x))))

/-- The maximum of a row of 1323 values, folded from -∞. -/
def rowMax (f : Fin 1323 → EReal) : EReal := (Finset.univ : Finset (Fin 1323)).fold max ⊥ f

/-- The stabilised softmax of a row, with `eps` added to the normaliser. -/
def softmaxRow (f : Fin 1323 → EReal) (n : Fin 1323) : EReal :=
  Ideal.div (Ideal.exp (f n - rowMax f)) ((∑ k : Fin 1323, Ideal.exp (f k - rowMax f)) + eps)

/-! ## A point's log-density from the nine parameters of a Gaussian -/

/-- Forward substitution, first row: `z0 = (px - m0) / l00`. -/
def gz0 (m0 l00 px : EReal) : EReal := Ideal.div (px - m0) l00

/-- Second row: `z1 = ((py - m1) - l10·z0) / l11`. -/
def gz1 (m0 m1 l00 l10 l11 px py : EReal) : EReal :=
  Ideal.div ((py - m1) - l10 * gz0 m0 l00 px) l11

/-- Third row: `z2 = (((pz - m2) - l20·z0) - l21·z1) / l22`. -/
def gz2 (m0 m1 m2 l00 l10 l11 l20 l21 l22 px py pz : EReal) : EReal :=
  Ideal.div (((pz - m2) - l20 * gz0 m0 l00 px) - l21 * gz1 m0 m1 l00 l10 l11 px py) l22

/-- The log-density of the point (px, py, pz) under the Gaussian with mean m and lower-triangular factor L:
    `-½ (z0² + z1² + z2²) - (log l00 + log l11 + log l22) - 1.5·log 2π`, the sums taken in that order. -/
def gauss (m0 m1 m2 l00 l10 l11 l20 l21 l22 px py pz : EReal) : EReal :=
  negHalf * (gz0 m0 l00 px * gz0 m0 l00 px + gz1 m0 m1 l00 l10 l11 px py * gz1 m0 m1 l00 l10 l11 px py
      + gz2 m0 m1 m2 l00 l10 l11 l20 l21 l22 px py pz * gz2 m0 m1 m2 l00 l10 l11 l20 l21 l22 px py pz)
    - (Ideal.log l00 + Ideal.log l11 + Ideal.log l22) - logNorm

/-! ## A sample's parameters from its inputs, and its probability map -/

section Row

variable (xr : Fin 1024 → EReal) (s : EReal) (wm : Fin 3 → Fin 1024 → EReal) (bm : Fin 3 → EReal)
  (ws : Fin 6 → Fin 1024 → EReal) (bs : Fin 6 → EReal) (pix : Fin 3 → Fin 1323 → EReal)

/-- Coordinate k of the sample's mean. -/
def mean (k : Fin 3) : EReal := dot xr (wm k) + bm k

/-- Entry k of the sample's positive scales. -/
def scale (k : Fin 6) : EReal := elu1 (dot xr (ws k) + bs k)

/-- A diagonal entry before softplus: the scale mixed with the isotropic width. -/
def mixDiag (k : Fin 6) : EReal := alpha s * scale xr ws bs k + (1 - alpha s) * five

/-- An entry below the diagonal: the scale mixed with zero. -/
def mixOff (k : Fin 6) : EReal := alpha s * scale xr ws bs k

/-- The factor's entries, filled row-major: (0, 0), (1, 0), (1, 1), (2, 0), (2, 1), (2, 2). -/
def l00 : EReal := softplus (mixDiag xr s ws bs 0)
def l10 : EReal := mixOff xr s ws bs 1
def l11 : EReal := softplus (mixDiag xr s ws bs 2)
def l20 : EReal := mixOff xr s ws bs 3
def l21 : EReal := mixOff xr s ws bs 4
def l22 : EReal := softplus (mixDiag xr s ws bs 5)

/-- The log-density of pixel n under the sample's Gaussian. -/
def logp (n : Fin 1323) : EReal :=
  gauss (mean xr wm bm 0) (mean xr wm bm 1) (mean xr wm bm 2) (l00 xr s ws bs) (l10 xr s ws bs) (l11 xr s ws bs)
    (l20 xr s ws bs) (l21 xr s ws bs) (l22 xr s ws bs) (pix 0 n) (pix 1 n) (pix 2 n)

/-- The sample's probability map: the softmax of its log-densities over the pixels. -/
def outRow (n : Fin 1323) : EReal := softmaxRow (logp xr s wm bm ws bs pix) n

end Row

end Cert.Spec

end
-- ==== Proof.SpecLaws.lean ====
/-
  Small facts about the extended reals that join the two programs' spellings of one formula to `Cert.Spec`.
  The words for 0, 1, 3 and -∞ denote those numbers. A test `x ≠ x` is never true on a linear order, under
  either spelling of the comparison, so a guard on it always takes its second branch. Subtracting zero changes
  nothing and `0 - a = -a`, so the two spellings of softplus are the specification's. A probability clipped to
  [0, 1] is a real number c with 0 ≤ c ≤ 1, whatever was clipped, and for such c the real power c ^ 3 is c·c·c.
  Mixing with zero adds nothing: `a·t + (1 - a)·0 = a·t` on all of the extended reals.
-/
import proofs.«145389_j78314433675745_1_alg».proof.Proof.Spec

noncomputable section

namespace Cert.Spec

open Idealize.ShloMosaic

/-- The word of `+0.0` denotes 0. -/
theorem ofBits_zero : Ideal.ofBits .f32 0x00000000#32 = 0 := Ideal.ofBits_zero_f32

/-- The word of `1.0` denotes 1. -/
theorem ofBits_one : Ideal.ofBits .f32 0x3F800000#32 = 1 := by
  simp [Ideal.ofBits, Ideal.ieee, -EReal.coe_mul]; norm_num

/-- The word of `3.0` denotes the real 3. -/
theorem ofBits_three : Ideal.ofBits .f32 0x40400000#32 = ((3 : ℝ) : EReal) := by
  simp [Ideal.ofBits, Ideal.ieee, -EReal.coe_mul]; norm_num

/-- The word of `-inf` denotes the bottom element. -/
theorem ofBits_negInf : Ideal.ofBits .f32 0xFF800000#32 = ⊥ := by
  simp [Ideal.ofBits, Ideal.ieee]

/-- `x ≠ x` is false: the ordered spelling of the comparison. -/
theorem cmp_one_self (x : EReal) : Ideal.cmp .one x x = 0#1 := by
  simp [Ideal.cmp]

/-- `x ≠ x` is false: the unordered spelling is the same comparison. -/
theorem cmp_une_self (x : EReal) : Ideal.cmp .une x x = 0#1 := by
  simp [Ideal.cmp]

/-- `r > 0` as a one-bit word. -/
theorem cmp_ogt_zero (r : EReal) : Ideal.cmp .ogt r 0 = 1#1 ↔ 0 < r := by
  by_cases h : 0 < r <;> simp [Ideal.cmp, h]

/-- softplus with `x - 0` for `x` and `0 - |·|` for the negation. -/
theorem softplus_sub_form (x : EReal) :
    max x 0 + Ideal.log1p (Ideal.exp (0 - max (x - 0) (-(x - 0)))) = softplus x := by
  simp only [softplus, sub_zero, zero_sub]

/-- softplus with `x - 0` for `x` and a negation. -/
theorem softplus_neg_form (x : EReal) :
    max x 0 + Ideal.log1p (Ideal.exp (-(max (x - 0) (-(x - 0))))) = softplus x := by
  simp only [softplus, sub_zero]

/-- A clipped probability is a real number in [0, 1], whatever was clipped. -/
theorem clip01_real (s : EReal) : ∃ c : ℝ, clip01 s = (c : EReal) ∧ 0 ≤ c ∧ c ≤ 1 := by
  induction s using EReal.rec with
  | bot => exact ⟨0, by simp [clip01], le_refl _, zero_le_one⟩
  | top => exact ⟨1, by simp [clip01], zero_le_one, le_refl _⟩
  | coe r =>
    refine ⟨min 1 (max 0 r), ?_, le_min zero_le_one (le_max_left _ _), min_le_left _ _⟩
    simp only [clip01]
    rw [show (0 : EReal) = ((0 : ℝ) : EReal) from rfl, show (1 : EReal) = ((1 : ℝ) : EReal) from rfl,
      ← EReal.coe_strictMono.monotone.map_max, ← EReal.coe_strictMono.monotone.map_min]

/-- The real cube of a clipped probability is its threefold product. -/
theorem pow_clip (s : EReal) : Ideal.pow (clip01 s) ((3 : ℝ) : EReal) = alpha s := by
  obtain ⟨c, hc, _, _⟩ := clip01_real s
  simp only [alpha, hc]
  show ((Real.rpow c 3 : ℝ) : EReal) = _
  rw [← EReal.coe_mul, ← EReal.coe_mul]
  congr 1
  show c ^ (3 : ℝ) = c * c * c
  rw [show (3 : ℝ) = ((3 : ℕ) : ℝ) by norm_num, Real.rpow_natCast]
  ring

/-- Mixing with zero adds nothing. -/
theorem mix_zero (a t : EReal) : a * t + (1 - a) * 0 = a * t := by
  rw [mul_zero, add_zero]

end Cert.Spec

end
-- ==== Proof.SpecArr.lean ====
/-
  The result as ONE function of the seven argument arrays, index by index. Entry (b, n) of the [32768, 1323]
  result is sample b's probability of pixel n: `Cert.Spec.outRow` of row b of the representation, entry b of the
  signal probabilities, the two weight matrices and their biases row by row, and the pixel table read
  coordinate-first (`pix k n` is coordinate k of pixel n, entry (n, k) of the [1323, 3] table).
-/
import proofs.«145389_j78314433675745_1_alg».proof.Proof.Spec
import Idealize.ShloMosaic.Lib.ValueIdx

noncomputable section

namespace Cert.Spec

open Idealize.ShloMosaic Idealize.ShloMosaic.ValueIdx

/-- Entry (b, n) of the result, from the argument arrays. -/
def Gat (A0 : (⟨2, ![32768, 1024]⟩ : Shape).Idx → EReal) (A1 : (⟨1, ![32768]⟩ : Shape).Idx → EReal)
    (A2 : (⟨2, ![3, 1024]⟩ : Shape).Idx → EReal) (A3 : (⟨1, ![3]⟩ : Shape).Idx → EReal)
    (A4 : (⟨2, ![6, 1024]⟩ : Shape).Idx → EReal) (A5 : (⟨1, ![6]⟩ : Shape).Idx → EReal)
    (A6 : (⟨2, ![1323, 3]⟩ : Shape).Idx → EReal) (b : Fin 32768) (n : Fin 1323) : EReal :=
  outRow (fun j => A0 (ix2 b j)) (A1 (ix1 b)) (fun k j => A2 (ix2 k j)) (fun k => A3 (ix1 k))
    (fun k j => A4 (ix2 k j)) (fun k => A5 (ix1 k)) (fun k p => A6 (ix2 p k)) n

/-- The whole result array. -/
def G (A0 : (⟨2, ![32768, 1024]⟩ : Shape).Idx → EReal) (A1 : (⟨1, ![32768]⟩ : Shape).Idx → EReal)
    (A2 : (⟨2, ![3, 1024]⟩ : Shape).Idx → EReal) (A3 : (⟨1, ![3]⟩ : Shape).Idx → EReal)
    (A4 : (⟨2, ![6, 1024]⟩ : Shape).Idx → EReal) (A5 : (⟨1, ![6]⟩ : Shape).Idx → EReal)
    (A6 : (⟨2, ![1323, 3]⟩ : Shape).Idx → EReal) : (⟨2, ![32768, 1323]⟩ : Shape).Idx → EReal :=
  fun i => Gat A0 A1 A2 A3 A4 A5 A6 ⟨(i 0).val, (i 0).isLt⟩ ⟨(i 1).val, (i 1).isLt⟩

/-- `G` at explicit coordinates. -/
theorem G_ix2 (A0 : (⟨2, ![32768, 1024]⟩ : Shape).Idx → EReal) (A1 : (⟨1, ![32768]⟩ : Shape).Idx → EReal)
    (A2 : (⟨2, ![3, 1024]⟩ : Shape).Idx → EReal) (A3 : (⟨1, ![3]⟩ : Shape).Idx → EReal)
    (A4 : (⟨2, ![6, 1024]⟩ : Shape).Idx → EReal) (A5 : (⟨1, ![6]⟩ : Shape).Idx → EReal)
    (A6 : (⟨2, ![1323, 3]⟩ : Shape).Idx → EReal) (b : Fin 32768) (n : Fin 1323) :
    G A0 A1 A2 A3 A4 A5 A6 (ix2 b n) = Gat A0 A1 A2 A3 A4 A5 A6 b n := rfl

/-- An array that agrees with `G` at every pair of coordinates is `G`. -/
theorem eq_G_of_apply (A0 : (⟨2, ![32768, 1024]⟩ : Shape).Idx → EReal) (A1 : (⟨1, ![32768]⟩ : Shape).Idx → EReal)
    (A2 : (⟨2, ![3, 1024]⟩ : Shape).Idx → EReal) (A3 : (⟨1, ![3]⟩ : Shape).Idx → EReal)
    (A4 : (⟨2, ![6, 1024]⟩ : Shape).Idx → EReal) (A5 : (⟨1, ![6]⟩ : Shape).Idx → EReal)
    (A6 : (⟨2, ![1323, 3]⟩ : Shape).Idx → EReal) (X : (⟨2, ![32768, 1323]⟩ : Shape).Idx → EReal)
    (h : ∀ (b : Fin 32768) (n : Fin 1323), X (ix2 b n) = Gat A0 A1 A2 A3 A4 A5 A6 b n) :
    X = G A0 A1 A2 A3 A4 A5 A6 := by
  funext i
  rw [eq_ix2 i]
  exact (h _ _).trans (G_ix2 A0 A1 A2 A3 A4 A5 A6 _ _).symm

end Cert.Spec

end
-- ==== Proof.KerGauss.lean ====
/-
  The last stretch of the kernel body, read at entry (r, n) of a block: from a row's nine Gaussian parameters and
  the three coordinate rows of the pixel table it forms the log-density of every pixel, and the stored value is
  the stabilised softmax of that row of log-densities.
-/
import proofs.«145389_j78314433675745_1_alg».proof.Proof.Gen.KernelIdeal.Value
import proofs.«145389_j78314433675745_1_alg».proof.Proof.SpecLaws
import proofs.«145389_j78314433675745_1_alg».proof.Proof.SpecArr
import Idealize.ShloMosaic.Lib.ValueIdx
import Idealize.ShloMosaic.Lib.ValueLayout
import Idealize.ShloMosaic.PureOps.Ideal.Laws

noncomputable section

namespace Cert.KernelIdeal.KerGauss

open Cert.KernelIdeal Cert.KernelIdeal.Gen Idealize.ShloMosaic Idealize.ShloMosaic.TcCoe Idealize.SL.Sem Idealize.ShloMosaic.ValueIdx
open scoped BigOperators

/-! ## Layout operations on a column, read at an index -/

/-- A column [a, 1] broadcast along the lanes reads, at (p, c), the column's entry of row p. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem castCol_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column 0 of a three-column matrix, as a column. -/
theorem sliceCol0 {α : Type} (X : S256x3.Idx → α) (h : S256x3.Slices ![0, 0] S256x1) (a : Fin 256) (u : Fin 1) :
    extractStridedSlice S256x1 ![0, 0] X h (ix2 a u) = X (ix2 a 0) :=
  slice2_axis1_apply 0 X h a u 0 (by have := u.isLt; show (0 : ℕ) = 0 + u.val; omega)

/-- Column 1 of a three-column matrix, as a column. -/
theorem sliceCol1 {α : Type} (X : S256x3.Idx → α) (h : S256x3.Slices ![0, 1] S256x1) (a : Fin 256) (u : Fin 1) :
    extractStridedSlice S256x1 ![0, 1] X h (ix2 a u) = X (ix2 a 1) :=
  slice2_axis1_apply 1 X h a u 1 (by have := u.isLt; show (1 : ℕ) = 1 + u.val; omega)

/-- Column 2 of a three-column matrix, as a column. -/
theorem sliceCol2 {α : Type} (X : S256x3.Idx → α) (h : S256x3.Slices ![0, 2] S256x1) (a : Fin 256) (u : Fin 1) :
    extractStridedSlice S256x1 ![0, 2] X h (ix2 a u) = X (ix2 a 2) :=
  slice2_axis1_apply 2 X h a u 2 (by have := u.isLt; show (2 : ℕ) = 2 + u.val; omega)

/-! ## The exponential and the logarithm at an index -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-! ## A row's maximum and sum -/

/-- The index over row r with lane k put back is (r, k). -/
theorem lift_row (h : S256x1323.Reduces [1] S256) (r : Fin 256) (k : Fin 1323) :
    h.lift (ix1 r) k = ix2 r k := by
  funext c
  match c with
  | ⟨0, _⟩ => exact Fin.ext rfl
  | ⟨1, _⟩ => exact Fin.ext rfl

/-- The lane maximum of row r, folded from -∞. -/
theorem rowMax_read (src : FVec Ideal S256x1323 .f32) (h : S256x1323.Reduces [1] S256) (hφ : FKind.Formats .f32)
    (hacc : @Eq (BitVec (FTy.bits .f32)) 0xFF800000#32 0xFF800000#32) (r : Fin 256) :
    multiReduction (F := Ideal) .maximumf [1] S256 src 0xFF800000#32 h hφ hacc (ix1 r)
      = Cert.Spec.rowMax (fun q => src (ix2 r q)) := by
  refine (Ideal.multiReduction_maximumf_single src _ h hφ hacc (ix1 r)).trans ?_
  have hf : (fun k : Fin 1323 => src (h.lift (ix1 r) k)) = fun q : Fin 1323 => src (ix2 r q) :=
    funext fun k => congrArg src (lift_row h r k)
  exact congrArg₂ (fun (b : EReal) (f : Fin 1323 → EReal) => (Finset.univ : Finset (Fin 1323)).fold max b f)
    Cert.Spec.ofBits_negInf hf

/-- The lane sum of row r. -/
theorem rowSum_read (src : FVec Ideal S256x1323 .f32) (h : S256x1323.Reduces [1] S256) (hφ : FKind.Formats .f32)
    (hacc : @Eq (BitVec (FTy.bits .f32)) 0x00000000#32 0x00000000#32) (r : Fin 256) :
    multiReduction (F := Ideal) .add [1] S256 src 0x00000000#32 h hφ hacc (ix1 r)
      = ∑ k : Fin 1323, src (ix2 r k) :=
  (Ideal.multiReduction_add_single src _ h hφ hacc (ix1 r)).trans
    (Finset.sum_congr rfl fun k _ => congrArg src (lift_row h r k))

/-! ## The two stretches -/

/-- The stabilised softmax of a row of the block, after the constant is taken off. -/
theorem pay1_apply (v : FVec Ideal S256x1323 .f32) (r : Fin 256) (n : Fin 1323) :
    k0_pay1 (F := Ideal) v (Scalar.ofBits .f32 0x40306FAB#32) (ix2 r n)
      = Cert.Spec.softmaxRow (fun q => v (ix2 r q) - Cert.Spec.logNorm) n := by
  unfold k0_pay1 Cert.Spec.softmaxRow
  simp only [divf_apply, exp_apply, subf_apply, addf_apply, broadcast_apply, bcastCol_apply, castCol_apply,
    Ideal.ofBits_def, Cert.Spec.logNorm, Cert.Spec.eps]
  rw [rowSum_read]
  simp only [exp_apply, subf_apply, broadcast_apply, bcastCol_apply, castCol_apply]
  rw [rowMax_read]
  simp only [subf_apply, broadcast_apply]

/-- The log-density of pixel q under row r's Gaussian, the constant still to be taken off. -/
theorem pay25_apply (v10 : FVec Ideal S256x3 .f32) (v44 v49 v50 v68 v82 v84 : FVec Ideal S256x1 .f32) (v87 : IVec S256x1 1)
    (v89 v90 v91 : FVec Ideal S256x1 .f32) (p0 p1 p2 : Vec Ideal S1x1323 .f32) (r : Fin 256) (q : Fin 1323) :
    k0_pay25 (F := Ideal) v10 v44 v49 v50 v68 v82 v84 v87 v89 v90 v91 p0 p1 p2 (ix2 r q) - Cert.Spec.logNorm
      = Cert.Spec.gauss (v10 (ix2 r 0)) (v10 (ix2 r 1)) (v10 (ix2 r 2))
          (v68 (ix2 r 0)) (v44 (ix2 r 0)) (v82 (ix2 r 0)) (v49 (ix2 r 0)) (v50 (ix2 r 0))
          ((select v87 v89 (addf v84 (log1p (exp (subf v91 v90))))) (ix2 r 0))
          (p0 (ix2 0 q)) (p1 (ix2 0 q)) (p2 (ix2 0 q)) := by
  unfold k0_pay25 Cert.Spec.gauss Cert.Spec.gz2 Cert.Spec.gz1 Cert.Spec.gz0
  simp only [divf_apply, mulf_apply, subf_apply, addf_apply, log_apply, broadcast_apply, bcastCol_apply,
    broadcastTo_1b_ab_apply, shapeCast_self, sliceCol0, sliceCol1, sliceCol2, Ideal.ofBits_def, Cert.Spec.negHalf,
    Cert.Spec.logNorm]

theorem pay1_pay25_apply (v10 : FVec Ideal S256x3 .f32) (v44 v49 v50 v68 v82 v84 : FVec Ideal S256x1 .f32) (v87 : IVec S256x1 1)
    (v89 v90 v91 : FVec Ideal S256x1 .f32) (p0 p1 p2 : Vec Ideal S1x1323 .f32) (r : Fin 256) (n : Fin 1323) :
    k0_pay1 (F := Ideal) (k0_pay25 v10 v44 v49 v50 v68 v82 v84 v87 v89 v90 v91 p0 p1 p2) (Scalar.ofBits .f32 0x40306FAB#32) (ix2 r n)
      = Cert.Spec.softmaxRow (fun q => Cert.Spec.gauss (v10 (ix2 r 0)) (v10 (ix2 r 1)) (v10 (ix2 r 2))
          (v68 (ix2 r 0)) (v44 (ix2 r 0)) (v82 (ix2 r 0)) (v49 (ix2 r 0)) (v50 (ix2 r 0))
          ((select v87 v89 (addf v84 (log1p (exp (subf v91 v90))))) (ix2 r 0))
          (p0 (ix2 0 q)) (p1 (ix2 0 q)) (p2 (ix2 0 q))) n :=
  (pay1_apply _ r n).trans (congrArg (fun f => Cert.Spec.softmaxRow f n)
    (funext fun q => pay25_apply v10 v44 v49 v50 v68 v82 v84 v87 v89 v90 v91 p0 p1 p2 r q))

end Cert.KernelIdeal.KerGauss

end
-- ==== Proof.KerLin.lean ====
/-
  The linear part of the kernel body at row r of a block: the mean is the row's inner product with each of the
  three mean weights plus the bias (the change of float format before the matrix unit is the identity on the
  extended reals, and a product accumulated onto zero is the plain sum), and the six scales are elu + 1 of the
  same with the scale weights.
-/
import proofs.«145389_j78314433675745_1_alg».proof.Proof.Gen.KernelIdeal.Value
import proofs.«145389_j78314433675745_1_alg».proof.Proof.SpecLaws
import proofs.«145389_j78314433675745_1_alg».proof.Proof.SpecArr
import Idealize.ShloMosaic.Lib.ValueIdx
import Idealize.ShloMosaic.Lib.ValueLayout
import Idealize.ShloMosaic.PureOps.Ideal.Laws

noncomputable section

namespace Cert.KernelIdeal.KerLin

open Cert.KernelIdeal Cert.KernelIdeal.Gen Idealize.ShloMosaic Idealize.ShloMosaic.TcCoe Idealize.SL.Sem Idealize.ShloMosaic.ValueIdx
open scoped BigOperators

/-! ## Which entries the two products read

Both products contract axis 1 of the row block with axis 1 of the weights: result entry (r, k) at contraction
position c reads the row block at (r, c) and the weights at (k, c). -/

theorem lhsMean_0 (j : S256x3.Idx) (c : dot_S256x1024_S3x1024_S256x3_1_1_0_0_n_n.contr.Idx) :
    (dot_S256x1024_S3x1024_S256x3_1_1_0_0_n_n.lhsIdx j c 0 : ℕ) = j 0 := by
  simp [DotDims.lhsIdx, dot_S256x1024_S3x1024_S256x3_1_1_0_0_n_n] <;> rfl
theorem lhsMean_1 (j : S256x3.Idx) (c : dot_S256x1024_S3x1024_S256x3_1_1_0_0_n_n.contr.Idx) :
    (dot_S256x1024_S3x1024_S256x3_1_1_0_0_n_n.lhsIdx j c 1 : ℕ) = c ⟨0, by decide⟩ := by
  simp [DotDims.lhsIdx, dot_S256x1024_S3x1024_S256x3_1_1_0_0_n_n] <;> rfl
theorem rhsMean_0 (j : S256x3.Idx) (c : dot_S256x1024_S3x1024_S256x3_1_1_0_0_n_n.contr.Idx) :
    (dot_S256x1024_S3x1024_S256x3_1_1_0_0_n_n.rhsIdx j c 0 : ℕ) = j 1 := by
  simp [DotDims.rhsIdx, dot_S256x1024_S3x1024_S256x3_1_1_0_0_n_n] <;> rfl
theorem rhsMean_1 (j : S256x3.Idx) (c : dot_S256x1024_S3x1024_S256x3_1_1_0_0_n_n.contr.Idx) :
    (dot_S256x1024_S3x1024_S256x3_1_1_0_0_n_n.rhsIdx j c 1 : ℕ) = c ⟨0, by decide⟩ := by
  simp [DotDims.rhsIdx, dot_S256x1024_S3x1024_S256x3_1_1_0_0_n_n] <;> rfl

theorem lhsScale_0 (j : S256x6.Idx) (c : dot_S256x1024_S6x1024_S256x6_1_1_0_0_n_n.contr.Idx) :
    (dot_S256x1024_S6x1024_S256x6_1_1_0_0_n_n.lhsIdx j c 0 : ℕ) = j 0 := by
  simp [DotDims.lhsIdx, dot_S256x1024_S6x1024_S256x6_1_1_0_0_n_n] <;> rfl
theorem lhsScale_1 (j : S256x6.Idx) (c : dot_S256x1024_S6x1024_S256x6_1_1_0_0_n_n.contr.Idx) :
    (dot_S256x1024_S6x1024_S256x6_1_1_0_0_n_n.lhsIdx j c 1 : ℕ) = c ⟨0, by decide⟩ := by
  simp [DotDims.lhsIdx, dot_S256x1024_S6x1024_S256x6_1_1_0_0_n_n] <;> rfl
theorem rhsScale_0 (j : S256x6.Idx) (c : dot_S256x1024_S6x1024_S256x6_1_1_0_0_n_n.contr.Idx) :
    (dot_S256x1024_S6x1024_S256x6_1_1_0_0_n_n.rhsIdx j c 0 : ℕ) = j 1 := by
  simp [DotDims.rhsIdx, dot_S256x1024_S6x1024_S256x6_1_1_0_0_n_n] <;> rfl
theorem rhsScale_1 (j : S256x6.Idx) (c : dot_S256x1024_S6x1024_S256x6_1_1_0_0_n_n.contr.Idx) :
    (dot_S256x1024_S6x1024_S256x6_1_1_0_0_n_n.rhsIdx j c 1 : ℕ) = c ⟨0, by decide⟩ := by
  simp [DotDims.rhsIdx, dot_S256x1024_S6x1024_S256x6_1_1_0_0_n_n] <;> rfl

/-! ## The two products at an entry: the plain sum over the 1024 features -/

/-- Entry (r, k) of the row block times the transposed mean weights, accumulated onto zero. -/
theorem prodMean_apply (A : FVec Ideal S256x1024 .bf16) (B : FVec Ideal S3x1024 .bf16) (r : Fin 256) (k : Fin 3) :
    matmul (F := Ideal) dot_S256x1024_S3x1024_S256x3_1_1_0_0_n_n none A B (constant (F := Ideal) S256x3 .f32 0x00000000#32) (ix2 r k)
      = ∑ c : Fin 1024, A (ix2 r c) * B (ix2 k c) := by
  show FloatOps.matmul dot_S256x1024_S3x1024_S256x3_1_1_0_0_n_n none A B _ (ix2 r k) = _
  rw [Ideal.matmul_constant_zero_apply,
    ← Equiv.sum_comp (contrEquiv1 dot_S256x1024_S3x1024_S256x3_1_1_0_0_n_n 1024 rfl rfl).symm]
  refine Finset.sum_congr rfl fun c _ => ?_
  have hc := contrEquiv1_symm_val dot_S256x1024_S3x1024_S256x3_1_1_0_0_n_n 1024 rfl rfl c
  have hl : dot_S256x1024_S3x1024_S256x3_1_1_0_0_n_n.lhsIdx (ix2 r k)
      ((contrEquiv1 dot_S256x1024_S3x1024_S256x3_1_1_0_0_n_n 1024 rfl rfl).symm c) = ix2 r c := by
    funext ax; apply Fin.ext
    match ax with
    | ⟨0, _⟩ => exact lhsMean_0 _ _
    | ⟨1, _⟩ => exact (lhsMean_1 _ _).trans hc
  have hr : dot_S256x1024_S3x1024_S256x3_1_1_0_0_n_n.rhsIdx (ix2 r k)
      ((contrEquiv1 dot_S256x1024_S3x1024_S256x3_1_1_0_0_n_n 1024 rfl rfl).symm c) = ix2 k c := by
    funext ax; apply Fin.ext
    match ax with
    | ⟨0, _⟩ => exact rhsMean_0 _ _
    | ⟨1, _⟩ => exact (rhsMean_1 _ _).trans hc
  rw [hl, hr]

/-- Entry (r, k) of the row block times the transposed scale weights, accumulated onto zero. -/
theorem prodScale_apply (A : FVec Ideal S256x1024 .bf16) (B : FVec Ideal S6x1024 .bf16) (r : Fin 256) (k : Fin 6) :
    matmul (F := Ideal) dot_S256x1024_S6x1024_S256x6_1_1_0_0_n_n none A B (constant (F := Ideal) S256x6 .f32 0x00000000#32) (ix2 r k)
      = ∑ c : Fin 1024, A (ix2 r c) * B (ix2 k c) := by
  show FloatOps.matmul dot_S256x1024_S6x1024_S256x6_1_1_0_0_n_n none A B _ (ix2 r k) = _
  rw [Ideal.matmul_constant_zero_apply,
    ← Equiv.sum_comp (contrEquiv1 dot_S256x1024_S6x1024_S256x6_1_1_0_0_n_n 1024 rfl rfl).symm]
  refine Finset.sum_congr rfl fun c _ => ?_
  have hc := contrEquiv1_symm_val dot_S256x1024_S6x1024_S256x6_1_1_0_0_n_n 1024 rfl rfl c
  have hl : dot_S256x1024_S6x1024_S256x6_1_1_0_0_n_n.lhsIdx (ix2 r k)
      ((contrEquiv1 dot_S256x1024_S6x1024_S256x6_1_1_0_0_n_n 1024 rfl rfl).symm c) = ix2 r c := by
    funext ax; apply Fin.ext
    match ax with
    | ⟨0, _⟩ => exact lhsScale_0 _ _
    | ⟨1, _⟩ => exact (lhsScale_1 _ _).trans hc
  have hr : dot_S256x1024_S6x1024_S256x6_1_1_0_0_n_n.rhsIdx (ix2 r k)
      ((contrEquiv1 dot_S256x1024_S6x1024_S256x6_1_1_0_0_n_n 1024 rfl rfl).symm c) = ix2 k c := by
    funext ax; apply Fin.ext
    match ax with
    | ⟨0, _⟩ => exact rhsScale_0 _ _
    | ⟨1, _⟩ => exact (rhsScale_1 _ _).trans hc
  rw [hl, hr]

/-! ## The two payloads at an entry -/

theorem pay3_apply (v0 : Vec Ideal S256x1024 .f32) (v2 : Vec Ideal S3x1024 .f32) (v7 : Vec Ideal S3 .f32) (r : Fin 256) (k : Fin 3) :
    k0_pay3 (F := Ideal) v0 v2 v7 (ix2 r k)
      = Cert.Spec.mean (fun j => v0 (ix2 r j)) (fun k j => v2 (ix2 k j)) (fun k => v7 (ix1 k)) k := by
  unfold k0_pay3 k0_pay2
  simp only [addf_apply, prodMean_apply, broadcastTo_1b_ab_apply, shapeCast_a_1a_apply, truncf_apply]
  rfl

/-- The kernel's guarded form of elu + 1 on an extended real. -/
theorem elu1_form (x : EReal) :
    Scalar.select (Ideal.cmp .ogt x (Ideal.ofBits .f32 0x00000000#32)) (x + Ideal.ofBits .f32 0x3F800000#32)
        (Ideal.exp (min x (Ideal.ofBits .f32 0x00000000#32))) = Cert.Spec.elu1 x := by
  rw [Cert.Spec.ofBits_zero, Cert.Spec.ofBits_one]
  unfold Cert.Spec.elu1 Scalar.select
  by_cases h : 0 < x
  · have hc : Ideal.cmp .ogt x 0 = 1 := (Cert.Spec.cmp_ogt_zero x).2 h
    rw [if_pos hc, if_pos h]
  · have hc : ¬ Ideal.cmp .ogt x 0 = 1 := fun hc => h ((Cert.Spec.cmp_ogt_zero x).1 hc)
    rw [if_neg hc, if_neg h]

theorem pay4_apply (v0 : Vec Ideal S256x1024 .f32) (v4 : Vec Ideal S6x1024 .f32) (v12 : Vec Ideal S6 .f32) (r : Fin 256) (k : Fin 6) :
    k0_pay4 (F := Ideal) v0 v4 v12 (ix2 r k) = Cert.Spec.scale (fun j => v0 (ix2 r j)) (fun k j => v4 (ix2 k j)) (fun k => v12 (ix1 k)) k := by
  unfold k0_pay4 k0_pay2
  simp only [select_apply, cmpf_apply, addf_apply, minimumf_apply, broadcast_apply, exp, prodScale_apply,
    broadcastTo_1b_ab_apply, shapeCast_a_1a_apply, truncf_apply, Ideal.cmpf_def, Ideal.exp_def, Ideal.ofBits_def]
  exact elu1_form _

end Cert.KernelIdeal.KerLin

end
-- ==== Proof.KerPay.lean ====
/-
  What the kernel's one store leaves at entry (r, n) of a block: the specification's probability of pixel n for
  the sample whose features are row r of the block.

  The store covers the whole block, so the block is the stored value, and every load but three reads a whole
  input block; the three others read rows 0, 1, 2 of the pixel block. Row r's nine Gaussian parameters are then
  read off one by one. The mixing weight is the signal probability clipped to [0, 1] and cubed (`alpha`); column k
  of the positive scales, kept as a [256, 1] column, read at row r is the scale k of that row; an entry below the
  diagonal is `alpha · scale`; a diagonal entry is the softplus of `alpha · scale + (1 - alpha) · 5`, written as
  `max(x, 0) + log(1 + e^{0 - |x - 0|})` under a guard `d ≠ d` that is never true. With the parameters in place the
  row's log-densities are the specification's, and so is their softmax.
-/
import proofs.«145389_j78314433675745_1_alg».proof.Proof.KerGauss
import proofs.«145389_j78314433675745_1_alg».proof.Proof.KerLin
import proofs.«145389_j78314433675745_1_alg».proof.Proof.Gen.KernelIdeal.Value
import proofs.«145389_j78314433675745_1_alg».proof.Proof.SpecLaws
import proofs.«145389_j78314433675745_1_alg».proof.Proof.SpecArr
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.TcCoe Idealize.SL.Sem Idealize.ShloMosaic.ValueIdx

/-! ## Loads and layout -/

/-- The zero offsets of a rank-2 whole-block rectangle, as a function. -/
theorem hz2 : (![0, 0] : Fin 2 → Nat) = fun _ => 0 := funext fun a => by fin_cases a <;> rfl
/-- The zero offset of a rank-1 whole-block rectangle, as a function. -/
theorem hz1 : (![0] : Fin 1 → Nat) = fun _ => 0 := funext fun a => by fin_cases a <;> rfl

/-- A scalar constant on the extended reals is the number its word denotes. -/
theorem sofBits (φ : FTy) (b : BitVec φ.bits) : Scalar.ofBits (F := Ideal) φ b = Ideal.ofBits φ b := rfl

/-- Row 0 of the pixel block as a [1, 1323] vector: its entry q is entry (0, q) of the block. -/
theorem ld_row0 (x6 : Vec Ideal S3x1323 .f32) (q : Fin 1323) : View.ld x6 r0_6 (ix2 0 q) = x6 (ix2 0 q) :=
  congrArg x6 (funext fun a => Fin.ext (by
    match a with
    | ⟨0, _⟩ => show 0 + 1 * 0 = 0; omega
    | ⟨1, _⟩ => show 0 + 1 * q.val = q.val; omega))
/-- Row 1 of the pixel block as a [1, 1323] vector: its entry q is entry (1, q) of the block. -/
theorem ld_row1 (x6 : Vec Ideal S3x1323 .f32) (q : Fin 1323) : View.ld x6 r0_7 (ix2 0 q) = x6 (ix2 1 q) :=
  congrArg x6 (funext fun a => Fin.ext (by
    match a with
    | ⟨0, _⟩ => show 1 + 1 * 0 = 1; omega
    | ⟨1, _⟩ => show 0 + 1 * q.val = q.val; omega))
/-- Row 2 of the pixel block as a [1, 1323] vector: its entry q is entry (2, q) of the block. -/
theorem ld_row2 (x6 : Vec Ideal S3x1323 .f32) (q : Fin 1323) : View.ld x6 r0_8 (ix2 0 q) = x6 (ix2 2 q) :=
  congrArg x6 (funext fun a => Fin.ext (by
    match a with
    | ⟨0, _⟩ => show 2 + 1 * 0 = 2; omega
    | ⟨1, _⟩ => show 0 + 1 * q.val = q.val; omega))

/-- Column `k` of a [256, 6] array, kept as a [256, 1] column, read at row `r`, is entry (r, k). -/
theorem col6_apply {α : Type} (x : S256x6.Idx → α) (off : Fin 2 → Nat) (k : Fin 6) (h0 : off 0 = 0) (h1 : off 1 = k.val)
    (h : S256x6.Slices off S256x1) (r : Fin 256) :
    extractStridedSlice S256x1 off x h (ix2 r 0) = x (ix2 r k) :=
  extractStridedSlice_apply off x h (ix2 r 0) (ix2 r k) fun a => by
    match a with
    | ⟨0, _⟩ => show r.val = off 0 + r.val; omega
    | ⟨1, _⟩ => show k.val = off 1 + 0; omega

/-! ## The mixing weight and the scales' columns -/

/-- The mixing weight of row `r`: the signal probability clipped to [0, 1], cubed. -/
theorem pay5_apply (v24 : Vec Ideal S256x1 .f32) (r : Fin 256) :
    k0_pay5 (F := Ideal) v24 (ix2 r 0) = Cert.Spec.alpha (v24 (ix2 r 0)) := by
  unfold k0_pay5
  simp only [shapeCast_self, mulf_apply, minimumf_apply, maximumf_apply, broadcast_apply, sofBits,
    Cert.Spec.ofBits_zero, Cert.Spec.ofBits_one]
  rfl

/-- One minus the mixing weight. -/
theorem pay6_apply (v24 : Vec Ideal S256x1 .f32) (r : Fin 256) :
    k0_pay6 (F := Ideal) v24 (ix2 r 0) = 1 - Cert.Spec.alpha (v24 (ix2 r 0)) := by
  unfold k0_pay6
  simp only [subf_apply, broadcast_apply, sofBits, Cert.Spec.ofBits_one, pay5_apply]

section Params

variable (x0 : Vec Ideal S256x1024 .f32) (x1 : Vec Ideal S256x1 .f32) (x4 : Vec Ideal S6x1024 .f32) (x5 : Vec Ideal S6 .f32)
  (r : Fin 256)

/-- Column 1 of the scales at row `r`. -/
theorem pay7_apply : k0_pay7 (F := Ideal) x0 x4 x5 (ix2 r 0)
    = Cert.Spec.scale (fun j => x0 (ix2 r j)) (fun k j => x4 (ix2 k j)) (fun k => x5 (ix1 k)) 1 := by
  unfold k0_pay7
  exact (col6_apply _ ![0, 1] 1 rfl rfl _ r).trans (KerLin.pay4_apply x0 x4 x5 r 1)
/-- Column 2 of the scales at row `r`. -/
theorem pay8_apply : k0_pay8 (F := Ideal) x0 x4 x5 (ix2 r 0)
    = Cert.Spec.scale (fun j => x0 (ix2 r j)) (fun k j => x4 (ix2 k j)) (fun k => x5 (ix1 k)) 2 := by
  unfold k0_pay8
  exact (col6_apply _ ![0, 2] 2 rfl rfl _ r).trans (KerLin.pay4_apply x0 x4 x5 r 2)
/-- Column 3 of the scales at row `r`. -/
theorem pay9_apply : k0_pay9 (F := Ideal) x0 x4 x5 (ix2 r 0)
    = Cert.Spec.scale (fun j => x0 (ix2 r j)) (fun k j => x4 (ix2 k j)) (fun k => x5 (ix1 k)) 3 := by
  unfold k0_pay9
  exact (col6_apply _ ![0, 3] 3 rfl rfl _ r).trans (KerLin.pay4_apply x0 x4 x5 r 3)
/-- Column 4 of the scales at row `r`. -/
theorem pay10_apply : k0_pay10 (F := Ideal) x0 x4 x5 (ix2 r 0)
    = Cert.Spec.scale (fun j => x0 (ix2 r j)) (fun k j => x4 (ix2 k j)) (fun k => x5 (ix1 k)) 4 := by
  unfold k0_pay10
  exact (col6_apply _ ![0, 4] 4 rfl rfl _ r).trans (KerLin.pay4_apply x0 x4 x5 r 4)
/-- Column 5 of the scales at row `r`. -/
theorem pay11_apply : k0_pay11 (F := Ideal) x0 x4 x5 (ix2 r 0)
    = Cert.Spec.scale (fun j => x0 (ix2 r j)) (fun k j => x4 (ix2 k j)) (fun k => x5 (ix1 k)) 5 := by
  unfold k0_pay11
  exact (col6_apply _ ![0, 5] 5 rfl rfl _ r).trans (KerLin.pay4_apply x0 x4 x5 r 5)

/-- The mixing weight times column 0 of the scales at row `r`. -/
theorem pay12_apply : k0_pay12 (F := Ideal) x0 x4 x5 x1 (ix2 r 0)
    = Cert.Spec.alpha (x1 (ix2 r 0))
      * Cert.Spec.scale (fun j => x0 (ix2 r j)) (fun k j => x4 (ix2 k j)) (fun k => x5 (ix1 k)) 0 := by
  unfold k0_pay12
  simp only [mulf_apply, pay5_apply]
  exact congrArg _ ((col6_apply _ ![0, 0] 0 rfl rfl _ r).trans (KerLin.pay4_apply x0 x4 x5 r 0))

end Params

/-! ## The three softplus entries

Each is `max(x, 0) + log(1 + e^{0 - |x - 0|})` under the guard `x - 0 ≠ x - 0`, which is never true on a linear
order, so the guarded value `x + 0` is never taken. -/

/-- softplus at `x = v40 + v33 · 5`. -/
theorem pay17_apply (v33 v40 : FVec Ideal S256x1 .f32) (r : Fin 256) :
    k0_pay17 (F := Ideal) v33 v40 (ix2 r 0)
      = Cert.Spec.softplus (v40 (ix2 r 0) + v33 (ix2 r 0) * Cert.Spec.five) := by
  unfold k0_pay17
  simp only [select_apply, cmpf_apply, addf_apply, subf_apply, mulf_apply, maximumf_apply, broadcast_apply,
    Idealize.ShloMosaic.absf, Idealize.ShloMosaic.exp, Idealize.ShloMosaic.log1p, Ideal.absf_def, Ideal.exp_def,
    Ideal.log1p_def, Ideal.cmpf_def, sofBits, Cert.Spec.ofBits_zero, Cert.Spec.cmp_one_self, select_zero,
    Cert.Spec.softplus_sub_form]

/-- softplus at `x = v31 · v36 + v33 · 5`. -/
theorem pay18_apply (v31 v33 v36 : FVec Ideal S256x1 .f32) (r : Fin 256) :
    k0_pay18 (F := Ideal) v31 v33 v36 (ix2 r 0)
      = Cert.Spec.softplus (v31 (ix2 r 0) * v36 (ix2 r 0) + v33 (ix2 r 0) * Cert.Spec.five) := by
  unfold k0_pay18
  simp only [select_apply, cmpf_apply, addf_apply, subf_apply, mulf_apply, maximumf_apply, broadcast_apply,
    Idealize.ShloMosaic.absf, Idealize.ShloMosaic.exp, Idealize.ShloMosaic.log1p, Ideal.absf_def, Ideal.exp_def,
    Ideal.log1p_def, Ideal.cmpf_def, sofBits, Cert.Spec.ofBits_zero, Cert.Spec.cmp_one_self, select_zero,
    Cert.Spec.softplus_sub_form]

/-- softplus at `x = v31 · v39 + v33 · 5`, from its five parts: `max(x, 0)`, the guard, `x + 0`, `|x - 0|` and the
    zero vector. -/
theorem third_apply (v31 v33 v39 : FVec Ideal S256x1 .f32) (r : Fin 256) :
    (select (k0_pay21 (F := Ideal) v31 v33 v39) (k0_pay22 v31 v33 v39)
        (addf (k0_pay19 v31 v33 v39) (log1p (exp (subf (k0_pay24 (F := Ideal)) (k0_pay23 v31 v33 v39)))))) (ix2 r 0)
      = Cert.Spec.softplus (v31 (ix2 r 0) * v39 (ix2 r 0) + v33 (ix2 r 0) * Cert.Spec.five) := by
  unfold k0_pay21 k0_pay22 k0_pay19 k0_pay24 k0_pay23 k0_pay20 k0_pay16
  simp only [select_apply, cmpf_apply, addf_apply, subf_apply, mulf_apply, maximumf_apply, broadcast_apply,
    Idealize.ShloMosaic.absf, Idealize.ShloMosaic.exp, Idealize.ShloMosaic.log1p, Ideal.absf_def, Ideal.exp_def,
    Ideal.log1p_def, Ideal.cmpf_def, sofBits, Cert.Spec.ofBits_zero, Cert.Spec.cmp_one_self, select_zero,
    Cert.Spec.softplus_sub_form]

/-! ## The factor's six entries at row `r` -/

section Row

variable (x0 : Vec Ideal S256x1024 .f32) (x1 : Vec Ideal S256x1 .f32) (x4 : Vec Ideal S6x1024 .f32) (x5 : Vec Ideal S6 .f32)
  (r : Fin 256)

/-- Entry (0, 0) of the factor. -/
theorem l00_apply : k0_pay17 (F := Ideal) (k0_pay6 x1) (k0_pay12 x0 x4 x5 x1) (ix2 r 0)
    = Cert.Spec.l00 (fun j => x0 (ix2 r j)) (x1 (ix2 r 0)) (fun k j => x4 (ix2 k j)) (fun k => x5 (ix1 k)) := by
  rw [pay17_apply, pay12_apply, pay6_apply]; rfl
/-- Entry (1, 0) of the factor. -/
theorem l10_apply : k0_pay13 (F := Ideal) (k0_pay5 x1) (k0_pay7 x0 x4 x5) (ix2 r 0)
    = Cert.Spec.l10 (fun j => x0 (ix2 r j)) (x1 (ix2 r 0)) (fun k j => x4 (ix2 k j)) (fun k => x5 (ix1 k)) := by
  unfold k0_pay13
  simp only [mulf_apply, pay5_apply, pay7_apply]; rfl
/-- Entry (1, 1) of the factor. -/
theorem l11_apply : k0_pay18 (F := Ideal) (k0_pay5 x1) (k0_pay6 x1) (k0_pay8 x0 x4 x5) (ix2 r 0)
    = Cert.Spec.l11 (fun j => x0 (ix2 r j)) (x1 (ix2 r 0)) (fun k j => x4 (ix2 k j)) (fun k => x5 (ix1 k)) := by
  rw [pay18_apply, pay5_apply, pay6_apply, pay8_apply]; rfl
/-- Entry (2, 0) of the factor. -/
theorem l20_apply : k0_pay14 (F := Ideal) (k0_pay5 x1) (k0_pay9 x0 x4 x5) (ix2 r 0)
    = Cert.Spec.l20 (fun j => x0 (ix2 r j)) (x1 (ix2 r 0)) (fun k j => x4 (ix2 k j)) (fun k => x5 (ix1 k)) := by
  unfold k0_pay14
  simp only [mulf_apply, pay5_apply, pay9_apply]; rfl
/-- Entry (2, 1) of the factor. -/
theorem l21_apply : k0_pay15 (F := Ideal) (k0_pay5 x1) (k0_pay10 x0 x4 x5) (ix2 r 0)
    = Cert.Spec.l21 (fun j => x0 (ix2 r j)) (x1 (ix2 r 0)) (fun k j => x4 (ix2 k j)) (fun k => x5 (ix1 k)) := by
  unfold k0_pay15
  simp only [mulf_apply, pay5_apply, pay10_apply]; rfl
/-- Entry (2, 2) of the factor. -/
theorem l22_apply :
    (select (k0_pay21 (F := Ideal) (k0_pay5 x1) (k0_pay6 x1) (k0_pay11 x0 x4 x5)) (k0_pay22 (k0_pay5 x1) (k0_pay6 x1) (k0_pay11 x0 x4 x5))
        (addf (k0_pay19 (k0_pay5 x1) (k0_pay6 x1) (k0_pay11 x0 x4 x5))
          (log1p (exp (subf (k0_pay24 (F := Ideal)) (k0_pay23 (k0_pay5 x1) (k0_pay6 x1) (k0_pay11 x0 x4 x5))))))) (ix2 r 0)
      = Cert.Spec.l22 (fun j => x0 (ix2 r j)) (x1 (ix2 r 0)) (fun k j => x4 (ix2 k j)) (fun k => x5 (ix1 k)) := by
  rw [third_apply, pay5_apply, pay6_apply, pay11_apply]; rfl

end Row

/-! ## The stored block -/

/-- Entry (r, n) of the block the kernel stores is the specification's probability of pixel n for the sample in
    row r. -/
theorem out0_7_apply (x0 : Vec Ideal S256x1024 .f32) (x1 : Vec Ideal S256x1 .f32) (x2 : Vec Ideal S3x1024 .f32)
    (x3 : Vec Ideal S3 .f32) (x4 : Vec Ideal S6x1024 .f32) (x5 : Vec Ideal S6 .f32) (x6 : Vec Ideal S3x1323 .f32)
    (r : Fin 256) (n : Fin 1323) :
    out0_7 (F := Ideal) x0 x1 x2 x3 x4 x5 x6 (ix2 r n)
      = Cert.Spec.outRow (fun j => x0 (ix2 r j)) (x1 (ix2 r 0)) (fun k j => x2 (ix2 k j)) (fun k => x3 (ix1 k))
          (fun k j => x4 (ix2 k j)) (fun k => x5 (ix1 k)) (fun k p => x6 (ix2 k p)) n := by
  unfold out0_7
  rw [View.canon_unit_zero hz2]
  simp only [View.ld_unit_zero (S := S256x1024) hz2, View.ld_unit_zero (S := S3x1024) hz2,
    View.ld_unit_zero (S := S6x1024) hz2, View.ld_unit_zero (S := S256x1) hz2, View.ld_unit_zero (S := S3) hz1,
    View.ld_unit_zero (S := S6) hz1]
  rw [KerGauss.pay1_pay25_apply]
  unfold Cert.Spec.outRow
  refine congrArg (fun f => Cert.Spec.softmaxRow f n) (funext fun q => ?_)
  beta_reduce
  rw [ld_row0, ld_row1, ld_row2, KerLin.pay3_apply, KerLin.pay3_apply, KerLin.pay3_apply, l00_apply, l10_apply,
    l11_apply, l20_apply, l21_apply, l22_apply]
  rfl

end Cert.KernelIdeal.Pay

end
-- ==== Proof.KerBlocks.lean ====
/-
  From blocks to the array: grid point t stages rows 256·t … 256·t + 255 of the representation and of the signal
  probabilities (as a column), and every other operand whole; it writes back block t of the result, so the blocks
  tile the result and the array after the run is the specification's function of the argument arrays.
-/
import proofs.«145389_j78314433675745_1_alg».proof.Proof.KerPay
import proofs.«145389_j78314433675745_1_alg».proof.Proof.Gen.KernelIdeal.Value
import proofs.«145389_j78314433675745_1_alg».proof.Proof.SpecLaws
import proofs.«145389_j78314433675745_1_alg».proof.Proof.SpecArr
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx Cert.KernelIdeal.Value

variable (m : (ℓ : Loc nD τ sig) → Buf (Elt Ideal) ℓ)

/-! ## The index maps over the grid -/

/-- The printed index maps at every grid point: the representation's, the signal column's and the result's windows sit
    at block (t, 0); the weights, the biases and the pixel table at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-! ## The two arrays the host wrote before the region -/

/-- The signal probabilities as the region finds them: the argument vector reshaped to a column. -/
theorem V_column (c : Dev nD) : (V m c main_v0 : S32768x1.Idx → EReal)
    = shapeCast S32768x1 (m ((c : Thread nD τ).loc main_arg1) : S32768.Idx → EReal) shapeCasts_S32768_S32768x1 := by
  dsimp only [Gen.V, Gen.hostOps0]; after_results; rfl

/-- Entry (b, 0) of the column is entry b of the argument vector. -/
theorem V_column_apply (c : Dev nD) (b : Fin 32768) :
    (V m c main_v0 : S32768x1.Idx → EReal) (ix2 b (0 : Fin 1)) = (m ((c : Thread nD τ).loc main_arg1) : S32768.Idx → EReal) (ix1 b) := by
  rw [V_column m c]
  refine shapeCast_apply _ _ _ (ix1 b) ?_
  rw [Shape.rowMajor_val_one, Shape.rowMajor_val_two]
  show b.val = b.val * 1 + 0
  omega

/-- The pixel table as the region finds it: the argument table transposed, coordinate first. -/
theorem V_pixels (c : Dev nD) : (V m c main_v1 : S3x1323.Idx → EReal)
    = transpose S3x1323 [1, 0] (m ((c : Thread nD τ).loc main_arg6) : S1323x3.Idx → EReal) transposes_S1323x3_S3x1323_1_0 := by
  dsimp only [Gen.V, Gen.hostOps0]; after_results

/-- Entry (k, p) of the transposed table is entry (p, k) of the argument table. -/
theorem V_pixels_apply (c : Dev nD) (k : Fin 3) (p : Fin 1323) :
    (V m c main_v1 : S3x1323.Idx → EReal) (ix2 k p) = (m ((c : Thread nD τ).loc main_arg6) : S1323x3.Idx → EReal) (ix2 p k) := by
  rw [V_pixels m c]
  refine transpose_apply _ _ _ _ (ix2 p k) fun b => ?_
  match b with
  | ⟨0, _⟩ => rfl
  | ⟨1, _⟩ => rfl

/-! ## Each window's block at a point, read off the argument arrays -/

/-- Row r of the representation's block at point t is row 256·t + r of the argument. -/
theorem rows_at (c : Dev nD) (t : Fin cfg0.N) (r : Fin 256) (hb : 256 * t.val + r.val < 32768) (j : Fin 1024) :
    (iblk m c 0 t : Vec Ideal S256x1024 .f32) (ix2 r j)
      = (m ((c : Thread nD τ).loc main_arg0) : S32768x1024.Idx → EReal) (ix2 (⟨256 * t.val + r.val, hb⟩ : Fin 32768) j) := by
  obtain ⟨e0, e1⟩ := (idx_facts t).1
  unfold iblk
  rw [View.read_apply]
  show V m c main_arg0 _ = _
  rw [V_main_arg0 m c]
  refine congrArg _ (funext fun a => Fin.ext ?_)
  match a with
  | ⟨0, _⟩ => show win0_0.index t (0 : Fin 2) * 256 + 1 * r.val = 256 * t.val + r.val; rw [e0]; omega
  | ⟨1, _⟩ => show win0_0.index t (1 : Fin 2) * 1024 + 1 * j.val = j.val; rw [e1]; omega

/-- Row r of the signal column's block at point t is entry 256·t + r of the argument vector. -/
theorem signal_at (c : Dev nD) (t : Fin cfg0.N) (r : Fin 256) (hb : 256 * t.val + r.val < 32768) :
    (iblk m c 1 t : Vec Ideal S256x1 .f32) (ix2 r (0 : Fin 1))
      = (m ((c : Thread nD τ).loc main_arg1) : S32768.Idx → EReal) (ix1 (⟨256 * t.val + r.val, hb⟩ : Fin 32768)) := by
  obtain ⟨e0, e1⟩ := (idx_facts t).2.1
  unfold iblk
  rw [View.read_apply]
  show V m c main_v0 _ = _
  refine Eq.trans (congrArg (V m c main_v0 : S32768x1.Idx → EReal) (funext fun a => Fin.ext ?_)) (V_column_apply m c ⟨256 * t.val + r.val, hb⟩)
  match a with
  | ⟨0, _⟩ => show win0_1.index t (0 : Fin 2) * 256 + 1 * r.val = 256 * t.val + r.val; rw [e0]; omega
  | ⟨1, _⟩ => show win0_1.index t (1 : Fin 2) * 1 + 1 * 0 = 0; rw [e1]

/-- The mean's weights are staged whole at every point. -/
theorem mean_weights_at (c : Dev nD) (t : Fin cfg0.N) (k : Fin 3) (j : Fin 1024) :
    (iblk m c 2 t : Vec Ideal S3x1024 .f32) (ix2 k j) = (m ((c : Thread nD τ).loc main_arg2) : S3x1024.Idx → EReal) (ix2 k j) := by
  obtain ⟨e0, e1⟩ := (idx_facts t).2.2.1
  unfold iblk
  rw [View.read_apply]
  show V m c main_arg2 _ = _
  rw [V_main_arg2 m c]
  refine congrArg _ (funext fun a => Fin.ext ?_)
  match a with
  | ⟨0, _⟩ => show win0_2.index t (0 : Fin 2) * 3 + 1 * k.val = k.val; rw [e0]; omega
  | ⟨1, _⟩ => show win0_2.index t (1 : Fin 2) * 1024 + 1 * j.val = j.val; rw [e1]; omega

/-- The mean's bias is staged whole at every point. -/
theorem mean_bias_at (c : Dev nD) (t : Fin cfg0.N) (k : Fin 3) :
    (iblk m c 3 t : Vec Ideal S3 .f32) (ix1 k) = (m ((c : Thread nD τ).loc main_arg3) : S3.Idx → EReal) (ix1 k) := by
  have e0 := (idx_facts t).2.2.2.1
  unfold iblk
  rw [View.read_apply]
  show V m c main_arg3 _ = _
  rw [V_main_arg3 m c]
  refine congrArg _ (funext fun a => Fin.ext ?_)
  match a with
  | ⟨0, _⟩ => show win0_3.index t (0 : Fin 1) * 3 + 1 * k.val = k.val; rw [e0]; omega

/-- The factor's weights are staged whole at every point. -/
theorem scale_weights_at (c : Dev nD) (t : Fin cfg0.N) (k : Fin 6) (j : Fin 1024) :
    (iblk m c 4 t : Vec Ideal S6x1024 .f32) (ix2 k j) = (m ((c : Thread nD τ).loc main_arg4) : S6x1024.Idx → EReal) (ix2 k j) := by
  obtain ⟨e0, e1⟩ := (idx_facts t).2.2.2.2.1
  unfold iblk
  rw [View.read_apply]
  show V m c main_arg4 _ = _
  rw [V_main_arg4 m c]
  refine congrArg _ (funext fun a => Fin.ext ?_)
  match a with
  | ⟨0, _⟩ => show win0_4.index t (0 : Fin 2) * 6 + 1 * k.val = k.val; rw [e0]; omega
  | ⟨1, _⟩ => show win0_4.index t (1 : Fin 2) * 1024 + 1 * j.val = j.val; rw [e1]; omega

/-- The factor's bias is staged whole at every point. -/
theorem scale_bias_at (c : Dev nD) (t : Fin cfg0.N) (k : Fin 6) :
    (iblk m c 5 t : Vec Ideal S6 .f32) (ix1 k) = (m ((c : Thread nD τ).loc main_arg5) : S6.Idx → EReal) (ix1 k) := by
  have e0 := (idx_facts t).2.2.2.2.2.1
  unfold iblk
  rw [View.read_apply]
  show V m c main_arg5 _ = _
  rw [V_main_arg5 m c]
  refine congrArg _ (funext fun a => Fin.ext ?_)
  match a with
  | ⟨0, _⟩ => show win0_5.index t (0 : Fin 1) * 6 + 1 * k.val = k.val; rw [e0]; omega

/-- The pixel table is staged whole, coordinate first: entry (k, p) of its block is entry (p, k) of the argument table. -/
theorem pixels_at (c : Dev nD) (t : Fin cfg0.N) (k : Fin 3) (p : Fin 1323) :
    (iblk m c 6 t : Vec Ideal S3x1323 .f32) (ix2 k p) = (m ((c : Thread nD τ).loc main_arg6) : S1323x3.Idx → EReal) (ix2 p k) := by
  obtain ⟨e0, e1⟩ := (idx_facts t).2.2.2.2.2.2.1
  unfold iblk
  rw [View.read_apply]
  show V m c main_v1 _ = _
  refine Eq.trans (congrArg (V m c main_v1 : S3x1323.Idx → EReal) (funext fun a => Fin.ext ?_)) (V_pixels_apply m c k p)
  match a with
  | ⟨0, _⟩ => show win0_6.index t (0 : Fin 2) * 3 + 1 * k.val = k.val; rw [e0]; omega
  | ⟨1, _⟩ => show win0_6.index t (1 : Fin 2) * 1323 + 1 * p.val = p.val; rw [e1]; omega

/-! ## What a point writes back -/

/-- Entry (r, n) of what point t computes is entry (256·t + r, n) of the specification's array. -/
theorem block_entry (c : Dev nD) (t : Fin cfg0.N) (r : Fin 256) (n : Fin 1323) (hb : 256 * t.val + r.val < 32768) :
    out0_7 (F := Ideal) (iblk m c 0 t) (iblk m c 1 t) (iblk m c 2 t) (iblk m c 3 t) (iblk m c 4 t) (iblk m c 5 t) (iblk m c 6 t) (ix2 r n)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (⟨256 * t.val + r.val, hb⟩ : Fin 32768) n) := by
  rw [Cert.KernelIdeal.Pay.out0_7_apply, Cert.Spec.G_ix2]
  unfold Cert.Spec.Gat
  simp only [rows_at m c t r hb, signal_at m c t r hb, mean_weights_at m c t, mean_bias_at m c t, scale_weights_at m c t,
    scale_bias_at m c t, pixels_at m c t]

/-- What point t writes back is block t of the specification's array. -/
theorem flushed_eq (c : Dev nD) (t : Fin cfg0.N) :
    (dats m 0 c).flushed 7 t = ((cfg0.win 7).blk t).view.read (Elt Ideal) (Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  funext j
  have hN : cfg0.N = 128 := N_0
  have ht : t.val < cfg0.N := t.isLt
  have hr : (j 0).val < 256 := (j 0).isLt
  have hn : (j 1).val < 1323 := (j 1).isLt
  have hb : 256 * t.val + (j 0).val < 32768 := by omega
  obtain ⟨e0, e1⟩ := (idx_facts t).2.2.2.2.2.2.2
  have ej : (j : S256x1323.Idx) = ix2 (⟨(j 0).val, hr⟩ : Fin 256) (⟨(j 1).val, hn⟩ : Fin 1323) :=
    funext fun a => match a with | ⟨0, _⟩ => rfl | ⟨1, _⟩ => rfl
  have ee : (((cfg0.win 7).blk t).view.emb j : S32768x1323.Idx)
      = ix2 (⟨256 * t.val + (j 0).val, hb⟩ : Fin 32768) (⟨(j 1).val, hn⟩ : Fin 1323) :=
    funext fun a => Fin.ext (by
      match a with
      | ⟨0, _⟩ => show win0_7.index t (0 : Fin 2) * 256 + 1 * (j 0).val = 256 * t.val + (j 0).val; rw [e0]; omega
      | ⟨1, _⟩ => show win0_7.index t (1 : Fin 2) * 1323 + 1 * (j 1).val = (j 1).val; rw [e1]; omega)
  show out0_7 (F := Ideal) (iblk m c 0 t) (iblk m c 1 t) (iblk m c 2 t) (iblk m c 3 t) (iblk m c 4 t) (iblk m c 5 t) (iblk m c 6 t) j
    = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb j)
  rw [ee]
  exact (congrArg (out0_7 (F := Ideal) (iblk m c 0 t) (iblk m c 1 t) (iblk m c 2 t) (iblk m c 3 t) (iblk m c 4 t) (iblk m c 5 t) (iblk m c 6 t)) ej).trans (block_entry m c t _ _ hb)

/-! ## The blocks tile the result -/

/-- An index of the result is in point t's block iff each coordinate is in the block's range on its axis. -/
theorem mem_blk (t : Fin cfg0.N) (i : S32768x1323.Idx) :
    i ∈ ((cfg0.win 7).blk t).view.set ↔ ∀ a : Fin 2, win0_7.index t a * S256x1323.size a ≤ (i a).val ∧ (i a).val < win0_7.index t a * S256x1323.size a + S256x1323.size a := by
  show i ∈ ((View.whole main_v2).slice (win0_7.rect t)).set ↔ _
  rw [View.set_slice_whole, Rect.mem_set_unit]
  exact Iff.rfl

/-- Every index of the result is in some point's block: row b is in the block of point b / 256. -/
theorem cover (i : S32768x1323.Idx) : ∃ t : Fin cfg0.N, (cfg0.win 7).flush t = true ∧ i ∈ ((cfg0.win 7).blk t).view.set := by
  have h0 : (i 0).val < 32768 := (i 0).isLt
  have h1 : (i 1).val < 1323 := (i 1).isLt
  have hN : cfg0.N = 128 := N_0
  obtain ⟨t, ht⟩ : ∃ t : Fin cfg0.N, t.val = (i 0).val / 256 := ⟨⟨(i 0).val / 256, by rw [hN]; omega⟩, rfl⟩
  obtain ⟨e0, e1⟩ := (idx_facts t).2.2.2.2.2.2.2
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; rw [e0, ht]; omega
  | ⟨1, _⟩ => show win0_7.index t (1 : Fin 2) * 1323 ≤ (i 1).val ∧ (i 1).val < win0_7.index t (1 : Fin 2) * 1323 + 1323; rw [e1]; omega

/-- The result array after the run is the specification's array. -/
theorem final (c : Dev nD) : (dats m 0 c).arrAt 7 cfg0.N = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v2) = Cert.Spec.G (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run (defs (F := Ideal)) _ _).mono (fun r h c => ⟨(h c).1.trans (final m c), (h c).2⟩) (Value.run_blocks m ρ)

end Cert.KernelIdeal.Blocks

end
-- ==== Proof.RefOps.lean ====
import proofs.«145389_j78314433675745_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 163 operations, in order. -/
abbrev ops : List (HloOp τ sig (Elt F)) :=
  [ nullary main_cst (fun i => FloatOps.ofBits .f32 (lit0 (S6.rowMajor i))),
    unary main_arg2 main_v0 ((transpose S1024x3 [1, 0] · transposes_S3x1024_S1024x3_1_0) : (⟨S3x1024, .f32⟩ : BufTy).Contents (Elt F) → (⟨S1024x3, .f32⟩ : BufTy).Contents (Elt F)),
    binary main_arg0 main_v0 main_v1 ((fun l r => Host.dotGeneral dot_S32768x1024_S1024x3_S32768x3_1_0_0_1_n_n none l r) : (⟨S32768x1024, .f32⟩ : BufTy).Contents (Elt F) → (⟨S1024x3, .f32⟩ : BufTy).Contents (Elt F) → (⟨S32768x3, .f32⟩ : BufTy).Contents (Elt F)),
    unary main_arg3 main_v2 (broadcastInDim S1x3 ![1] bcast_S3_S1x3_1 : (⟨S3, .f32⟩ : BufTy).Contents (Elt F) → (⟨S1x3, .f32⟩ : BufTy).Contents (Elt F)),
    unary main_v2 main_v3 (broadcastInDim S32768x3 ![0, 1] bcast_S1x3_S32768x3_0_1 : (⟨S1x3, .f32⟩ : BufTy).Contents (Elt F) → (⟨S32768x3, .f32⟩ : BufTy).Contents (Elt F)),
    binary main_v1 main_v3 main_v4 (addf : (⟨S32768x3, .f32⟩ : BufTy).Contents (Elt F) → (⟨S32768x3, .f32⟩ : BufTy).Contents (Elt F) → (⟨S32768x3, .f32⟩ : BufTy).Contents (Elt F)),
    unary main_arg4 main_v5 ((transpose S1024x6 [1, 0] · transposes_S6x1024_S1024x6_1_0) : (⟨S6x1024, .f32⟩ : BufTy).Contents (Elt F) → (⟨S1024x6, .f32⟩ : BufTy).Contents (Elt F)),
    binary main_arg0 main_v5 main_v6 ((fun l r => Host.dotGeneral dot_S32768x1024_S1024x6_S32768x6_1_0_0_1_n_n none l r) : (⟨S32768x1024, .f32⟩ : BufTy).Contents (Elt F) → (⟨S1024x6, .f32⟩ : BufTy).Contents (Elt F) → (⟨S32768x6, .f32⟩ : BufTy).Contents (Elt F)),
    unary main_arg5 main_v7 (broadcastInDim S1x6 ![1] bcast_S6_S1x6_1 : (⟨S6, .f32⟩ : BufTy).Contents (Elt F) → (⟨S1x6, .f32⟩ : BufTy).Contents (Elt F)),
    unary main_v7 main_v8 (broadcastInDim S32768x6 ![0, 1] bcast_S1x6_S32768x6_0_1 : (⟨S1x6, .f32⟩ : BufTy).Contents (Elt F) → (⟨S32768x6, .f32⟩ : BufTy).Contents (Elt F)),
    binary main_v6 main_v8 main_v9 (addf : (⟨S32768x6, .f32⟩ : BufTy).Contents (Elt F) → (⟨S32768x6, .f32⟩ : BufTy).Contents (Elt F) → (⟨S32768x6, .f32⟩ : BufTy).Contents (Elt F)),
    nullary main_cst_0 (constant S_ .f32 0x00000000#32),
    unary main_cst_0 main_v10 (broadcastInDim S32768x6 ![] bcast_S_S32768x6 : (⟨S_, .f32⟩ : BufTy).Contents (Elt F) → (⟨S32768x6, .f32⟩ : BufTy).Contents (Elt F)),
    binary main_v9 main_v10 main_v11 (cmpf .ogt : (⟨S32768x6, .f32⟩ : BufTy).Contents (Elt F) → (⟨S32768x6, .f32⟩ : BufTy).Contents (Elt F) → (⟨S32768x6, .i1⟩ : BufTy).Contents (Elt F)),
    nullary main_cst_1 (constant S_ .f32 0x3F800000#32),
    unary main_cst_1 main_v12 (broadcastInDim S32768x6 ![] bcast_S_S32768x6 : (⟨S_, .f32⟩ : BufTy).Contents (Elt F) → (⟨S32768x6, .f32⟩ : BufTy).Contents (Elt F)),
    binary main_v9 main_v12 main_v13 (addf : (⟨S32768x6, .f32⟩ : BufTy).Contents (Elt F) → (⟨S32768x6, .f32⟩ : BufTy).Contents (Elt F) → (⟨S32768x6, .f32⟩ : BufTy).Contents (Elt F)),
    nullary main_cst_2 (constant S_ .f32 0x00000000#32),
    unary main_cst_2 main_v14 (broadcastInDim S32768x6 ![] bcast_S_S32768x6 : (⟨S_, .f32⟩ : BufTy).Contents (Elt F) → (⟨S32768x6, .f32⟩ : BufTy).Contents (Elt F)),
    binary main_v9 main_v14 main_v15 (minimumf : (⟨S32768x6, .f32⟩ : BufTy).Contents (Elt F) → (⟨S32768x6, .f32⟩ : BufTy).Contents (Elt F) → (⟨S32768x6, .f32⟩ : BufTy).Contents (Elt F)),
    unary main_v15 main_v16 (Host.exp : (⟨S32768x6, .f32⟩ : BufTy).Contents (Elt F) → (⟨S32768x6, .f32⟩ : BufTy).Contents (Elt F)),
    TRef.ternary (.of main_v11) (.of main_v13) (.of main_v16) main_call0.v0 select,
    nullary main_cst_3 (constant S_ .f32 0x00000000#32),
    nullary main_cst_4 (constant S_ .f32 0x3F800000#32),
    TRef.unary (.of main_cst_3) main_call1.v0 id,
    TRef.unary main_call1.v0 main_call1.v1 (broadcastInDim S32768 ![] bcast_S_S32768),
    TRef.binary main_call1.v1 (.of main_arg1) main_call1.v2 maximumf,
    TRef.unary (.of main_cst_4) main_call1.v3 id,
    TRef.unary main_call1.v3 main_call1.v4 (broadcastInDim S32768 ![] bcast_S_S32768),
    TRef.binary main_call1.v4 main_call1.v2 main_call1.v5 minimumf,
    nullary main_cst_5 (constant S_ .f32 0x40400000#32),
    unary main_cst_5 main_v19 (broadcastInDim S32768 ![] bcast_S_S32768 : (⟨S_, .f32⟩ : BufTy).Contents (Elt F) → (⟨S32768, .f32⟩ : BufTy).Contents (Elt F)),
    binary main_v18 main_v19 main_v20 (Host.powf : (⟨S32768, .f32⟩ : BufTy).Contents (Elt F) → (⟨S32768, .f32⟩ : BufTy).Contents (Elt F) → (⟨S32768, .f32⟩ : BufTy).Contents (Elt F)),
    unary main_v20 main_v21 (broadcastInDim S32768x1 ![0] bcast_S32768_S32768x1_0 : (⟨S32768, .f32⟩ : BufTy).Contents (Elt F) → (⟨S32768x1, .f32⟩ : BufTy).Contents (Elt F)),
    unary main_v21 main_v22 (broadcastInDim S32768x6 ![0, 1] bcast_S32768x1_S32768x6_0_1 : (⟨S32768x1, .f32⟩ : BufTy).Contents (Elt F) → (⟨S32768x6, .f32⟩ : BufTy).Contents (Elt F)),
    binary main_v22 main_v17 main_v23 (mulf : (⟨S32768x6, .f32⟩ : BufTy).Contents (Elt F) → (⟨S32768x6, .f32⟩ : BufTy).Contents (Elt F) → (⟨S32768x6, .f32⟩ : BufTy).Contents (Elt F)),
    nullary main_cst_6 (constant S_ .f32 0x3F800000#32),
    unary main_cst_6 main_v24 (broadcastInDim S32768x1 ![] bcast_S_S32768x1 : (⟨S_, .f32⟩ : BufTy).Contents (Elt F) → (⟨S32768x1, .f32⟩ : BufTy).Contents (Elt F)),
    binary main_v24 main_v21 main_v25 (subf : (⟨S32768x1, .f32⟩ : BufTy).Contents (Elt F) → (⟨S32768x1, .f32⟩ : BufTy).Contents (Elt F) → (⟨S32768x1, .f32⟩ : BufTy).Contents (Elt F)),
    unary main_cst main_v26 (broadcastInDim S1x6 ![1] bcast_S6_S1x6_1 : (⟨S6, .f32⟩ : BufTy).Contents (Elt F) → (⟨S1x6, .f32⟩ : BufTy).Contents (Elt F)),
    unary main_v25 main_v27 (broadcastInDim S32768x6 ![0, 1] bcast_S32768x1_S32768x6_0_1 : (⟨S32768x1, .f32⟩ : BufTy).Contents (Elt F) → (⟨S32768x6, .f32⟩ : BufTy).Contents (Elt F)),
    unary main_v26 main_v28 (broadcastInDim S32768x6 ![0, 1] bcast_S1x6_S32768x6_0_1 : (⟨S1x6, .f32⟩ : BufTy).Contents (Elt F) → (⟨S32768x6, .f32⟩ : BufTy).Contents (Elt F)),
    binary main_v27 main_v28 main_v29 (mulf : (⟨S32768x6, .f32⟩ : BufTy).Contents (Elt F) → (⟨S32768x6, .f32⟩ : BufTy).Contents (Elt F) → (⟨S32768x6, .f32⟩ : BufTy).Contents (Elt F)),
    binary main_v23 main_v29 main_v30 (addf : (⟨S32768x6, .f32⟩ : BufTy).Contents (Elt F) → (⟨S32768x6, .f32⟩ : BufTy).Contents (Elt F) → (⟨S32768x6, .f32⟩ : BufTy).Contents (Elt F)),
    unary main_v30 main_v31 ((extractStridedSlice S32768x1 ![0, 0] · slices_S32768x6_S32768x1_0_0) : (⟨S32768x6, .f32⟩ : BufTy).Contents (Elt F) → (⟨S32768x1, .f32⟩ : BufTy).Contents (Elt F)),
    reshape main_v31 main_v32 rfl shapeCasts_S32768x1_S32768,
    TRef.nullary main_call2.cst (constant S_ .f32 0x00000000#32),
    TRef.unary main_call2.cst main_call2.v0 (broadcastInDim S32768 ![] bcast_S_S32768),
    TRef.binary (.of main_v32) main_call2.v0 main_call2.v1 maximumf,
    TRef.unary main_call2.cst main_call2.v2 (broadcastInDim S32768 ![] bcast_S_S32768),
    TRef.binary (.of main_v32) main_call2.v2 main_call2.v3 subf,
    TRef.binary main_call2.v3 main_call2.v3 main_call2.v4 (cmpf .une),
    TRef.unary main_call2.cst main_call2.v5 (broadcastInDim S32768 ![] bcast_S_S32768),
    TRef.binary (.of main_v32) main_call2.v5 main_call2.v6 addf,
    TRef.unary main_call2.v3 main_call2.v7 Host.absf,
    TRef.unary main_call2.v7 main_call2.v8 Host.negf,
    TRef.unary main_call2.v8 main_call2.v9 Host.exp,
    TRef.unary main_call2.v9 main_call2.v10 Host.log1p,
    TRef.binary main_call2.v1 main_call2.v10 main_call2.v11 addf,
    TRef.ternary main_call2.v4 main_call2.v6 main_call2.v11 main_call2.v12 select,
    unary main_v30 main_v34 ((extractStridedSlice S32768x1 ![0, 1] · slices_S32768x6_S32768x1_0_1) : (⟨S32768x6, .f32⟩ : BufTy).Contents (Elt F) → (⟨S32768x1, .f32⟩ : BufTy).Contents (Elt F)),
    reshape main_v34 main_v35 rfl shapeCasts_S32768x1_S32768,
    unary main_v30 main_v36 ((extractStridedSlice S32768x1 ![0, 2] · slices_S32768x6_S32768x1_0_2) : (⟨S32768x6, .f32⟩ : BufTy).Contents (Elt F) → (⟨S32768x1, .f32⟩ : BufTy).Contents (Elt F)),
    reshape main_v36 main_v37 rfl shapeCasts_S32768x1_S32768,
    TRef.nullary main_call3.cst (constant S_ .f32 0x00000000#32),
    TRef.unary main_call3.cst main_call3.v0 (broadcastInDim S32768 ![] bcast_S_S32768),
    TRef.binary (.of main_v37) main_call3.v0 main_call3.v1 maximumf,
    TRef.unary main_call3.cst main_call3.v2 (broadcastInDim S32768 ![] bcast_S_S32768),
    TRef.binary (.of main_v37) main_call3.v2 main_call3.v3 subf,
    TRef.binary main_call3.v3 main_call3.v3 main_call3.v4 (cmpf .une),
    TRef.unary main_call3.cst main_call3.v5 (broadcastInDim S32768 ![] bcast_S_S32768),
    TRef.binary (.of main_v37) main_call3.v5 main_call3.v6 addf,
    TRef.unary main_call3.v3 main_call3.v7 Host.absf,
    TRef.unary main_call3.v7 main_call3.v8 Host.negf,
    TRef.unary main_call3.v8 main_call3.v9 Host.exp,
    TRef.unary main_call3.v9 main_call3.v10 Host.log1p,
    TRef.binary main_call3.v1 main_call3.v10 main_call3.v11 addf,
    TRef.ternary main_call3.v4 main_call3.v6 main_call3.v11 main_call3.v12 select,
    unary main_v30 main_v39 ((extractStridedSlice S32768x1 ![0, 3] · slices_S32768x6_S32768x1_0_3) : (⟨S32768x6, .f32⟩ : BufTy).Contents (Elt F) → (⟨S32768x1, .f32⟩ : BufTy).Contents (Elt F)),
    reshape main_v39 main_v40 rfl shapeCasts_S32768x1_S32768,
    unary main_v30 main_v41 ((extractStridedSlice S32768x1 ![0, 4] · slices_S32768x6_S32768x1_0_4) : (⟨S32768x6, .f32⟩ : BufTy).Contents (Elt F) → (⟨S32768x1, .f32⟩ : BufTy).Contents (Elt F)),
    reshape main_v41 main_v42 rfl shapeCasts_S32768x1_S32768,
    unary main_v30 main_v43 ((extractStridedSlice S32768x1 ![0, 5] · slices_S32768x6_S32768x1_0_5) : (⟨S32768x6, .f32⟩ : BufTy).Contents (Elt F) → (⟨S32768x1, .f32⟩ : BufTy).Contents (Elt F)),
    reshape main_v43 main_v44 rfl shapeCasts_S32768x1_S32768,
    TRef.nullary main_call4.cst (constant S_ .f32 0x00000000#32),
    TRef.unary main_call4.cst main_call4.v0 (broadcastInDim S32768 ![] bcast_S_S32768),
    TRef.binary (.of main_v44) main_call4.v0 main_call4.v1 maximumf,
    TRef.unary main_call4.cst main_call4.v2 (broadcastInDim S32768 ![] bcast_S_S32768),
    TRef.binary (.of main_v44) main_call4.v2 main_call4.v3 subf,
    TRef.binary main_call4.v3 main_call4.v3 main_call4.v4 (cmpf .une),
    TRef.unary main_call4.cst main_call4.v5 (broadcastInDim S32768 ![] bcast_S_S32768),
    TRef.binary (.of main_v44) main_call4.v5 main_call4.v6 addf,
    TRef.unary main_call4.v3 main_call4.v7 Host.absf,
    TRef.unary main_call4.v7 main_call4.v8 Host.negf,
    TRef.unary main_call4.v8 main_call4.v9 Host.exp,
    TRef.unary main_call4.v9 main_call4.v10 Host.log1p,
    TRef.binary main_call4.v1 main_call4.v10 main_call4.v11 addf,
    TRef.ternary main_call4.v4 main_call4.v6 main_call4.v11 main_call4.v12 select,
    unary main_arg6 main_v46 (broadcastInDim S1x1323x3 ![1, 2] bcast_S1323x3_S1x1323x3_1_2 : (⟨S1323x3, .f32⟩ : BufTy).Contents (Elt F) → (⟨S1x1323x3, .f32⟩ : BufTy).Contents (Elt F)),
    unary main_v4 main_v47 (broadcastInDim S32768x1x3 ![0, 2] bcast_S32768x3_S32768x1x3_0_2 : (⟨S32768x3, .f32⟩ : BufTy).Contents (Elt F) → (⟨S32768x1x3, .f32⟩ : BufTy).Contents (Elt F)),
    unary main_v46 main_v48 (broadcastInDim S32768x1323x3 ![0, 1, 2] bcast_S1x1323x3_S32768x1323x3_0_1_2 : (⟨S1x1323x3, .f32⟩ : BufTy).Contents (Elt F) → (⟨S32768x1323x3, .f32⟩ : BufTy).Contents (Elt F)),
    unary main_v47 main_v49 (broadcastInDim S32768x1323x3 ![0, 1, 2] bcast_S32768x1x3_S32768x1323x3_0_1_2 : (⟨S32768x1x3, .f32⟩ : BufTy).Contents (Elt F) → (⟨S32768x1323x3, .f32⟩ : BufTy).Contents (Elt F)),
    binary main_v48 main_v49 main_v50 (subf : (⟨S32768x1323x3, .f32⟩ : BufTy).Contents (Elt F) → (⟨S32768x1323x3, .f32⟩ : BufTy).Contents (Elt F) → (⟨S32768x1323x3, .f32⟩ : BufTy).Contents (Elt F)),
    unary main_v50 main_v51 ((extractStridedSlice S32768x1323x1 ![0, 0, 0] · slices_S32768x1323x3_S32768x1323x1_0_0_0) : (⟨S32768x1323x3, .f32⟩ : BufTy).Contents (Elt F) → (⟨S32768x1323x1, .f32⟩ : BufTy).Contents (Elt F)),
    reshape main_v51 main_v52 rfl shapeCasts_S32768x1323x1_S32768x1323,
    unary main_v50 main_v53 ((extractStridedSlice S32768x1323x1 ![0, 0, 1] · slices_S32768x1323x3_S32768x1323x1_0_0_1) : (⟨S32768x1323x3, .f32⟩ : BufTy).Contents (Elt F) → (⟨S32768x1323x1, .f32⟩ : BufTy).Contents (Elt F)),
    reshape main_v53 main_v54 rfl shapeCasts_S32768x1323x1_S32768x1323,
    unary main_v50 main_v55 ((extractStridedSlice S32768x1323x1 ![0, 0, 2] · slices_S32768x1323x3_S32768x1323x1_0_0_2) : (⟨S32768x1323x3, .f32⟩ : BufTy).Contents (Elt F) → (⟨S32768x1323x1, .f32⟩ : BufTy).Contents (Elt F)),
    reshape main_v55 main_v56 rfl shapeCasts_S32768x1323x1_S32768x1323,
    unary main_v33 main_v57 (broadcastInDim S32768x1 ![0] bcast_S32768_S32768x1_0 : (⟨S32768, .f32⟩ : BufTy).Contents (Elt F) → (⟨S32768x1, .f32⟩ : BufTy).Contents (Elt F)),
    unary main_v57 main_v58 (broadcastInDim S32768x1323 ![0, 1] bcast_S32768x1_S32768x1323_0_1 : (⟨S32768x1, .f32⟩ : BufTy).Contents (Elt F) → (⟨S32768x1323, .f32⟩ : BufTy).Contents (Elt F)),
    binary main_v52 main_v58 main_v59 (Host.divf : (⟨S32768x1323, .f32⟩ : BufTy).Contents (Elt F) → (⟨S32768x1323, .f32⟩ : BufTy).Contents (Elt F) → (⟨S32768x1323, .f32⟩ : BufTy).Contents (Elt F)),
    unary main_v35 main_v60 (broadcastInDim S32768x1 ![0] bcast_S32768_S32768x1_0 : (⟨S32768, .f32⟩ : BufTy).Contents (Elt F) → (⟨S32768x1, .f32⟩ : BufTy).Contents (Elt F)),
    unary main_v60 main_v61 (broadcastInDim S32768x1323 ![0, 1] bcast_S32768x1_S32768x1323_0_1 : (⟨S32768x1, .f32⟩ : BufTy).Contents (Elt F) → (⟨S32768x1323, .f32⟩ : BufTy).Contents (Elt F)),
    binary main_v61 main_v59 main_v62 (mulf : (⟨S32768x1323, .f32⟩ : BufTy).Contents (Elt F) → (⟨S32768x1323, .f32⟩ : BufTy).Contents (Elt F) → (⟨S32768x1323, .f32⟩ : BufTy).Contents (Elt F)),
    binary main_v54 main_v62 main_v63 (subf : (⟨S32768x1323, .f32⟩ : BufTy).Contents (Elt F) → (⟨S32768x1323, .f32⟩ : BufTy).Contents (Elt F) → (⟨S32768x1323, .f32⟩ : BufTy).Contents (Elt F)),
    unary main_v38 main_v64 (broadcastInDim S32768x1 ![0] bcast_S32768_S32768x1_0 : (⟨S32768, .f32⟩ : BufTy).Contents (Elt F) → (⟨S32768x1, .f32⟩ : BufTy).Contents (Elt F)),
    unary main_v64 main_v65 (broadcastInDim S32768x1323 ![0, 1] bcast_S32768x1_S32768x1323_0_1 : (⟨S32768x1, .f32⟩ : BufTy).Contents (Elt F) → (⟨S32768x1323, .f32⟩ : BufTy).Contents (Elt F)),
    binary main_v63 main_v65 main_v66 (Host.divf : (⟨S32768x1323, .f32⟩ : BufTy).Contents (Elt F) → (⟨S32768x1323, .f32⟩ : BufTy).Contents (Elt F) → (⟨S32768x1323, .f32⟩ : BufTy).Contents (Elt F)),
    unary main_v40 main_v67 (broadcastInDim S32768x1 ![0] bcast_S32768_S32768x1_0 : (⟨S32768, .f32⟩ : BufTy).Contents (Elt F) → (⟨S32768x1, .f32⟩ : BufTy).Contents (Elt F)),
    unary main_v67 main_v68 (broadcastInDim S32768x1323 ![0, 1] bcast_S32768x1_S32768x1323_0_1 : (⟨S32768x1, .f32⟩ : BufTy).Contents (Elt F) → (⟨S32768x1323, .f32⟩ : BufTy).Contents (Elt F)),
    binary main_v68 main_v59 main_v69 (mulf : (⟨S32768x1323, .f32⟩ : BufTy).Contents (Elt F) → (⟨S32768x1323, .f32⟩ : BufTy).Contents (Elt F) → (⟨S32768x1323, .f32⟩ : BufTy).Contents (Elt F)),
    binary main_v56 main_v69 main_v70 (subf : (⟨S32768x1323, .f32⟩ : BufTy).Contents (Elt F) → (⟨S32768x1323, .f32⟩ : BufTy).Contents (Elt F) → (⟨S32768x1323, .f32⟩ : BufTy).Contents (Elt F)),
    unary main_v42 main_v71 (broadcastInDim S32768x1 ![0] bcast_S32768_S32768x1_0 : (⟨S32768, .f32⟩ : BufTy).Contents (Elt F) → (⟨S32768x1, .f32⟩ : BufTy).Contents (Elt F)),
    unary main_v71 main_v72 (broadcastInDim S32768x1323 ![0, 1] bcast_S32768x1_S32768x1323_0_1 : (⟨S32768x1, .f32⟩ : BufTy).Contents (Elt F) → (⟨S32768x1323, .f32⟩ : BufTy).Contents (Elt F)),
    binary main_v72 main_v66 main_v73 (mulf : (⟨S32768x1323, .f32⟩ : BufTy).Contents (Elt F) → (⟨S32768x1323, .f32⟩ : BufTy).Contents (Elt F) → (⟨S32768x1323, .f32⟩ : BufTy).Contents (Elt F)),
    binary main_v70 main_v73 main_v74 (subf : (⟨S32768x1323, .f32⟩ : BufTy).Contents (Elt F) → (⟨S32768x1323, .f32⟩ : BufTy).Contents (Elt F) → (⟨S32768x1323, .f32⟩ : BufTy).Contents (Elt F)),
    unary main_v45 main_v75 (broadcastInDim S32768x1 ![0] bcast_S32768_S32768x1_0 : (⟨S32768, .f32⟩ : BufTy).Contents (Elt F) → (⟨S32768x1, .f32⟩ : BufTy).Contents (Elt F)),
    unary main_v75 main_v76 (broadcastInDim S32768x1323 ![0, 1] bcast_S32768x1_S32768x1323_0_1 : (⟨S32768x1, .f32⟩ : BufTy).Contents (Elt F) → (⟨S32768x1323, .f32⟩ : BufTy).Contents (Elt F)),
    binary main_v74 main_v76 main_v77 (Host.divf : (⟨S32768x1323, .f32⟩ : BufTy).Contents (Elt F) → (⟨S32768x1323, .f32⟩ : BufTy).Contents (Elt F) → (⟨S32768x1323, .f32⟩ : BufTy).Contents (Elt F)),
    binary main_v59 main_v59 main_v78 (mulf : (⟨S32768x1323, .f32⟩ : BufTy).Contents (Elt F) → (⟨S32768x1323, .f32⟩ : BufTy).Contents (Elt F) → (⟨S32768x1323, .f32⟩ : BufTy).Contents (Elt F)),
    binary main_v66 main_v66 main_v79 (mulf : (⟨S32768x1323, .f32⟩ : BufTy).Contents (Elt F) → (⟨S32768x1323, .f32⟩ : BufTy).Contents (Elt F) → (⟨S32768x1323, .f32⟩ : BufTy).Contents (Elt F)),
    binary main_v78 main_v79 main_v80 (addf : (⟨S32768x1323, .f32⟩ : BufTy).Contents (Elt F) → (⟨S32768x1323, .f32⟩ : BufTy).Contents (Elt F) → (⟨S32768x1323, .f32⟩ : BufTy).Contents (Elt F)),
    binary main_v77 main_v77 main_v81 (mulf : (⟨S32768x1323, .f32⟩ : BufTy).Contents (Elt F) → (⟨S32768x1323, .f32⟩ : BufTy).Contents (Elt F) → (⟨S32768x1323, .f32⟩ : BufTy).Contents (Elt F)),
    binary main_v80 main_v81 main_v82 (addf : (⟨S32768x1323, .f32⟩ : BufTy).Contents (Elt F) → (⟨S32768x1323, .f32⟩ : BufTy).Contents (Elt F) → (⟨S32768x1323, .f32⟩ : BufTy).Contents (Elt F)),
    unary main_v33 main_v83 (Host.log : (⟨S32768, .f32⟩ : BufTy).Contents (Elt F) → (⟨S32768, .f32⟩ : BufTy).Contents (Elt F)),
    unary main_v38 main_v84 (Host.log : (⟨S32768, .f32⟩ : BufTy).Contents (Elt F) → (⟨S32768, .f32⟩ : BufTy).Contents (Elt F)),
    binary main_v83 main_v84 main_v85 (addf : (⟨S32768, .f32⟩ : BufTy).Contents (Elt F) → (⟨S32768, .f32⟩ : BufTy).Contents (Elt F) → (⟨S32768, .f32⟩ : BufTy).Contents (Elt F)),
    unary main_v45 main_v86 (Host.log : (⟨S32768, .f32⟩ : BufTy).Contents (Elt F) → (⟨S32768, .f32⟩ : BufTy).Contents (Elt F)),
    binary main_v85 main_v86 main_v87 (addf : (⟨S32768, .f32⟩ : BufTy).Contents (Elt F) → (⟨S32768, .f32⟩ : BufTy).Contents (Elt F) → (⟨S32768, .f32⟩ : BufTy).Contents (Elt F)),
    nullary main_cst_7 (constant S_ .f32 0xBF000000#32),
    unary main_cst_7 main_v88 (broadcastInDim S32768x1323 ![] bcast_S_S32768x1323 : (⟨S_, .f32⟩ : BufTy).Contents (Elt F) → (⟨S32768x1323, .f32⟩ : BufTy).Contents (Elt F)),
    binary main_v88 main_v82 main_v89 (mulf : (⟨S32768x1323, .f32⟩ : BufTy).Contents (Elt F) → (⟨S32768x1323, .f32⟩ : BufTy).Contents (Elt F) → (⟨S32768x1323, .f32⟩ : BufTy).Contents (Elt F)),
    unary main_v87 main_v90 (broadcastInDim S32768x1 ![0] bcast_S32768_S32768x1_0 : (⟨S32768, .f32⟩ : BufTy).Contents (Elt F) → (⟨S32768x1, .f32⟩ : BufTy).Contents (Elt F)),
    unary main_v90 main_v91 (broadcastInDim S32768x1323 ![0, 1] bcast_S32768x1_S32768x1323_0_1 : (⟨S32768x1, .f32⟩ : BufTy).Contents (Elt F) → (⟨S32768x1323, .f32⟩ : BufTy).Contents (Elt F)),
    binary main_v89 main_v91 main_v92 (subf : (⟨S32768x1323, .f32⟩ : BufTy).Contents (Elt F) → (⟨S32768x1323, .f32⟩ : BufTy).Contents (Elt F) → (⟨S32768x1323, .f32⟩ : BufTy).Contents (Elt F)),
    nullary main_cst_8 (constant S_ .f32 0x40306FAB#32),
    unary main_cst_8 main_v93 (broadcastInDim S32768x1323 ![] bcast_S_S32768x1323 : (⟨S_, .f32⟩ : BufTy).Contents (Elt F) → (⟨S32768x1323, .f32⟩ : BufTy).Contents (Elt F)),
    binary main_v92 main_v93 main_v94 (subf : (⟨S32768x1323, .f32⟩ : BufTy).Contents (Elt F) → (⟨S32768x1323, .f32⟩ : BufTy).Contents (Elt F) → (⟨S32768x1323, .f32⟩ : BufTy).Contents (Elt F)),
    nullary main_cst_9 (constant S_ .f32 0xFF800000#32),
    binary main_v94 main_cst_9 main_v95 ((fun x v => Host.reduce FloatOps.maximumf x v reducesTo_S32768x1323_S32768_d1 h_S_) : (⟨S32768x1323, .f32⟩ : BufTy).Contents (Elt F) → (⟨S_, .f32⟩ : BufTy).Contents (Elt F) → (⟨S32768, .f32⟩ : BufTy).Contents (Elt F)),
    unary main_v95 main_v96 (broadcastInDim S32768x1 ![0] bcast_S32768_S32768x1_0 : (⟨S32768, .f32⟩ : BufTy).Contents (Elt F) → (⟨S32768x1, .f32⟩ : BufTy).Contents (Elt F)),
    unary main_v96 main_v97 (broadcastInDim S32768x1323 ![0, 1] bcast_S32768x1_S32768x1323_0_1 : (⟨S32768x1, .f32⟩ : BufTy).Contents (Elt F) → (⟨S32768x1323, .f32⟩ : BufTy).Contents (Elt F)),
    binary main_v94 main_v97 main_v98 (subf : (⟨S32768x1323, .f32⟩ : BufTy).Contents (Elt F) → (⟨S32768x1323, .f32⟩ : BufTy).Contents (Elt F) → (⟨S32768x1323, .f32⟩ : BufTy).Contents (Elt F)),
    unary main_v98 main_v99 (Host.exp : (⟨S32768x1323, .f32⟩ : BufTy).Contents (Elt F) → (⟨S32768x1323, .f32⟩ : BufTy).Contents (Elt F)),
    nullary main_cst_10 (constant S_ .f32 0x00000000#32),
    binary main_v99 main_cst_10 main_v100 ((fun x v => Host.reduceAdd x v reducesTo_S32768x1323_S32768_d1 h_S_) : (⟨S32768x1323, .f32⟩ : BufTy).Contents (Elt F) → (⟨S_, .f32⟩ : BufTy).Contents (Elt F) → (⟨S32768, .f32⟩ : BufTy).Contents (Elt F)),
    unary main_v100 main_v101 (broadcastInDim S32768x1 ![0] bcast_S32768_S32768x1_0 : (⟨S32768, .f32⟩ : BufTy).Contents (Elt F) → (⟨S32768x1, .f32⟩ : BufTy).Contents (Elt F)),
    nullary main_cst_11 (constant S_ .f32 0x2EDBE6FF#32),
    unary main_cst_11 main_v102 (broadcastInDim S32768x1 ![] bcast_S_S32768x1 : (⟨S_, .f32⟩ : BufTy).Contents (Elt F) → (⟨S32768x1, .f32⟩ : BufTy).Contents (Elt F)),
    binary main_v101 main_v102 main_v103 (addf : (⟨S32768x1, .f32⟩ : BufTy).Contents (Elt F) → (⟨S32768x1, .f32⟩ : BufTy).Contents (Elt F) → (⟨S32768x1, .f32⟩ : BufTy).Contents (Elt F)),
    unary main_v103 main_v104 (broadcastInDim S32768x1323 ![0, 1] bcast_S32768x1_S32768x1323_0_1 : (⟨S32768x1, .f32⟩ : BufTy).Contents (Elt F) → (⟨S32768x1323, .f32⟩ : BufTy).Contents (Elt F)),
    binary main_v99 main_v104 main_v105 (Host.divf : (⟨S32768x1323, .f32⟩ : BufTy).Contents (Elt F) → (⟨S32768x1323, .f32⟩ : BufTy).Contents (Elt F) → (⟨S32768x1323, .f32⟩ : BufTy).Contents (Elt F)) ]

set_option maxRecDepth 16384 in
theorem ops_sub : (ops : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., ternary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., binary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., reshape_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., reshape_bufs_sub .., unary_bufs_sub .., reshape_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., unary_bufs_sub .., binary_bufs_sub .., unary_bufs_sub .., reshape_bufs_sub .., unary_bufs_sub .., reshape_bufs_sub .., unary_bufs_sub .., reshape_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., binary_bufs_sub .., binary_bufs_sub .., unary_bufs_sub .., unary_bufs_sub .., binary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub ..⟩

end Cert.ReferenceIdeal.RefOps

end
-- ==== Proof.RefRun.lean ====
/-
  The reference program's @main is a straight line of 163 host operations: the private functions it calls
  (the select behind `jnp.where`, the clip, three softplus calls) run their own lines on the call's operands
  and into the call's own buffers, so unfolding them at their calls and re-associating the sequencing leaves one
  chain of operations, the list `ops`. Run from any memory with zero counters, every weakly fair execution of
  that chain terminates, and every TensorCore buffer then holds what the operations, folded over the launch
  contents in order, leave in it (`after ops`): each operation writes its one result buffer with its function of
  the buffers it reads, and leaves every other buffer alone.
-/
import proofs.«145389_j78314433675745_1_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxRecDepth 16384 in
set_option maxHeartbeats 4000000 in
/-- @main is that straight line: its two halves and the three functions' bodies unfolded at their calls, the
    sequencing re-associated, both sides are one chain of operations. -/
theorem main_eq (c : Dev nD) : main (F := F) c = seq ops := by
  simp only [main, main_part0, main_part1, fn_where.body, fn_clip.body, fn_softplus.body, seq, bind_assoc, pure_bind]

/-- No TensorCore buffer of this program is scoped. -/
theorem scopedRefs_eq : (Finset.univ.filter fun b : Ref sig .tc => b.isScoped) = ∅ := by decide
/-- Nor is any semaphore. -/
theorem scopedSems_eq : (Finset.univ.filter fun sm : SemLoc sig => sm.isScoped .tc) = ∅ := by decide

/-- From any memory with zero counters every weakly fair execution of @main terminates, and each TensorCore
    buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefGauss.lean ====
/-
  The last stretch of the reference, read at entry (b, n) of its result: from sample b's nine Gaussian parameters
  and the pixel table it forms the log-density of every pixel, and the result is the stabilised softmax of that row.
  The stretch is the line's last 65 operations; the buffers after the whole line are those after the stretch run from
  the buffers the first 98 operations leave, and the stretch writes none of the buffers it starts from. Within it,
  each named buffer is a few operations of earlier ones; read at an index, the broadcasts, the slices of the last axis
  and the reshapes pick coordinates, the arithmetic is the extended reals', the maximum along the pixel axis is the
  fold of max from ⊥ and the sum along it is the finite sum.
-/
import proofs.«145389_j78314433675745_1_alg».proof.Proof.RefRun
import proofs.«145389_j78314433675745_1_alg».proof.Proof.SpecLaws
import proofs.«145389_j78314433675745_1_alg».proof.Proof.SpecArr
import Idealize.ShloMosaic.Lib.ValueIdx
import Idealize.ShloMosaic.Lib.Pipeline.Value
import Idealize.ShloMosaic.Lib.IdealHost

noncomputable section

namespace Cert.ReferenceIdeal.RefGauss

open Cert.ReferenceIdeal Cert.ReferenceIdeal.Gen Cert.ReferenceIdeal.RefOps Idealize.ShloMosaic Idealize.ShloMosaic.TcCoe Idealize.SL.Sem Idealize.ShloMosaic.StableHlo Idealize.ShloMosaic.ValueIdx

variable {F : FTy → Type} [FloatOps F]

/-! ## The last stretch as a list of its own -/

/-- The reference's last 65 operations, from the pixel table's broadcast to the result. -/
abbrev tail : List (HloOp τ sig (Elt F)) :=
  [ unary main_arg6 main_v46 (broadcastInDim S1x1323x3 ![1, 2] bcast_S1323x3_S1x1323x3_1_2 : (⟨S1323x3, .f32⟩ : BufTy).Contents (Elt F) → (⟨S1x1323x3, .f32⟩ : BufTy).Contents (Elt F)),
    unary main_v4 main_v47 (broadcastInDim S32768x1x3 ![0, 2] bcast_S32768x3_S32768x1x3_0_2 : (⟨S32768x3, .f32⟩ : BufTy).Contents (Elt F) → (⟨S32768x1x3, .f32⟩ : BufTy).Contents (Elt F)),
    unary main_v46 main_v48 (broadcastInDim S32768x1323x3 ![0, 1, 2] bcast_S1x1323x3_S32768x1323x3_0_1_2 : (⟨S1x1323x3, .f32⟩ : BufTy).Contents (Elt F) → (⟨S32768x1323x3, .f32⟩ : BufTy).Contents (Elt F)),
    unary main_v47 main_v49 (broadcastInDim S32768x1323x3 ![0, 1, 2] bcast_S32768x1x3_S32768x1323x3_0_1_2 : (⟨S32768x1x3, .f32⟩ : BufTy).Contents (Elt F) → (⟨S32768x1323x3, .f32⟩ : BufTy).Contents (Elt F)),
    binary main_v48 main_v49 main_v50 (subf : (⟨S32768x1323x3, .f32⟩ : BufTy).Contents (Elt F) → (⟨S32768x1323x3, .f32⟩ : BufTy).Contents (Elt F) → (⟨S32768x1323x3, .f32⟩ : BufTy).Contents (Elt F)),
    unary main_v50 main_v51 ((extractStridedSlice S32768x1323x1 ![0, 0, 0] · slices_S32768x1323x3_S32768x1323x1_0_0_0) : (⟨S32768x1323x3, .f32⟩ : BufTy).Contents (Elt F) → (⟨S32768x1323x1, .f32⟩ : BufTy).Contents (Elt F)),
    reshape main_v51 main_v52 rfl shapeCasts_S32768x1323x1_S32768x1323,
    unary main_v50 main_v53 ((extractStridedSlice S32768x1323x1 ![0, 0, 1] · slices_S32768x1323x3_S32768x1323x1_0_0_1) : (⟨S32768x1323x3, .f32⟩ : BufTy).Contents (Elt F) → (⟨S32768x1323x1, .f32⟩ : BufTy).Contents (Elt F)),
    reshape main_v53 main_v54 rfl shapeCasts_S32768x1323x1_S32768x1323,
    unary main_v50 main_v55 ((extractStridedSlice S32768x1323x1 ![0, 0, 2] · slices_S32768x1323x3_S32768x1323x1_0_0_2) : (⟨S32768x1323x3, .f32⟩ : BufTy).Contents (Elt F) → (⟨S32768x1323x1, .f32⟩ : BufTy).Contents (Elt F)),
    reshape main_v55 main_v56 rfl shapeCasts_S32768x1323x1_S32768x1323,
    unary main_v33 main_v57 (broadcastInDim S32768x1 ![0] bcast_S32768_S32768x1_0 : (⟨S32768, .f32⟩ : BufTy).Contents (Elt F) → (⟨S32768x1, .f32⟩ : BufTy).Contents (Elt F)),
    unary main_v57 main_v58 (broadcastInDim S32768x1323 ![0, 1] bcast_S32768x1_S32768x1323_0_1 : (⟨S32768x1, .f32⟩ : BufTy).Contents (Elt F) → (⟨S32768x1323, .f32⟩ : BufTy).Contents (Elt F)),
    binary main_v52 main_v58 main_v59 (Host.divf : (⟨S32768x1323, .f32⟩ : BufTy).Contents (Elt F) → (⟨S32768x1323, .f32⟩ : BufTy).Contents (Elt F) → (⟨S32768x1323, .f32⟩ : BufTy).Contents (Elt F)),
    unary main_v35 main_v60 (broadcastInDim S32768x1 ![0] bcast_S32768_S32768x1_0 : (⟨S32768, .f32⟩ : BufTy).Contents (Elt F) → (⟨S32768x1, .f32⟩ : BufTy).Contents (Elt F)),
    unary main_v60 main_v61 (broadcastInDim S32768x1323 ![0, 1] bcast_S32768x1_S32768x1323_0_1 : (⟨S32768x1, .f32⟩ : BufTy).Contents (Elt F) → (⟨S32768x1323, .f32⟩ : BufTy).Contents (Elt F)),
    binary main_v61 main_v59 main_v62 (mulf : (⟨S32768x1323, .f32⟩ : BufTy).Contents (Elt F) → (⟨S32768x1323, .f32⟩ : BufTy).Contents (Elt F) → (⟨S32768x1323, .f32⟩ : BufTy).Contents (Elt F)),
    binary main_v54 main_v62 main_v63 (subf : (⟨S32768x1323, .f32⟩ : BufTy).Contents (Elt F) → (⟨S32768x1323, .f32⟩ : BufTy).Contents (Elt F) → (⟨S32768x1323, .f32⟩ : BufTy).Contents (Elt F)),
    unary main_v38 main_v64 (broadcastInDim S32768x1 ![0] bcast_S32768_S32768x1_0 : (⟨S32768, .f32⟩ : BufTy).Contents (Elt F) → (⟨S32768x1, .f32⟩ : BufTy).Contents (Elt F)),
    unary main_v64 main_v65 (broadcastInDim S32768x1323 ![0, 1] bcast_S32768x1_S32768x1323_0_1 : (⟨S32768x1, .f32⟩ : BufTy).Contents (Elt F) → (⟨S32768x1323, .f32⟩ : BufTy).Contents (Elt F)),
    binary main_v63 main_v65 main_v66 (Host.divf : (⟨S32768x1323, .f32⟩ : BufTy).Contents (Elt F) → (⟨S32768x1323, .f32⟩ : BufTy).Contents (Elt F) → (⟨S32768x1323, .f32⟩ : BufTy).Contents (Elt F)),
    unary main_v40 main_v67 (broadcastInDim S32768x1 ![0] bcast_S32768_S32768x1_0 : (⟨S32768, .f32⟩ : BufTy).Contents (Elt F) → (⟨S32768x1, .f32⟩ : BufTy).Contents (Elt F)),
    unary main_v67 main_v68 (broadcastInDim S32768x1323 ![0, 1] bcast_S32768x1_S32768x1323_0_1 : (⟨S32768x1, .f32⟩ : BufTy).Contents (Elt F) → (⟨S32768x1323, .f32⟩ : BufTy).Contents (Elt F)),
    binary main_v68 main_v59 main_v69 (mulf : (⟨S32768x1323, .f32⟩ : BufTy).Contents (Elt F) → (⟨S32768x1323, .f32⟩ : BufTy).Contents (Elt F) → (⟨S32768x1323, .f32⟩ : BufTy).Contents (Elt F)),
    binary main_v56 main_v69 main_v70 (subf : (⟨S32768x1323, .f32⟩ : BufTy).Contents (Elt F) → (⟨S32768x1323, .f32⟩ : BufTy).Contents (Elt F) → (⟨S32768x1323, .f32⟩ : BufTy).Contents (Elt F)),
    unary main_v42 main_v71 (broadcastInDim S32768x1 ![0] bcast_S32768_S32768x1_0 : (⟨S32768, .f32⟩ : BufTy).Contents (Elt F) → (⟨S32768x1, .f32⟩ : BufTy).Contents (Elt F)),
    unary main_v71 main_v72 (broadcastInDim S32768x1323 ![0, 1] bcast_S32768x1_S32768x1323_0_1 : (⟨S32768x1, .f32⟩ : BufTy).Contents (Elt F) → (⟨S32768x1323, .f32⟩ : BufTy).Contents (Elt F)),
    binary main_v72 main_v66 main_v73 (mulf : (⟨S32768x1323, .f32⟩ : BufTy).Contents (Elt F) → (⟨S32768x1323, .f32⟩ : BufTy).Contents (Elt F) → (⟨S32768x1323, .f32⟩ : BufTy).Contents (Elt F)),
    binary main_v70 main_v73 main_v74 (subf : (⟨S32768x1323, .f32⟩ : BufTy).Contents (Elt F) → (⟨S32768x1323, .f32⟩ : BufTy).Contents (Elt F) → (⟨S32768x1323, .f32⟩ : BufTy).Contents (Elt F)),
    unary main_v45 main_v75 (broadcastInDim S32768x1 ![0] bcast_S32768_S32768x1_0 : (⟨S32768, .f32⟩ : BufTy).Contents (Elt F) → (⟨S32768x1, .f32⟩ : BufTy).Contents (Elt F)),
    unary main_v75 main_v76 (broadcastInDim S32768x1323 ![0, 1] bcast_S32768x1_S32768x1323_0_1 : (⟨S32768x1, .f32⟩ : BufTy).Contents (Elt F) → (⟨S32768x1323, .f32⟩ : BufTy).Contents (Elt F)),
    binary main_v74 main_v76 main_v77 (Host.divf : (⟨S32768x1323, .f32⟩ : BufTy).Contents (Elt F) → (⟨S32768x1323, .f32⟩ : BufTy).Contents (Elt F) → (⟨S32768x1323, .f32⟩ : BufTy).Contents (Elt F)),
    binary main_v59 main_v59 main_v78 (mulf : (⟨S32768x1323, .f32⟩ : BufTy).Contents (Elt F) → (⟨S32768x1323, .f32⟩ : BufTy).Contents (Elt F) → (⟨S32768x1323, .f32⟩ : BufTy).Contents (Elt F)),
    binary main_v66 main_v66 main_v79 (mulf : (⟨S32768x1323, .f32⟩ : BufTy).Contents (Elt F) → (⟨S32768x1323, .f32⟩ : BufTy).Contents (Elt F) → (⟨S32768x1323, .f32⟩ : BufTy).Contents (Elt F)),
    binary main_v78 main_v79 main_v80 (addf : (⟨S32768x1323, .f32⟩ : BufTy).Contents (Elt F) → (⟨S32768x1323, .f32⟩ : BufTy).Contents (Elt F) → (⟨S32768x1323, .f32⟩ : BufTy).Contents (Elt F)),
    binary main_v77 main_v77 main_v81 (mulf : (⟨S32768x1323, .f32⟩ : BufTy).Contents (Elt F) → (⟨S32768x1323, .f32⟩ : BufTy).Contents (Elt F) → (⟨S32768x1323, .f32⟩ : BufTy).Contents (Elt F)),
    binary main_v80 main_v81 main_v82 (addf : (⟨S32768x1323, .f32⟩ : BufTy).Contents (Elt F) → (⟨S32768x1323, .f32⟩ : BufTy).Contents (Elt F) → (⟨S32768x1323, .f32⟩ : BufTy).Contents (Elt F)),
    unary main_v33 main_v83 (Host.log : (⟨S32768, .f32⟩ : BufTy).Contents (Elt F) → (⟨S32768, .f32⟩ : BufTy).Contents (Elt F)),
    unary main_v38 main_v84 (Host.log : (⟨S32768, .f32⟩ : BufTy).Contents (Elt F) → (⟨S32768, .f32⟩ : BufTy).Contents (Elt F)),
    binary main_v83 main_v84 main_v85 (addf : (⟨S32768, .f32⟩ : BufTy).Contents (Elt F) → (⟨S32768, .f32⟩ : BufTy).Contents (Elt F) → (⟨S32768, .f32⟩ : BufTy).Contents (Elt F)),
    unary main_v45 main_v86 (Host.log : (⟨S32768, .f32⟩ : BufTy).Contents (Elt F) → (⟨S32768, .f32⟩ : BufTy).Contents (Elt F)),
    binary main_v85 main_v86 main_v87 (addf : (⟨S32768, .f32⟩ : BufTy).Contents (Elt F) → (⟨S32768, .f32⟩ : BufTy).Contents (Elt F) → (⟨S32768, .f32⟩ : BufTy).Contents (Elt F)),
    nullary main_cst_7 (constant S_ .f32 0xBF000000#32),
    unary main_cst_7 main_v88 (broadcastInDim S32768x1323 ![] bcast_S_S32768x1323 : (⟨S_, .f32⟩ : BufTy).Contents (Elt F) → (⟨S32768x1323, .f32⟩ : BufTy).Contents (Elt F)),
    binary main_v88 main_v82 main_v89 (mulf : (⟨S32768x1323, .f32⟩ : BufTy).Contents (Elt F) → (⟨S32768x1323, .f32⟩ : BufTy).Contents (Elt F) → (⟨S32768x1323, .f32⟩ : BufTy).Contents (Elt F)),
    unary main_v87 main_v90 (broadcastInDim S32768x1 ![0] bcast_S32768_S32768x1_0 : (⟨S32768, .f32⟩ : BufTy).Contents (Elt F) → (⟨S32768x1, .f32⟩ : BufTy).Contents (Elt F)),
    unary main_v90 main_v91 (broadcastInDim S32768x1323 ![0, 1] bcast_S32768x1_S32768x1323_0_1 : (⟨S32768x1, .f32⟩ : BufTy).Contents (Elt F) → (⟨S32768x1323, .f32⟩ : BufTy).Contents (Elt F)),
    binary main_v89 main_v91 main_v92 (subf : (⟨S32768x1323, .f32⟩ : BufTy).Contents (Elt F) → (⟨S32768x1323, .f32⟩ : BufTy).Contents (Elt F) → (⟨S32768x1323, .f32⟩ : BufTy).Contents (Elt F)),
    nullary main_cst_8 (constant S_ .f32 0x40306FAB#32),
    unary main_cst_8 main_v93 (broadcastInDim S32768x1323 ![] bcast_S_S32768x1323 : (⟨S_, .f32⟩ : BufTy).Contents (Elt F) → (⟨S32768x1323, .f32⟩ : BufTy).Contents (Elt F)),
    binary main_v92 main_v93 main_v94 (subf : (⟨S32768x1323, .f32⟩ : BufTy).Contents (Elt F) → (⟨S32768x1323, .f32⟩ : BufTy).Contents (Elt F) → (⟨S32768x1323, .f32⟩ : BufTy).Contents (Elt F)),
    nullary main_cst_9 (constant S_ .f32 0xFF800000#32),
    binary main_v94 main_cst_9 main_v95 ((fun x v => Host.reduce FloatOps.maximumf x v reducesTo_S32768x1323_S32768_d1 h_S_) : (⟨S32768x1323, .f32⟩ : BufTy).Contents (Elt F) → (⟨S_, .f32⟩ : BufTy).Contents (Elt F) → (⟨S32768, .f32⟩ : BufTy).Contents (Elt F)),
    unary main_v95 main_v96 (broadcastInDim S32768x1 ![0] bcast_S32768_S32768x1_0 : (⟨S32768, .f32⟩ : BufTy).Contents (Elt F) → (⟨S32768x1, .f32⟩ : BufTy).Contents (Elt F)),
    unary main_v96 main_v97 (broadcastInDim S32768x1323 ![0, 1] bcast_S32768x1_S32768x1323_0_1 : (⟨S32768x1, .f32⟩ : BufTy).Contents (Elt F) → (⟨S32768x1323, .f32⟩ : BufTy).Contents (Elt F)),
    binary main_v94 main_v97 main_v98 (subf : (⟨S32768x1323, .f32⟩ : BufTy).Contents (Elt F) → (⟨S32768x1323, .f32⟩ : BufTy).Contents (Elt F) → (⟨S32768x1323, .f32⟩ : BufTy).Contents (Elt F)),
    unary main_v98 main_v99 (Host.exp : (⟨S32768x1323, .f32⟩ : BufTy).Contents (Elt F) → (⟨S32768x1323, .f32⟩ : BufTy).Contents (Elt F)),
    nullary main_cst_10 (constant S_ .f32 0x00000000#32),
    binary main_v99 main_cst_10 main_v100 ((fun x v => Host.reduceAdd x v reducesTo_S32768x1323_S32768_d1 h_S_) : (⟨S32768x1323, .f32⟩ : BufTy).Contents (Elt F) → (⟨S_, .f32⟩ : BufTy).Contents (Elt F) → (⟨S32768, .f32⟩ : BufTy).Contents (Elt F)),
    unary main_v100 main_v101 (broadcastInDim S32768x1 ![0] bcast_S32768_S32768x1_0 : (⟨S32768, .f32⟩ : BufTy).Contents (Elt F) → (⟨S32768x1, .f32⟩ : BufTy).Contents (Elt F)),
    nullary main_cst_11 (constant S_ .f32 0x2EDBE6FF#32),
    unary main_cst_11 main_v102 (broadcastInDim S32768x1 ![] bcast_S_S32768x1 : (⟨S_, .f32⟩ : BufTy).Contents (Elt F) → (⟨S32768x1, .f32⟩ : BufTy).Contents (Elt F)),
    binary main_v101 main_v102 main_v103 (addf : (⟨S32768x1, .f32⟩ : BufTy).Contents (Elt F) → (⟨S32768x1, .f32⟩ : BufTy).Contents (Elt F) → (⟨S32768x1, .f32⟩ : BufTy).Contents (Elt F)),
    unary main_v103 main_v104 (broadcastInDim S32768x1323 ![0, 1] bcast_S32768x1_S32768x1323_0_1 : (⟨S32768x1, .f32⟩ : BufTy).Contents (Elt F) → (⟨S32768x1323, .f32⟩ : BufTy).Contents (Elt F)),
    binary main_v99 main_v104 main_v105 (Host.divf : (⟨S32768x1323, .f32⟩ : BufTy).Contents (Elt F) → (⟨S32768x1323, .f32⟩ : BufTy).Contents (Elt F) → (⟨S32768x1323, .f32⟩ : BufTy).Contents (Elt F)) ]

set_option maxRecDepth 16384 in
/-- The whole line is its first 98 operations followed by the last stretch. -/
theorem ops_split : (ops : List (HloOp τ sig (Elt F))) = (ops : List (HloOp τ sig (Elt F))).take 98 ++ tail := rfl

/-- Running a concatenation is running its parts in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- So the buffers after the whole line are those after the last stretch, run from the buffers after the first 98
    operations. -/
theorem after_split (V : Valuation τ sig (Elt F)) :
    after ops V = after tail (after ((ops : List (HloOp τ sig (Elt F))).take 98) V) :=
  (congrArg (fun l => after l V) ops_split).trans (after_app _ _ V)

/-! ## What the last stretch leaves alone -/

set_option maxRecDepth 16384 in
theorem full_arg6 (V : Valuation τ sig (Elt Ideal)) :
    (after ops V (main_arg6 : DevRef τ sig) : S1323x3.Idx → EReal) = V (main_arg6 : DevRef τ sig) := by
  after_results_simp

set_option maxRecDepth 16384 in
theorem keep_arg6 (W : Valuation τ sig (Elt Ideal)) : (after tail W (main_arg6 : DevRef τ sig) : S1323x3.Idx → EReal) = W (main_arg6 : DevRef τ sig) := by
  after_results_simp
set_option maxRecDepth 16384 in
theorem keep_v4 (W : Valuation τ sig (Elt Ideal)) : (after tail W (main_v4 : DevRef τ sig) : S32768x3.Idx → EReal) = W (main_v4 : DevRef τ sig) := by
  after_results_simp
set_option maxRecDepth 16384 in
theorem keep_v33 (W : Valuation τ sig (Elt Ideal)) : (after tail W (main_v33 : DevRef τ sig) : S32768.Idx → EReal) = W (main_v33 : DevRef τ sig) := by
  after_results_simp
set_option maxRecDepth 16384 in
theorem keep_v35 (W : Valuation τ sig (Elt Ideal)) : (after tail W (main_v35 : DevRef τ sig) : S32768.Idx → EReal) = W (main_v35 : DevRef τ sig) := by
  after_results_simp
set_option maxRecDepth 16384 in
theorem keep_v38 (W : Valuation τ sig (Elt Ideal)) : (after tail W (main_v38 : DevRef τ sig) : S32768.Idx → EReal) = W (main_v38 : DevRef τ sig) := by
  after_results_simp
set_option maxRecDepth 16384 in
theorem keep_v40 (W : Valuation τ sig (Elt Ideal)) : (after tail W (main_v40 : DevRef τ sig) : S32768.Idx → EReal) = W (main_v40 : DevRef τ sig) := by
  after_results_simp
set_option maxRecDepth 16384 in
theorem keep_v42 (W : Valuation τ sig (Elt Ideal)) : (after tail W (main_v42 : DevRef τ sig) : S32768.Idx → EReal) = W (main_v42 : DevRef τ sig) := by
  after_results_simp
set_option maxRecDepth 16384 in
theorem keep_v45 (W : Valuation τ sig (Elt Ideal)) : (after tail W (main_v45 : DevRef τ sig) : S32768.Idx → EReal) = W (main_v45 : DevRef τ sig) := by
  after_results_simp

/-! ## The relations between the last stretch's buffers -/

/-- A per-sample array repeated along the pixel axis: [32768] → [32768, 1] → [32768, 1323]. -/
abbrev bb (x : S32768.Idx → EReal) : S32768x1323.Idx → EReal :=
  broadcastInDim S32768x1323 ![0, 1] bcast_S32768x1_S32768x1323_0_1 (broadcastInDim S32768x1 ![0] bcast_S32768_S32768x1_0 x)

/-- A scalar word repeated over the whole [32768, 1323] array. -/
abbrev cc (w : BitVec 32) : S32768x1323.Idx → EReal :=
  broadcastInDim S32768x1323 ![] bcast_S_S32768x1323 (constant (F := Ideal) S_ .f32 w)

/-- The pixel table repeated over the samples: [1323, 3] → [1, 1323, 3] → [32768, 1323, 3]. -/
abbrev pixB (x : S1323x3.Idx → EReal) : S32768x1323x3.Idx → EReal :=
  broadcastInDim S32768x1323x3 ![0, 1, 2] bcast_S1x1323x3_S32768x1323x3_0_1_2
    (broadcastInDim S1x1323x3 ![1, 2] bcast_S1323x3_S1x1323x3_1_2 x)

/-- The means repeated over the pixels: [32768, 3] → [32768, 1, 3] → [32768, 1323, 3]. -/
abbrev meanB (x : S32768x3.Idx → EReal) : S32768x1323x3.Idx → EReal :=
  broadcastInDim S32768x1323x3 ![0, 1, 2] bcast_S32768x1x3_S32768x1323x3_0_1_2
    (broadcastInDim S32768x1x3 ![0, 2] bcast_S32768x3_S32768x1x3_0_2 x)

set_option maxRecDepth 16384 in
theorem rel_v50 (W : Valuation τ sig (Elt Ideal)) :
    (after tail W (main_v50 : DevRef τ sig) : S32768x1323x3.Idx → EReal) = subf (F := Ideal) (φ := .f32) (pixB (W (main_arg6 : DevRef τ sig) : S1323x3.Idx → EReal)) (meanB (W (main_v4 : DevRef τ sig) : S32768x3.Idx → EReal)) := by
  after_results_simp

set_option maxRecDepth 16384 in
theorem rel_v52 (W : Valuation τ sig (Elt Ideal)) :
    (after tail W (main_v52 : DevRef τ sig) : S32768x1323.Idx → EReal) = shapeCast S32768x1323 (extractStridedSlice S32768x1323x1 ![0, 0, 0] (after tail W (main_v50 : DevRef τ sig) : S32768x1323x3.Idx → EReal) slices_S32768x1323x3_S32768x1323x1_0_0_0) shapeCasts_S32768x1323x1_S32768x1323 := by
  after_results_simp
  rfl

set_option maxRecDepth 16384 in
theorem rel_v54 (W : Valuation τ sig (Elt Ideal)) :
    (after tail W (main_v54 : DevRef τ sig) : S32768x1323.Idx → EReal) = shapeCast S32768x1323 (extractStridedSlice S32768x1323x1 ![0, 0, 1] (after tail W (main_v50 : DevRef τ sig) : S32768x1323x3.Idx → EReal) slices_S32768x1323x3_S32768x1323x1_0_0_1) shapeCasts_S32768x1323x1_S32768x1323 := by
  after_results_simp
  rfl

set_option maxRecDepth 16384 in
theorem rel_v56 (W : Valuation τ sig (Elt Ideal)) :
    (after tail W (main_v56 : DevRef τ sig) : S32768x1323.Idx → EReal) = shapeCast S32768x1323 (extractStridedSlice S32768x1323x1 ![0, 0, 2] (after tail W (main_v50 : DevRef τ sig) : S32768x1323x3.Idx → EReal) slices_S32768x1323x3_S32768x1323x1_0_0_2) shapeCasts_S32768x1323x1_S32768x1323 := by
  after_results_simp
  rfl

set_option maxRecDepth 16384 in
theorem rel_v59 (W : Valuation τ sig (Elt Ideal)) :
    (after tail W (main_v59 : DevRef τ sig) : S32768x1323.Idx → EReal) = Host.divf (F := Ideal) (φ := .f32) (after tail W (main_v52 : DevRef τ sig) : S32768x1323.Idx → EReal) (bb (W (main_v33 : DevRef τ sig) : S32768.Idx → EReal)) := by
  after_results_simp

set_option maxRecDepth 16384 in
theorem rel_v66 (W : Valuation τ sig (Elt Ideal)) :
    (after tail W (main_v66 : DevRef τ sig) : S32768x1323.Idx → EReal) = Host.divf (F := Ideal) (φ := .f32)
      (subf (F := Ideal) (φ := .f32) (after tail W (main_v54 : DevRef τ sig) : S32768x1323.Idx → EReal) (mulf (F := Ideal) (φ := .f32) (bb (W (main_v35 : DevRef τ sig) : S32768.Idx → EReal)) (after tail W (main_v59 : DevRef τ sig) : S32768x1323.Idx → EReal)))
      (bb (W (main_v38 : DevRef τ sig) : S32768.Idx → EReal)) := by
  after_results_simp

set_option maxRecDepth 16384 in
theorem rel_v77 (W : Valuation τ sig (Elt Ideal)) :
    (after tail W (main_v77 : DevRef τ sig) : S32768x1323.Idx → EReal) = Host.divf (F := Ideal) (φ := .f32)
      (subf (F := Ideal) (φ := .f32)
        (subf (F := Ideal) (φ := .f32) (after tail W (main_v56 : DevRef τ sig) : S32768x1323.Idx → EReal) (mulf (F := Ideal) (φ := .f32) (bb (W (main_v40 : DevRef τ sig) : S32768.Idx → EReal)) (after tail W (main_v59 : DevRef τ sig) : S32768x1323.Idx → EReal)))
        (mulf (F := Ideal) (φ := .f32) (bb (W (main_v42 : DevRef τ sig) : S32768.Idx → EReal)) (after tail W (main_v66 : DevRef τ sig) : S32768x1323.Idx → EReal)))
      (bb (W (main_v45 : DevRef τ sig) : S32768.Idx → EReal)) := by
  after_results_simp

set_option maxRecDepth 16384 in
theorem rel_v94 (W : Valuation τ sig (Elt Ideal)) :
    (after tail W (main_v94 : DevRef τ sig) : S32768x1323.Idx → EReal) = subf (F := Ideal) (φ := .f32)
      (subf (F := Ideal) (φ := .f32)
        (mulf (F := Ideal) (φ := .f32) (cc 0xBF000000#32)
          (addf (F := Ideal) (φ := .f32)
            (addf (F := Ideal) (φ := .f32) (mulf (F := Ideal) (φ := .f32) (after tail W (main_v59 : DevRef τ sig) : S32768x1323.Idx → EReal) (after tail W (main_v59 : DevRef τ sig) : S32768x1323.Idx → EReal)) (mulf (F := Ideal) (φ := .f32) (after tail W (main_v66 : DevRef τ sig) : S32768x1323.Idx → EReal) (after tail W (main_v66 : DevRef τ sig) : S32768x1323.Idx → EReal)))
            (mulf (F := Ideal) (φ := .f32) (after tail W (main_v77 : DevRef τ sig) : S32768x1323.Idx → EReal) (after tail W (main_v77 : DevRef τ sig) : S32768x1323.Idx → EReal))))
        (bb (addf (F := Ideal) (φ := .f32)
              (addf (F := Ideal) (φ := .f32) (Host.log (F := Ideal) (φ := .f32) (W (main_v33 : DevRef τ sig) : S32768.Idx → EReal)) (Host.log (F := Ideal) (φ := .f32) (W (main_v38 : DevRef τ sig) : S32768.Idx → EReal)))
              (Host.log (F := Ideal) (φ := .f32) (W (main_v45 : DevRef τ sig) : S32768.Idx → EReal)))))
      (cc 0x40306FAB#32) := by
  after_results_simp

set_option maxRecDepth 16384 in
theorem rel_v99 (W : Valuation τ sig (Elt Ideal)) :
    (after tail W (main_v99 : DevRef τ sig) : S32768x1323.Idx → EReal) = Host.exp (F := Ideal) (φ := .f32) (subf (F := Ideal) (φ := .f32) (after tail W (main_v94 : DevRef τ sig) : S32768x1323.Idx → EReal)
      (bb (Host.reduce (FloatOps.maximumf (F := Ideal) (φ := .f32)) (after tail W (main_v94 : DevRef τ sig) : S32768x1323.Idx → EReal) (constant (F := Ideal) S_ .f32 0xFF800000#32) reducesTo_S32768x1323_S32768_d1 h_S_))) := by
  after_results_simp

set_option maxRecDepth 16384 in
theorem rel_v105 (W : Valuation τ sig (Elt Ideal)) :
    (after tail W (main_v105 : DevRef τ sig) : S32768x1323.Idx → EReal) = Host.divf (F := Ideal) (φ := .f32) (after tail W (main_v99 : DevRef τ sig) : S32768x1323.Idx → EReal)
      (broadcastInDim S32768x1323 ![0, 1] bcast_S32768x1_S32768x1323_0_1
        (addf (F := Ideal) (φ := .f32)
          (broadcastInDim S32768x1 ![0] bcast_S32768_S32768x1_0
            (Host.reduceAdd (F := Ideal) (φ := .f32) (after tail W (main_v99 : DevRef τ sig) : S32768x1323.Idx → EReal) (constant (F := Ideal) S_ .f32 0x00000000#32) reducesTo_S32768x1323_S32768_d1 h_S_))
          (broadcastInDim S32768x1 ![] bcast_S_S32768x1 (constant (F := Ideal) S_ .f32 0x2EDBE6FF#32)))) := by
  after_results_simp

/-! ## The layout operations read at an index -/

/-- A column [32768] → [32768, 1] reads the sample's entry. -/
theorem col_apply (x : S32768.Idx → EReal) (b : Fin 32768) :
    broadcastInDim S32768x1 ![0] bcast_S32768_S32768x1_0 x (ix2 b (0 : Fin 1)) = x (ix1 b) :=
  broadcastInDim_apply _ bcast_S32768_S32768x1_0 x (ix2 b (0 : Fin 1)) (ix1 b) fun a => by
    match a with
    | ⟨0, _⟩ => rfl

/-- A column repeated along the pixel axis, [32768, 1] → [32768, 1323], reads the column's entry. -/
theorem row_apply (y : S32768x1.Idx → EReal) (b : Fin 32768) (q : Fin 1323) :
    broadcastInDim S32768x1323 ![0, 1] bcast_S32768x1_S32768x1323_0_1 y (ix2 b q) = y (ix2 b (0 : Fin 1)) :=
  broadcastInDim_apply _ bcast_S32768x1_S32768x1323_0_1 y (ix2 b q) (ix2 b (0 : Fin 1)) fun a => by
    match a with
    | ⟨0, _⟩ => rfl
    | ⟨1, _⟩ => rfl

/-- A per-sample array repeated along the pixel axis reads the sample's entry. -/
theorem bb_apply (x : S32768.Idx → EReal) (b : Fin 32768) (q : Fin 1323) : bb x (ix2 b q) = x (ix1 b) :=
  (row_apply _ b q).trans (col_apply x b)

/-- A scalar word repeated over the [32768, 1323] array reads the number the word denotes. -/
theorem cc_apply (w : BitVec 32) (i : S32768x1323.Idx) : cc w i = Ideal.ofBits .f32 w :=
  broadcastInDim_scalar_apply bcast_S_S32768x1323 _ i

/-- A scalar word repeated over a column reads the number the word denotes. -/
theorem scalarCol_apply (w : BitVec 32) (i : S32768x1.Idx) :
    broadcastInDim S32768x1 ![] bcast_S_S32768x1 (constant (F := Ideal) S_ .f32 w) i = Ideal.ofBits .f32 w :=
  broadcastInDim_scalar_apply bcast_S_S32768x1 _ i

/-- The pixel table repeated over the samples reads the pixel's coordinate. -/
theorem pixB_apply (x : S1323x3.Idx → EReal) (b : Fin 32768) (q : Fin 1323) (k : Fin 3) :
    pixB x (ix3 b q k) = x (ix2 q k) :=
  (broadcastInDim_apply _ bcast_S1x1323x3_S32768x1323x3_0_1_2 _ (ix3 b q k) (ix3 (0 : Fin 1) q k) fun a => by
    match a with
    | ⟨0, _⟩ => rfl
    | ⟨1, _⟩ => rfl
    | ⟨2, _⟩ => rfl).trans
  (broadcastInDim_apply _ bcast_S1323x3_S1x1323x3_1_2 x (ix3 (0 : Fin 1) q k) (ix2 q k) fun a => by
    match a with
    | ⟨0, _⟩ => rfl
    | ⟨1, _⟩ => rfl)

/-- The means repeated over the pixels read the sample's coordinate. -/
theorem meanB_apply (x : S32768x3.Idx → EReal) (b : Fin 32768) (q : Fin 1323) (k : Fin 3) :
    meanB x (ix3 b q k) = x (ix2 b k) :=
  (broadcastInDim_apply _ bcast_S32768x1x3_S32768x1323x3_0_1_2 _ (ix3 b q k) (ix3 b (0 : Fin 1) k) fun a => by
    match a with
    | ⟨0, _⟩ => rfl
    | ⟨1, _⟩ => rfl
    | ⟨2, _⟩ => rfl).trans
  (broadcastInDim_apply _ bcast_S32768x3_S32768x1x3_0_2 x (ix3 b (0 : Fin 1) k) (ix2 b k) fun a => by
    match a with
    | ⟨0, _⟩ => rfl
    | ⟨1, _⟩ => rfl)

/-- One coordinate cut out of the last axis: the slice [.., .., c : c + 1] reads coordinate c. -/
theorem sliceLast_apply (c : Nat) (x : S32768x1323x3.Idx → EReal) (h : S32768x1323x3.Slices ![0, 0, c] S32768x1323x1)
    (b : Fin 32768) (q : Fin 1323) (k : Fin 3) (hk : k.val = c) :
    extractStridedSlice S32768x1323x1 ![0, 0, c] x h (ix3 b q (0 : Fin 1)) = x (ix3 b q k) :=
  extractStridedSlice_apply _ x h _ _ fun ax => by
    match ax with
    | ⟨0, _⟩ => exact (Nat.zero_add _).symm
    | ⟨1, _⟩ => exact (Nat.zero_add _).symm
    | ⟨2, _⟩ => exact hk.trans (Nat.add_zero _).symm

/-- Dropping the trailing unit axis, [32768, 1323, 1] → [32768, 1323], keeps the first two coordinates. -/
theorem squeezeLast_apply (x : S32768x1323x1.Idx → EReal) (h : S32768x1323x1.ShapeCasts S32768x1323)
    (b : Fin 32768) (q : Fin 1323) : shapeCast S32768x1323 x h (ix2 b q) = x (ix3 b q (0 : Fin 1)) :=
  shapeCast_apply x h _ _ (by
    rw [Shape.rowMajor_val_three, Shape.rowMajor_val_two]
    show (b.val * 1323 + q.val) * 1 + 0 = b.val * 1323 + q.val
    omega)

/-- The host's logarithm and exponential at an index are the extended reals'. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-! ## The two reductions along the pixel axis -/

/-- The pixel axis is the one reduced. -/
theorem reduces_d1 : S32768x1323.Reduces [1] S32768 := by decide

/-- Putting pixel q back into sample b's index gives (b, q). -/
theorem lift_d1 (b : Fin 32768) (q : Fin 1323) : reduces_d1.lift (ix1 b) q = ix2 b q :=
  funext fun c => Fin.ext (by
    match c with
    | ⟨0, _⟩ => rfl
    | ⟨1, _⟩ => rfl)

/-- The maximum along the pixel axis from the word of -∞ is the row's maximum folded from ⊥. -/
theorem reduce_max_apply (x : S32768x1323.Idx → EReal) (b : Fin 32768) :
    Host.reduce (FloatOps.maximumf (F := Ideal) (φ := .f32)) x (constant (F := Ideal) S_ .f32 0xFF800000#32)
        reducesTo_S32768x1323_S32768_d1 h_S_ (ix1 b)
      = Cert.Spec.rowMax (fun q => x (ix2 b q)) := by
  have hf : (x ∘ reduces_d1.lift (ix1 b)) = fun q : Fin 1323 => x (ix2 b q) := funext fun q => congrArg x (lift_d1 b q)
  refine (Host.reduce_eq_fold_single (FloatOps.maximumf (F := Ideal) (φ := .f32)) x _ reducesTo_S32768x1323_S32768_d1 reduces_d1 h_S_
    (ix1 b)).trans ?_
  refine (congrArg (fun f : Fin 1323 → EReal =>
    (Finset.univ : Finset (Fin 1323)).fold max (Ideal.ofBits .f32 0xFF800000#32) f) hf).trans ?_
  rw [Cert.Spec.ofBits_negInf]
  rfl

/-- The sum along the pixel axis from the word of 0 is the row's sum. -/
theorem reduce_add_apply (x : S32768x1323.Idx → EReal) (b : Fin 32768) :
    Host.reduceAdd (F := Ideal) (φ := .f32) x (constant (F := Ideal) S_ .f32 0x00000000#32) reducesTo_S32768x1323_S32768_d1 h_S_ (ix1 b)
      = ∑ k : Fin 1323, x (ix2 b k) := by
  refine (hostReduceAdd_apply x _ reducesTo_S32768x1323_S32768_d1 h_S_ (ix1 b)).trans ?_
  refine (Ideal.hostReduceAdd_single reducesTo_S32768x1323_S32768_d1 reduces_d1 x _ (ix1 b)).trans ?_
  show Ideal.ofBits .f32 0x00000000#32 + ∑ k : Fin 1323, x (reduces_d1.lift (ix1 b) k) = _
  rw [Cert.Spec.ofBits_zero, zero_add]
  exact Finset.sum_congr rfl fun k _ => congrArg x (lift_d1 b k)

/-! ## The buffers read at an index -/

/-- Subtraction of extended reals, the operands' type fixed. -/
abbrev esub (x y : EReal) : EReal := x - y

section At

variable (W : Valuation τ sig (Elt Ideal)) (b : Fin 32768) (q : Fin 1323)

/-- Coordinate k of pixel q minus coordinate k of sample b's mean. -/
theorem coord_at (c : Nat) (h : S32768x1323x3.Slices ![0, 0, c] S32768x1323x1) (k : Fin 3) (hk : k.val = c) :
    shapeCast S32768x1323 (extractStridedSlice S32768x1323x1 ![0, 0, c] (after tail W (main_v50 : DevRef τ sig) : S32768x1323x3.Idx → EReal) h)
        shapeCasts_S32768x1323x1_S32768x1323 (ix2 b q)
      = esub ((W (main_arg6 : DevRef τ sig) : S1323x3.Idx → EReal) (ix2 q k)) ((W (main_v4 : DevRef τ sig) : S32768x3.Idx → EReal) (ix2 b k)) := by
  refine (squeezeLast_apply _ _ b q).trans ((sliceLast_apply c _ h b q k hk).trans ?_)
  rw [rel_v50, subf_apply, pixB_apply, meanB_apply]

theorem v52_at : (after tail W (main_v52 : DevRef τ sig) : S32768x1323.Idx → EReal) (ix2 b q) = esub ((W (main_arg6 : DevRef τ sig) : S1323x3.Idx → EReal) (ix2 q 0)) ((W (main_v4 : DevRef τ sig) : S32768x3.Idx → EReal) (ix2 b 0)) := by
  rw [rel_v52]; exact coord_at W b q 0 _ 0 rfl
theorem v54_at : (after tail W (main_v54 : DevRef τ sig) : S32768x1323.Idx → EReal) (ix2 b q) = esub ((W (main_arg6 : DevRef τ sig) : S1323x3.Idx → EReal) (ix2 q 1)) ((W (main_v4 : DevRef τ sig) : S32768x3.Idx → EReal) (ix2 b 1)) := by
  rw [rel_v54]; exact coord_at W b q 1 _ 1 rfl
theorem v56_at : (after tail W (main_v56 : DevRef τ sig) : S32768x1323.Idx → EReal) (ix2 b q) = esub ((W (main_arg6 : DevRef τ sig) : S1323x3.Idx → EReal) (ix2 q 2)) ((W (main_v4 : DevRef τ sig) : S32768x3.Idx → EReal) (ix2 b 2)) := by
  rw [rel_v56]; exact coord_at W b q 2 _ 2 rfl

/-- Forward substitution, first row. -/
theorem v59_at : (after tail W (main_v59 : DevRef τ sig) : S32768x1323.Idx → EReal) (ix2 b q)
    = Cert.Spec.gz0 ((W (main_v4 : DevRef τ sig) : S32768x3.Idx → EReal) (ix2 b 0)) ((W (main_v33 : DevRef τ sig) : S32768.Idx → EReal) (ix1 b)) ((W (main_arg6 : DevRef τ sig) : S1323x3.Idx → EReal) (ix2 q 0)) := by
  rw [rel_v59, hostDivf_apply, bb_apply, v52_at]
  rfl

/-- Second row. -/
theorem v66_at : (after tail W (main_v66 : DevRef τ sig) : S32768x1323.Idx → EReal) (ix2 b q)
    = Cert.Spec.gz1 ((W (main_v4 : DevRef τ sig) : S32768x3.Idx → EReal) (ix2 b 0)) ((W (main_v4 : DevRef τ sig) : S32768x3.Idx → EReal) (ix2 b 1)) ((W (main_v33 : DevRef τ sig) : S32768.Idx → EReal) (ix1 b)) ((W (main_v35 : DevRef τ sig) : S32768.Idx → EReal) (ix1 b))
        ((W (main_v38 : DevRef τ sig) : S32768.Idx → EReal) (ix1 b)) ((W (main_arg6 : DevRef τ sig) : S1323x3.Idx → EReal) (ix2 q 0)) ((W (main_arg6 : DevRef τ sig) : S1323x3.Idx → EReal) (ix2 q 1)) := by
  rw [rel_v66, hostDivf_apply, subf_apply, mulf_apply, bb_apply, bb_apply, v54_at, v59_at]
  rfl

/-- Third row. -/
theorem v77_at : (after tail W (main_v77 : DevRef τ sig) : S32768x1323.Idx → EReal) (ix2 b q)
    = Cert.Spec.gz2 ((W (main_v4 : DevRef τ sig) : S32768x3.Idx → EReal) (ix2 b 0)) ((W (main_v4 : DevRef τ sig) : S32768x3.Idx → EReal) (ix2 b 1)) ((W (main_v4 : DevRef τ sig) : S32768x3.Idx → EReal) (ix2 b 2))
        ((W (main_v33 : DevRef τ sig) : S32768.Idx → EReal) (ix1 b)) ((W (main_v35 : DevRef τ sig) : S32768.Idx → EReal) (ix1 b)) ((W (main_v38 : DevRef τ sig) : S32768.Idx → EReal) (ix1 b)) ((W (main_v40 : DevRef τ sig) : S32768.Idx → EReal) (ix1 b)) ((W (main_v42 : DevRef τ sig) : S32768.Idx → EReal) (ix1 b)) ((W (main_v45 : DevRef τ sig) : S32768.Idx → EReal) (ix1 b))
        ((W (main_arg6 : DevRef τ sig) : S1323x3.Idx → EReal) (ix2 q 0)) ((W (main_arg6 : DevRef τ sig) : S1323x3.Idx → EReal) (ix2 q 1)) ((W (main_arg6 : DevRef τ sig) : S1323x3.Idx → EReal) (ix2 q 2)) := by
  rw [rel_v77, hostDivf_apply, subf_apply, subf_apply, mulf_apply, mulf_apply, bb_apply, bb_apply, bb_apply, v56_at, v59_at, v66_at]
  rfl

/-- Sample b's row of log-densities, from its nine parameters and the pixel table. -/
def rowF : Fin 1323 → EReal := fun p =>
  Cert.Spec.gauss ((W (main_v4 : DevRef τ sig) : S32768x3.Idx → EReal) (ix2 b 0)) ((W (main_v4 : DevRef τ sig) : S32768x3.Idx → EReal) (ix2 b 1)) ((W (main_v4 : DevRef τ sig) : S32768x3.Idx → EReal) (ix2 b 2))
    ((W (main_v33 : DevRef τ sig) : S32768.Idx → EReal) (ix1 b)) ((W (main_v35 : DevRef τ sig) : S32768.Idx → EReal) (ix1 b)) ((W (main_v38 : DevRef τ sig) : S32768.Idx → EReal) (ix1 b)) ((W (main_v40 : DevRef τ sig) : S32768.Idx → EReal) (ix1 b)) ((W (main_v42 : DevRef τ sig) : S32768.Idx → EReal) (ix1 b)) ((W (main_v45 : DevRef τ sig) : S32768.Idx → EReal) (ix1 b))
    ((W (main_arg6 : DevRef τ sig) : S1323x3.Idx → EReal) (ix2 p 0)) ((W (main_arg6 : DevRef τ sig) : S1323x3.Idx → EReal) (ix2 p 1)) ((W (main_arg6 : DevRef τ sig) : S1323x3.Idx → EReal) (ix2 p 2))

/-- The log-density of pixel q under sample b's Gaussian. -/
theorem v94_at : (after tail W (main_v94 : DevRef τ sig) : S32768x1323.Idx → EReal) (ix2 b q) = rowF W b q := by
  rw [rel_v94]
  simp only [subf_apply, mulf_apply, addf_apply, cc_apply, bb_apply, hostLog_apply]
  rw [v59_at, v66_at, v77_at]
  rfl

/-- The exponential of the log-density less the row's maximum. -/
theorem v99_at : (after tail W (main_v99 : DevRef τ sig) : S32768x1323.Idx → EReal) (ix2 b q) = Ideal.exp (rowF W b q - Cert.Spec.rowMax (rowF W b)) := by
  have h94 : (fun p => (after tail W (main_v94 : DevRef τ sig) : S32768x1323.Idx → EReal) (ix2 b p)) = rowF W b := funext fun p => v94_at W b p
  rw [rel_v99, hostExp_apply, subf_apply, bb_apply, reduce_max_apply, h94, v94_at]

/-- The result: the softmax of the row. -/
theorem tail_apply (n : Fin 1323) : (after tail W (main_v105 : DevRef τ sig) : S32768x1323.Idx → EReal) (ix2 b n) = Cert.Spec.softmaxRow (rowF W b) n := by
  rw [rel_v105, hostDivf_apply, row_apply, addf_apply, col_apply, reduce_add_apply, scalarCol_apply, v99_at]
  exact congrArg (fun s : EReal => Ideal.div (Ideal.exp (rowF W b n - Cert.Spec.rowMax (rowF W b))) (s + Cert.Spec.eps))
    (Finset.sum_congr rfl fun k _ => v99_at W b k)

end At

/-! ## The statement over the whole line -/

theorem v105_apply (V : Valuation τ sig (Elt Ideal)) (b : Fin 32768) (n : Fin 1323) :
    (after ops V (main_v105 : DevRef τ sig) : S32768x1323.Idx → EReal) (ix2 b n)
      = Cert.Spec.softmaxRow (fun q => Cert.Spec.gauss
          ((after ops V (main_v4 : DevRef τ sig) : S32768x3.Idx → EReal) (ix2 b 0))
          ((after ops V (main_v4 : DevRef τ sig) : S32768x3.Idx → EReal) (ix2 b 1))
          ((after ops V (main_v4 : DevRef τ sig) : S32768x3.Idx → EReal) (ix2 b 2))
          ((after ops V (main_v33 : DevRef τ sig) : S32768.Idx → EReal) (ix1 b))
          ((after ops V (main_v35 : DevRef τ sig) : S32768.Idx → EReal) (ix1 b))
          ((after ops V (main_v38 : DevRef τ sig) : S32768.Idx → EReal) (ix1 b))
          ((after ops V (main_v40 : DevRef τ sig) : S32768.Idx → EReal) (ix1 b))
          ((after ops V (main_v42 : DevRef τ sig) : S32768.Idx → EReal) (ix1 b))
          ((after ops V (main_v45 : DevRef τ sig) : S32768.Idx → EReal) (ix1 b))
          ((V (main_arg6 : DevRef τ sig) : S1323x3.Idx → EReal) (ix2 q 0))
          ((V (main_arg6 : DevRef τ sig) : S1323x3.Idx → EReal) (ix2 q 1))
          ((V (main_arg6 : DevRef τ sig) : S1323x3.Idx → EReal) (ix2 q 2))) n := by
  have hs := after_split V
  have h6 : (V (main_arg6 : DevRef τ sig) : S1323x3.Idx → EReal)
      = after ((ops : List (HloOp τ sig (Elt Ideal))).take 98) V (main_arg6 : DevRef τ sig) := by
    have h1 := full_arg6 V
    rw [hs, keep_arg6] at h1
    exact h1.symm
  rw [h6, hs, keep_v4, keep_v33, keep_v35, keep_v38, keep_v40, keep_v42, keep_v45]
  exact tail_apply _ b n

end Cert.ReferenceIdeal.RefGauss

end
-- ==== Proof.RefLin.lean ====
/-
  The linear part of the reference at sample b: the mean is row b's inner product with each of the three mean
  weights (the weight matrix transposed, then one contraction onto zero) plus the bias, and the six scales are
  elu + 1 of the same with the scale weights.
-/
import proofs.«145389_j78314433675745_1_alg».proof.Proof.RefRun
import proofs.«145389_j78314433675745_1_alg».proof.Proof.SpecLaws
import proofs.«145389_j78314433675745_1_alg».proof.Proof.SpecArr
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

namespace Cert.ReferenceIdeal.RefLin

open Cert.ReferenceIdeal Cert.ReferenceIdeal.Gen Cert.ReferenceIdeal.RefOps Idealize.ShloMosaic Idealize.ShloMosaic.TcCoe Idealize.SL.Sem Idealize.ShloMosaic.StableHlo Idealize.ShloMosaic.ValueIdx
open scoped BigOperators

/-- A vector laid as the one row of a one-row matrix reads, at (0, t), its entry t. -/
theorem broadcastInDim_asRow_apply {α : Type} {n : Nat} (h : (⟨1, ![n]⟩ : Shape).BroadcastsInDim ⟨2, ![1, n]⟩ ![1])
    (x : (⟨1, ![n]⟩ : Shape).Idx → α) (t : Fin n) :
    broadcastInDim ⟨2, ![1, n]⟩ ![1] h x (ix2 (0 : Fin 1) t) = x (ix1 t) := by
  refine broadcastInDim_apply ![1] h x (ix2 (0 : Fin 1) t) (ix1 t) ?_
  intro a
  match a with
  | ⟨0, _⟩ =>
    show t.val = if n = 1 then 0 else t.val
    split_ifs with hn
    · have := t.isLt; omega
    · rfl

/-- The host's exponential at an index is the extended reals' exponential of the entry. -/
theorem hostExp_apply {s : Shape} {φ : FTy} (x : FVec Ideal s φ) (i : s.Idx) : Host.exp (F := Ideal) x i = Ideal.exp (x i) := rfl

/-! ### The 3-wide product: the operand indices, axis by axis -/

theorem lhs3_0 (i : S32768x3.Idx) (q : dot_S32768x1024_S1024x3_S32768x3_1_0_0_1_n_n.contr.Idx) :
    (dot_S32768x1024_S1024x3_S32768x3_1_0_0_1_n_n.lhsIdx i q 0).val = (i 0).val := by
  unfold DotDims.lhsIdx
  rw [dif_neg (show ¬(0 : Fin S32768x1024.rank) ∈ dot_S32768x1024_S1024x3_S32768x3_1_0_0_1_n_n.lhsBatch by decide),
    dif_pos (show (0 : Fin S32768x1024.rank) ∈ dot_S32768x1024_S1024x3_S32768x3_1_0_0_1_n_n.lhsNonContracting by decide)]
  rfl

theorem lhs3_1 (i : S32768x3.Idx) (q : dot_S32768x1024_S1024x3_S32768x3_1_0_0_1_n_n.contr.Idx) :
    (dot_S32768x1024_S1024x3_S32768x3_1_0_0_1_n_n.lhsIdx i q 1).val = (q ⟨0, by decide⟩).val :=
  dot_S32768x1024_S1024x3_S32768x3_1_0_0_1_n_n.lhsIdx_val_of_single rfl i q

theorem rhs3_0 (i : S32768x3.Idx) (q : dot_S32768x1024_S1024x3_S32768x3_1_0_0_1_n_n.contr.Idx) :
    (dot_S32768x1024_S1024x3_S32768x3_1_0_0_1_n_n.rhsIdx i q 0).val = (q ⟨0, by decide⟩).val :=
  dot_S32768x1024_S1024x3_S32768x3_1_0_0_1_n_n.rhsIdx_val_of_single rfl i q

theorem rhs3_1 (i : S32768x3.Idx) (q : dot_S32768x1024_S1024x3_S32768x3_1_0_0_1_n_n.contr.Idx) :
    (dot_S32768x1024_S1024x3_S32768x3_1_0_0_1_n_n.rhsIdx i q 1).val = (i 1).val := by
  unfold DotDims.rhsIdx
  rw [dif_neg (show ¬(1 : Fin S1024x3.rank) ∈ dot_S32768x1024_S1024x3_S32768x3_1_0_0_1_n_n.rhsBatch by decide),
    dif_pos (show (1 : Fin S1024x3.rank) ∈ dot_S32768x1024_S1024x3_S32768x3_1_0_0_1_n_n.rhsNonContracting by decide)]
  rfl

/-- Entry (b, k) of the product is the sum over the 1024 features of row b of the left factor times column k of the
    right one. -/
theorem dot3_apply (x : FVec Ideal S32768x1024 .f32) (y : FVec Ideal S1024x3 .f32) (b : Fin 32768) (k : Fin 3) :
    Host.dotGeneral (F := Ideal) dot_S32768x1024_S1024x3_S32768x3_1_0_0_1_n_n none x y (ix2 b k)
      = ∑ j : Fin 1024, x (ix2 b j) * y (ix2 j k) := by
  simp only [Host.dotGeneral]
  rw [Ideal.dotGeneral_apply, ← Equiv.sum_comp (contrEquiv1 dot_S32768x1024_S1024x3_S32768x3_1_0_0_1_n_n 1024 rfl rfl).symm]
  refine Finset.sum_congr rfl fun j _ => ?_
  have hk := contrEquiv1_symm_val dot_S32768x1024_S1024x3_S32768x3_1_0_0_1_n_n 1024 rfl rfl j
  have el : dot_S32768x1024_S1024x3_S32768x3_1_0_0_1_n_n.lhsIdx (ix2 b k) ((contrEquiv1 dot_S32768x1024_S1024x3_S32768x3_1_0_0_1_n_n 1024 rfl rfl).symm j) = ix2 b j :=
    funext fun a => Fin.ext (by
      match a with
      | ⟨0, _⟩ => exact lhs3_0 _ _
      | ⟨1, _⟩ => exact (lhs3_1 _ _).trans hk)
  have er : dot_S32768x1024_S1024x3_S32768x3_1_0_0_1_n_n.rhsIdx (ix2 b k) ((contrEquiv1 dot_S32768x1024_S1024x3_S32768x3_1_0_0_1_n_n 1024 rfl rfl).symm j) = ix2 j k :=
    funext fun a => Fin.ext (by
      match a with
      | ⟨0, _⟩ => exact (rhs3_0 _ _).trans hk
      | ⟨1, _⟩ => exact rhs3_1 _ _)
  rw [el, er]

/-! ### The 6-wide product: the operand indices, axis by axis -/

theorem lhs6_0 (i : S32768x6.Idx) (q : dot_S32768x1024_S1024x6_S32768x6_1_0_0_1_n_n.contr.Idx) :
    (dot_S32768x1024_S1024x6_S32768x6_1_0_0_1_n_n.lhsIdx i q 0).val = (i 0).val := by
  unfold DotDims.lhsIdx
  rw [dif_neg (show ¬(0 : Fin S32768x1024.rank) ∈ dot_S32768x1024_S1024x6_S32768x6_1_0_0_1_n_n.lhsBatch by decide),
    dif_pos (show (0 : Fin S32768x1024.rank) ∈ dot_S32768x1024_S1024x6_S32768x6_1_0_0_1_n_n.lhsNonContracting by decide)]
  rfl

theorem lhs6_1 (i : S32768x6.Idx) (q : dot_S32768x1024_S1024x6_S32768x6_1_0_0_1_n_n.contr.Idx) :
    (dot_S32768x1024_S1024x6_S32768x6_1_0_0_1_n_n.lhsIdx i q 1).val = (q ⟨0, by decide⟩).val :=
  dot_S32768x1024_S1024x6_S32768x6_1_0_0_1_n_n.lhsIdx_val_of_single rfl i q

theorem rhs6_0 (i : S32768x6.Idx) (q : dot_S32768x1024_S1024x6_S32768x6_1_0_0_1_n_n.contr.Idx) :
    (dot_S32768x1024_S1024x6_S32768x6_1_0_0_1_n_n.rhsIdx i q 0).val = (q ⟨0, by decide⟩).val :=
  dot_S32768x1024_S1024x6_S32768x6_1_0_0_1_n_n.rhsIdx_val_of_single rfl i q

theorem rhs6_1 (i : S32768x6.Idx) (q : dot_S32768x1024_S1024x6_S32768x6_1_0_0_1_n_n.contr.Idx) :
    (dot_S32768x1024_S1024x6_S32768x6_1_0_0_1_n_n.rhsIdx i q 1).val = (i 1).val := by
  unfold DotDims.rhsIdx
  rw [dif_neg (show ¬(1 : Fin S1024x6.rank) ∈ dot_S32768x1024_S1024x6_S32768x6_1_0_0_1_n_n.rhsBatch by decide),
    dif_pos (show (1 : Fin S1024x6.rank) ∈ dot_S32768x1024_S1024x6_S32768x6_1_0_0_1_n_n.rhsNonContracting by decide)]
  rfl

/-- Entry (b, k) of the product is the sum over the 1024 features of row b of the left factor times column k of the
    right one. -/
theorem dot6_apply (x : FVec Ideal S32768x1024 .f32) (y : FVec Ideal S1024x6 .f32) (b : Fin 32768) (k : Fin 6) :
    Host.dotGeneral (F := Ideal) dot_S32768x1024_S1024x6_S32768x6_1_0_0_1_n_n none x y (ix2 b k)
      = ∑ j : Fin 1024, x (ix2 b j) * y (ix2 j k) := by
  simp only [Host.dotGeneral]
  rw [Ideal.dotGeneral_apply, ← Equiv.sum_comp (contrEquiv1 dot_S32768x1024_S1024x6_S32768x6_1_0_0_1_n_n 1024 rfl rfl).symm]
  refine Finset.sum_congr rfl fun j _ => ?_
  have hk := contrEquiv1_symm_val dot_S32768x1024_S1024x6_S32768x6_1_0_0_1_n_n 1024 rfl rfl j
  have el : dot_S32768x1024_S1024x6_S32768x6_1_0_0_1_n_n.lhsIdx (ix2 b k) ((contrEquiv1 dot_S32768x1024_S1024x6_S32768x6_1_0_0_1_n_n 1024 rfl rfl).symm j) = ix2 b j :=
    funext fun a => Fin.ext (by
      match a with
      | ⟨0, _⟩ => exact lhs6_0 _ _
      | ⟨1, _⟩ => exact (lhs6_1 _ _).trans hk)
  have er : dot_S32768x1024_S1024x6_S32768x6_1_0_0_1_n_n.rhsIdx (ix2 b k) ((contrEquiv1 dot_S32768x1024_S1024x6_S32768x6_1_0_0_1_n_n 1024 rfl rfl).symm j) = ix2 j k :=
    funext fun a => Fin.ext (by
      match a with
      | ⟨0, _⟩ => exact (rhs6_0 _ _).trans hk
      | ⟨1, _⟩ => exact rhs6_1 _ _)
  rw [el, er]

set_option maxRecDepth 16384 in
set_option maxHeartbeats 4000000 in
/-- The mean's buffer is the product of the features with the transposed mean weights plus the bias laid along every row. -/
theorem rel_v4 (V : Valuation τ sig (Elt Ideal)) :
    (after ops V (main_v4 : DevRef τ sig) : S32768x3.Idx → EReal)
      = addf (F := Ideal) (φ := .f32) (Host.dotGeneral (F := Ideal) (φ₁ := .f32) (φ₂ := .f32) dot_S32768x1024_S1024x3_S32768x3_1_0_0_1_n_n none
            (V (main_arg0 : DevRef τ sig))
            (transpose (α := Ideal .f32) S1024x3 [1, 0] (V (main_arg2 : DevRef τ sig)) transposes_S3x1024_S1024x3_1_0))
          (broadcastInDim (α := Ideal .f32) S32768x3 ![0, 1] bcast_S1x3_S32768x3_0_1
            (broadcastInDim (α := Ideal .f32) S1x3 ![1] bcast_S3_S1x3_1 (V (main_arg3 : DevRef τ sig)))) := by
  after_results_simp

theorem v4_apply (V : Valuation τ sig (Elt Ideal)) (b : Fin 32768) (k : Fin 3) :
    (after ops V (main_v4 : DevRef τ sig) : S32768x3.Idx → EReal) (ix2 b k)
      = Cert.Spec.mean (fun j => (V (main_arg0 : DevRef τ sig) : S32768x1024.Idx → EReal) (ix2 b j))
          (fun k j => (V (main_arg2 : DevRef τ sig) : S3x1024.Idx → EReal) (ix2 k j)) (fun k => (V (main_arg3 : DevRef τ sig) : S3.Idx → EReal) (ix1 k)) k := by
  rw [rel_v4, addf_apply, dot3_apply, broadcastInDim_oneRow_apply, broadcastInDim_asRow_apply]
  unfold Cert.Spec.mean Cert.Spec.dot
  refine congrArg₂ (· + ·) (Finset.sum_congr rfl fun j _ => congrArg₂ (· * ·) rfl ?_) rfl
  exact transpose_ix2_apply (a := 3) (b := 1024) _ _ j k

set_option maxRecDepth 16384 in
set_option maxHeartbeats 4000000 in
/-- The raw scales' buffer is the product of the features with the transposed scale weights plus the bias laid along
    every row. -/
theorem rel_v9 (V : Valuation τ sig (Elt Ideal)) :
    (after ops V (main_v9 : DevRef τ sig) : S32768x6.Idx → EReal)
      = addf (F := Ideal) (φ := .f32) (Host.dotGeneral (F := Ideal) (φ₁ := .f32) (φ₂ := .f32) dot_S32768x1024_S1024x6_S32768x6_1_0_0_1_n_n none
            (V (main_arg0 : DevRef τ sig))
            (transpose (α := Ideal .f32) S1024x6 [1, 0] (V (main_arg4 : DevRef τ sig)) transposes_S6x1024_S1024x6_1_0))
          (broadcastInDim (α := Ideal .f32) S32768x6 ![0, 1] bcast_S1x6_S32768x6_0_1
            (broadcastInDim (α := Ideal .f32) S1x6 ![1] bcast_S6_S1x6_1 (V (main_arg5 : DevRef τ sig)))) := by
  after_results_simp

/-- Entry (b, k) of the raw scales: row b's inner product with scale weight k, plus bias k. -/
theorem v9_apply (V : Valuation τ sig (Elt Ideal)) (b : Fin 32768) (k : Fin 6) :
    (after ops V (main_v9 : DevRef τ sig) : S32768x6.Idx → EReal) (ix2 b k)
      = Cert.Spec.dot (fun j => (V (main_arg0 : DevRef τ sig) : S32768x1024.Idx → EReal) (ix2 b j))
          (fun j => (V (main_arg4 : DevRef τ sig) : S6x1024.Idx → EReal) (ix2 k j))
        + (V (main_arg5 : DevRef τ sig) : S6.Idx → EReal) (ix1 k) := by
  rw [rel_v9, addf_apply, dot6_apply, broadcastInDim_oneRow_apply, broadcastInDim_asRow_apply]
  unfold Cert.Spec.dot
  refine congrArg₂ (· + ·) (Finset.sum_congr rfl fun j _ => congrArg₂ (· * ·) rfl ?_) rfl
  exact transpose_ix2_apply (a := 6) (b := 1024) _ _ j k

set_option maxRecDepth 16384 in
set_option maxHeartbeats 4000000 in
/-- The positive scales' buffer selects, where the raw scale is above zero, the raw scale plus one, and elsewhere the
    exponential of its minimum with zero. -/
theorem rel_v17 (V : Valuation τ sig (Elt Ideal)) :
    (after ops V (main_v17 : DevRef τ sig) : S32768x6.Idx → EReal)
      = select
          (cmpf (F := Ideal) (φ := .f32) .ogt (after ops V (main_v9 : DevRef τ sig))
            (broadcastInDim (α := Ideal .f32) S32768x6 ![] bcast_S_S32768x6 (constant (F := Ideal) S_ .f32 0x00000000#32)))
          (addf (F := Ideal) (φ := .f32) (after ops V (main_v9 : DevRef τ sig))
            (broadcastInDim (α := Ideal .f32) S32768x6 ![] bcast_S_S32768x6 (constant (F := Ideal) S_ .f32 0x3F800000#32)))
          (Host.exp (F := Ideal) (φ := .f32) (minimumf (F := Ideal) (φ := .f32) (after ops V (main_v9 : DevRef τ sig))
            (broadcastInDim (α := Ideal .f32) S32768x6 ![] bcast_S_S32768x6 (constant (F := Ideal) S_ .f32 0x00000000#32)))) := by
  after_results_simp
  rfl

/-- The select on "above zero" between r + 1 and the exponential of min(r, 0) is elu(r) + 1. -/
theorem select_ogt_elu1 (r : EReal) :
    Scalar.select (Ideal.cmp .ogt r 0) (r + 1) (Ideal.exp (min r 0)) = Cert.Spec.elu1 r := by
  unfold Cert.Spec.elu1
  by_cases h : 0 < r
  · rw [(Cert.Spec.cmp_ogt_zero r).mpr h, select_one, if_pos h]
  · rw [eq_zero_of_ne_one (fun hc => h ((Cert.Spec.cmp_ogt_zero r).mp hc)), select_zero, if_neg h]

/-- Entry (b, k) of the positive scales is elu + 1 of the raw scale there. -/
theorem v17_of_v9 (V : Valuation τ sig (Elt Ideal)) (b : Fin 32768) (k : Fin 6) :
    (after ops V (main_v17 : DevRef τ sig) : S32768x6.Idx → EReal) (ix2 b k)
      = Cert.Spec.elu1 ((after ops V (main_v9 : DevRef τ sig) : S32768x6.Idx → EReal) (ix2 b k)) := by
  rw [rel_v17]
  generalize (after ops V (main_v9 : DevRef τ sig) : S32768x6.Idx → EReal) = r
  rw [select_apply, cmpf_apply, addf_apply, hostExp_apply, minimumf_apply, broadcastInDim_scalar_apply,
    broadcastInDim_scalar_apply, constant_apply, constant_apply, Cert.Spec.ofBits_zero, Cert.Spec.ofBits_one, Ideal.cmpf_def]
  exact select_ogt_elu1 (r (ix2 b k))

theorem v17_apply (V : Valuation τ sig (Elt Ideal)) (b : Fin 32768) (k : Fin 6) :
    (after ops V (main_v17 : DevRef τ sig) : S32768x6.Idx → EReal) (ix2 b k)
      = Cert.Spec.scale (fun j => (V (main_arg0 : DevRef τ sig) : S32768x1024.Idx → EReal) (ix2 b j))
          (fun k j => (V (main_arg4 : DevRef τ sig) : S6x1024.Idx → EReal) (ix2 k j)) (fun k => (V (main_arg5 : DevRef τ sig) : S6.Idx → EReal) (ix1 k)) k := by
  rw [v17_of_v9, v9_apply]
  rfl

end Cert.ReferenceIdeal.RefLin

end
-- ==== Proof.RefRow.lean ====
/-
  Sample b's lower-triangular factor in the reference: the clipped signal probability cubed (a real power of a
  number in [0, 1]) mixes the scales with the isotropic table [5, 0, 5, 0, 0, 5]; the entries mixed with zero are
  the plain products, and the three diagonal entries pass through softplus, whose guard on `x ≠ x` never fires.
-/
import proofs.«145389_j78314433675745_1_alg».proof.Proof.RefLin
import proofs.«145389_j78314433675745_1_alg».proof.Proof.RefRun
import proofs.«145389_j78314433675745_1_alg».proof.Proof.SpecLaws
import proofs.«145389_j78314433675745_1_alg».proof.Proof.SpecArr
import Idealize.ShloMosaic.Lib.ValueIdx
import Idealize.ShloMosaic.Lib.ValueLayout
import Idealize.ShloMosaic.Lib.Pipeline.Value

noncomputable section

namespace Cert.ReferenceIdeal.RefRow

open Cert.ReferenceIdeal Cert.ReferenceIdeal.Gen Cert.ReferenceIdeal.RefOps Idealize.ShloMosaic Idealize.ShloMosaic.TcCoe Idealize.SL.Sem Idealize.ShloMosaic.StableHlo Idealize.ShloMosaic.ValueIdx

/-! ## The layout operations of this stretch, read at an index -/

section Layout
variable {α : Type}

/-- A vector set up as a column: entry (b, 0) is entry b. -/
theorem bcast_addcol (h : S32768.BroadcastsInDim S32768x1 (![0] : Fin 1 → Fin S32768x1.rank)) (x : S32768.Idx → α)
    (b : Fin 32768) (z : Fin 1) : broadcastInDim S32768x1 ![0] h x (ix2 b z) = x (ix1 b) :=
  broadcastInDim_apply _ h x _ _ (fun a => by match a with | ⟨0, _⟩ => rfl)

/-- A column repeated along six columns: entry (b, k) is entry (b, 0). -/
theorem bcast_cols6 (h : S32768x1.BroadcastsInDim S32768x6 (![0, 1] : Fin 2 → Fin S32768x6.rank)) (x : S32768x1.Idx → α)
    (b : Fin 32768) (k : Fin 6) : broadcastInDim S32768x6 ![0, 1] h x (ix2 b k) = x (ix2 b 0) :=
  broadcastInDim_apply _ h x _ _ (fun a => by match a with | ⟨0, _⟩ => rfl | ⟨1, _⟩ => rfl)

/-- A vector of six set up as a row: entry (0, k) is entry k. -/
theorem bcast_addrow6 (h : S6.BroadcastsInDim S1x6 (![1] : Fin 1 → Fin S1x6.rank)) (x : S6.Idx → α)
    (z : Fin 1) (k : Fin 6) : broadcastInDim S1x6 ![1] h x (ix2 z k) = x (ix1 k) :=
  broadcastInDim_apply _ h x _ _ (fun a => by match a with | ⟨0, _⟩ => rfl)

/-- A row repeated along all samples: entry (b, k) is entry (0, k). -/
theorem bcast_rows6 (h : S1x6.BroadcastsInDim S32768x6 (![0, 1] : Fin 2 → Fin S32768x6.rank)) (x : S1x6.Idx → α)
    (b : Fin 32768) (k : Fin 6) : broadcastInDim S32768x6 ![0, 1] h x (ix2 b k) = x (ix2 0 k) :=
  broadcastInDim_apply _ h x _ _ (fun a => by match a with | ⟨0, _⟩ => rfl | ⟨1, _⟩ => rfl)

/-- Column c of a [32768, 6] array as a vector: entry b is entry (b, c). -/
theorem col_apply (c : Nat) (h : S32768x6.Slices ![0, c] S32768x1) (h' : S32768x1.ShapeCasts S32768) (x : S32768x6.Idx → α)
    (b : Fin 32768) (k : Fin 6) (hk : k.val = c) :
    shapeCast S32768 (extractStridedSlice S32768x1 ![0, c] x h) h' (ix1 b) = x (ix2 b k) := by
  refine (shapeCast_apply _ h' (ix1 b) (ix2 b 0) ?_).trans ?_
  · rw [Shape.rowMajor_val_two, Shape.rowMajor_val_one]
    show b.val * 1 + 0 = b.val
    omega
  · exact slice2_axis1_apply c x h b 0 k hk

end Layout

/-! ## The stretch as a few functions of whole arrays -/

/-- The zero word over all samples. -/
abbrev zeroV : FVec Ideal S32768 .f32 :=
  broadcastInDim S32768 ![] Facts₀.bcast_S_S32768 (constant (F := Ideal) S_ .f32 0x00000000#32)

/-- The clip to [0, 1], as the program spells it: the smaller of 1 and the larger of 0 and the entry. -/
def clipV (p : FVec Ideal S32768 .f32) : FVec Ideal S32768 .f32 :=
  minimumf (broadcastInDim S32768 ![] Facts₀.bcast_S_S32768 (constant (F := Ideal) S_ .f32 0x3F800000#32)) (maximumf zeroV p)

/-- The real power with exponent the word of 3. -/
def cubeV (c : FVec Ideal S32768 .f32) : FVec Ideal S32768 .f32 :=
  Host.powf c (broadcastInDim S32768 ![] Facts₀.bcast_S_S32768 (constant (F := Ideal) S_ .f32 0x40400000#32))

/-- The table of isotropic widths, as the program holds it. -/
abbrev isoV : FVec Ideal S6 .f32 := fun i => FloatOps.ofBits .f32 (lit0 (S6.rowMajor i))

/-- The mixture of the scales with the isotropic table, weight `a` per sample. -/
def mixV (a : FVec Ideal S32768 .f32) (sc : FVec Ideal S32768x6 .f32) : FVec Ideal S32768x6 .f32 :=
  addf
    (mulf (broadcastInDim S32768x6 ![0, 1] Facts₀.bcast_S32768x1_S32768x6_0_1
        (broadcastInDim S32768x1 ![0] Facts₀.bcast_S32768_S32768x1_0 a)) sc)
    (mulf (broadcastInDim S32768x6 ![0, 1] Facts₀.bcast_S32768x1_S32768x6_0_1
        (subf (broadcastInDim S32768x1 ![] Facts₀.bcast_S_S32768x1 (constant (F := Ideal) S_ .f32 0x3F800000#32))
          (broadcastInDim S32768x1 ![0] Facts₀.bcast_S32768_S32768x1_0 a)))
      (broadcastInDim S32768x6 ![0, 1] Facts₀.bcast_S1x6_S32768x6_0_1 (broadcastInDim S1x6 ![1] Facts₀.bcast_S6_S1x6_1 isoV)))

/-- softplus as the program spells it: a guard on `d ≠ d` for `d = x - 0`, then `max(x, 0) + log1p(exp(-|d|))`. -/
def spV (x : FVec Ideal S32768 .f32) : FVec Ideal S32768 .f32 :=
  select (cmpf .une (subf x zeroV) (subf x zeroV)) (addf x zeroV)
    (addf (maximumf x zeroV) (Host.log1p (Host.exp (Host.negf (Host.absf (subf x zeroV))))))

theorem clipV_apply (p : FVec Ideal S32768 .f32) (i : S32768.Idx) : clipV p i = Cert.Spec.clip01 (p i) := by
  show min (Ideal.ofBits .f32 0x3F800000#32) (max (Ideal.ofBits .f32 0x00000000#32) (p i)) = _
  rw [Cert.Spec.ofBits_one, Cert.Spec.ofBits_zero]
  rfl

theorem cubeV_apply (c : FVec Ideal S32768 .f32) (i : S32768.Idx) :
    cubeV c i = Ideal.pow (c i) ((3 : ℝ) : EReal) := by
  show Ideal.pow (c i) (Ideal.ofBits .f32 0x40400000#32) = _
  rw [Cert.Spec.ofBits_three]

theorem mixV_apply (a : FVec Ideal S32768 .f32) (sc : FVec Ideal S32768x6 .f32) (b : Fin 32768) (k : Fin 6) :
    mixV a sc (ix2 b k) = a (ix1 b) * sc (ix2 b k) + (1 - a (ix1 b)) * Ideal.ofBits .f32 (lit0 k) := by
  show broadcastInDim S32768x6 ![0, 1] Facts₀.bcast_S32768x1_S32768x6_0_1
        (broadcastInDim S32768x1 ![0] Facts₀.bcast_S32768_S32768x1_0 a) (ix2 b k) * sc (ix2 b k)
      + broadcastInDim S32768x6 ![0, 1] Facts₀.bcast_S32768x1_S32768x6_0_1
        (subf (broadcastInDim S32768x1 ![] Facts₀.bcast_S_S32768x1 (constant (F := Ideal) S_ .f32 0x3F800000#32))
          (broadcastInDim S32768x1 ![0] Facts₀.bcast_S32768_S32768x1_0 a)) (ix2 b k)
        * broadcastInDim S32768x6 ![0, 1] Facts₀.bcast_S1x6_S32768x6_0_1 (broadcastInDim S1x6 ![1] Facts₀.bcast_S6_S1x6_1 isoV) (ix2 b k) = _
  rw [bcast_cols6, bcast_addcol, bcast_cols6, bcast_rows6, bcast_addrow6]
  show a (ix1 b) * sc (ix2 b k)
      + (Ideal.ofBits .f32 0x3F800000#32 - broadcastInDim S32768x1 ![0] Facts₀.bcast_S32768_S32768x1_0 a (ix2 b 0))
        * Ideal.ofBits .f32 (lit0 (S6.rowMajor (ix1 k))) = _
  rw [bcast_addcol, Cert.Spec.ofBits_one]
  have hk : S6.rowMajor (ix1 k) = k := Fin.ext (Shape.rowMajor_val_one _)
  rw [hk]

theorem spV_apply (x : FVec Ideal S32768 .f32) (i : S32768.Idx) : spV x i = Cert.Spec.softplus (x i) := by
  show Scalar.select (Ideal.cmp .une (x i - Ideal.ofBits .f32 0x00000000#32) (x i - Ideal.ofBits .f32 0x00000000#32))
      (x i + Ideal.ofBits .f32 0x00000000#32)
      (max (x i) (Ideal.ofBits .f32 0x00000000#32)
        + Ideal.log1p (Ideal.exp (-(max (x i - Ideal.ofBits .f32 0x00000000#32) (-(x i - Ideal.ofBits .f32 0x00000000#32)))))) = _
  rw [Cert.Spec.ofBits_zero, Cert.Spec.cmp_une_self, select_zero, Cert.Spec.softplus_neg_form]

/-! ## The buffers of the stretch, each as a function of the ones before it -/

theorem rel_v18 (V : Valuation τ sig (Elt Ideal)) :
    (after ops V (main_v18 : DevRef τ sig) : S32768.Idx → EReal) = clipV (V (main_arg1 : DevRef τ sig)) := by
  after_results_simp <;> rfl

theorem rel_v20 (V : Valuation τ sig (Elt Ideal)) :
    (after ops V (main_v20 : DevRef τ sig) : S32768.Idx → EReal) = cubeV (after ops V (main_v18 : DevRef τ sig)) := by
  after_results_simp <;> rfl

theorem rel_v30 (V : Valuation τ sig (Elt Ideal)) :
    (after ops V (main_v30 : DevRef τ sig) : S32768x6.Idx → EReal) = mixV (after ops V (main_v20 : DevRef τ sig)) (after ops V (main_v17 : DevRef τ sig)) := by
  after_results_simp <;> rfl

theorem rel_v32 (V : Valuation τ sig (Elt Ideal)) :
    (after ops V (main_v32 : DevRef τ sig) : S32768.Idx → EReal)
      = shapeCast S32768 (extractStridedSlice S32768x1 ![0, 0] (after ops V (main_v30 : DevRef τ sig) : S32768x6.Idx → EReal)
          Facts₀.slices_S32768x6_S32768x1_0_0) Facts₀.shapeCasts_S32768x1_S32768 := by
  after_results_simp <;> rfl

theorem rel_v35 (V : Valuation τ sig (Elt Ideal)) :
    (after ops V (main_v35 : DevRef τ sig) : S32768.Idx → EReal)
      = shapeCast S32768 (extractStridedSlice S32768x1 ![0, 1] (after ops V (main_v30 : DevRef τ sig) : S32768x6.Idx → EReal)
          Facts₀.slices_S32768x6_S32768x1_0_1) Facts₀.shapeCasts_S32768x1_S32768 := by
  after_results_simp <;> rfl

theorem rel_v37 (V : Valuation τ sig (Elt Ideal)) :
    (after ops V (main_v37 : DevRef τ sig) : S32768.Idx → EReal)
      = shapeCast S32768 (extractStridedSlice S32768x1 ![0, 2] (after ops V (main_v30 : DevRef τ sig) : S32768x6.Idx → EReal)
          Facts₀.slices_S32768x6_S32768x1_0_2) Facts₀.shapeCasts_S32768x1_S32768 := by
  after_results_simp <;> rfl

theorem rel_v40 (V : Valuation τ sig (Elt Ideal)) :
    (after ops V (main_v40 : DevRef τ sig) : S32768.Idx → EReal)
      = shapeCast S32768 (extractStridedSlice S32768x1 ![0, 3] (after ops V (main_v30 : DevRef τ sig) : S32768x6.Idx → EReal)
          Facts₀.slices_S32768x6_S32768x1_0_3) Facts₀.shapeCasts_S32768x1_S32768 := by
  after_results_simp <;> rfl

theorem rel_v42 (V : Valuation τ sig (Elt Ideal)) :
    (after ops V (main_v42 : DevRef τ sig) : S32768.Idx → EReal)
      = shapeCast S32768 (extractStridedSlice S32768x1 ![0, 4] (after ops V (main_v30 : DevRef τ sig) : S32768x6.Idx → EReal)
          Facts₀.slices_S32768x6_S32768x1_0_4) Facts₀.shapeCasts_S32768x1_S32768 := by
  after_results_simp <;> rfl

theorem rel_v44 (V : Valuation τ sig (Elt Ideal)) :
    (after ops V (main_v44 : DevRef τ sig) : S32768.Idx → EReal)
      = shapeCast S32768 (extractStridedSlice S32768x1 ![0, 5] (after ops V (main_v30 : DevRef τ sig) : S32768x6.Idx → EReal)
          Facts₀.slices_S32768x6_S32768x1_0_5) Facts₀.shapeCasts_S32768x1_S32768 := by
  after_results_simp <;> rfl

theorem rel_v33 (V : Valuation τ sig (Elt Ideal)) :
    (after ops V (main_v33 : DevRef τ sig) : S32768.Idx → EReal) = spV (after ops V (main_v32 : DevRef τ sig)) := by
  after_results_simp <;> rfl

theorem rel_v38 (V : Valuation τ sig (Elt Ideal)) :
    (after ops V (main_v38 : DevRef τ sig) : S32768.Idx → EReal) = spV (after ops V (main_v37 : DevRef τ sig)) := by
  after_results_simp <;> rfl

theorem rel_v45 (V : Valuation τ sig (Elt Ideal)) :
    (after ops V (main_v45 : DevRef τ sig) : S32768.Idx → EReal) = spV (after ops V (main_v44 : DevRef τ sig)) := by
  after_results_simp <;> rfl

/-! ## The same, entry by entry -/

/-- The mixing weight of sample b. -/
theorem v20_apply (V : Valuation τ sig (Elt Ideal)) (b : Fin 32768) :
    (after ops V (main_v20 : DevRef τ sig) : S32768.Idx → EReal) (ix1 b) = Cert.Spec.alpha ((V (main_arg1 : DevRef τ sig) : S32768.Idx → EReal) (ix1 b)) := by
  rw [congrFun (rel_v20 V) (ix1 b), cubeV_apply, congrFun (rel_v18 V) (ix1 b), clipV_apply, Cert.Spec.pow_clip]

/-- Entry (b, k) of the mixture, the isotropic width still as its word. -/
theorem v30_apply (V : Valuation τ sig (Elt Ideal)) (b : Fin 32768) (k : Fin 6) :
    (after ops V (main_v30 : DevRef τ sig) : S32768x6.Idx → EReal) (ix2 b k)
      = Cert.Spec.alpha ((V (main_arg1 : DevRef τ sig) : S32768.Idx → EReal) (ix1 b)) * Cert.Spec.scale (fun j => (V (main_arg0 : DevRef τ sig) : S32768x1024.Idx → EReal) (ix2 b j)) (fun k j => (V (main_arg4 : DevRef τ sig) : S6x1024.Idx → EReal) (ix2 k j)) (fun k => (V (main_arg5 : DevRef τ sig) : S6.Idx → EReal) (ix1 k)) k
        + (1 - Cert.Spec.alpha ((V (main_arg1 : DevRef τ sig) : S32768.Idx → EReal) (ix1 b))) * Ideal.ofBits .f32 (lit0 k) := by
  rw [congrFun (rel_v30 V) (ix2 b k), mixV_apply, v20_apply, RefLin.v17_apply]

/-- A diagonal entry's column holds the width 5. -/
theorem v30_diag (V : Valuation τ sig (Elt Ideal)) (b : Fin 32768) (k : Fin 6) (hk : lit0 k = 0x40A00000#32) :
    (after ops V (main_v30 : DevRef τ sig) : S32768x6.Idx → EReal) (ix2 b k) = Cert.Spec.mixDiag (fun j => (V (main_arg0 : DevRef τ sig) : S32768x1024.Idx → EReal) (ix2 b j)) ((V (main_arg1 : DevRef τ sig) : S32768.Idx → EReal) (ix1 b)) (fun k j => (V (main_arg4 : DevRef τ sig) : S6x1024.Idx → EReal) (ix2 k j)) (fun k => (V (main_arg5 : DevRef τ sig) : S6.Idx → EReal) (ix1 k)) k := by
  rw [v30_apply, hk]
  rfl

/-- An entry below the diagonal is mixed with zero. -/
theorem v30_off (V : Valuation τ sig (Elt Ideal)) (b : Fin 32768) (k : Fin 6) (hk : lit0 k = 0x00000000#32) :
    (after ops V (main_v30 : DevRef τ sig) : S32768x6.Idx → EReal) (ix2 b k) = Cert.Spec.mixOff (fun j => (V (main_arg0 : DevRef τ sig) : S32768x1024.Idx → EReal) (ix2 b j)) ((V (main_arg1 : DevRef τ sig) : S32768.Idx → EReal) (ix1 b)) (fun k j => (V (main_arg4 : DevRef τ sig) : S6x1024.Idx → EReal) (ix2 k j)) (fun k => (V (main_arg5 : DevRef τ sig) : S6.Idx → EReal) (ix1 k)) k := by
  rw [v30_apply, hk, Cert.Spec.ofBits_zero, Cert.Spec.mix_zero]
  rfl

/-! ## The six entries of sample b's factor -/

theorem v33_apply (V : Valuation τ sig (Elt Ideal)) (b : Fin 32768) :
    (after ops V (main_v33 : DevRef τ sig) : S32768.Idx → EReal) (ix1 b)
      = Cert.Spec.l00 (fun j => (V (main_arg0 : DevRef τ sig) : S32768x1024.Idx → EReal) (ix2 b j)) ((V (main_arg1 : DevRef τ sig) : S32768.Idx → EReal) (ix1 b))
          (fun k j => (V (main_arg4 : DevRef τ sig) : S6x1024.Idx → EReal) (ix2 k j)) (fun k => (V (main_arg5 : DevRef τ sig) : S6.Idx → EReal) (ix1 k)) := by
  rw [congrFun (rel_v33 V) (ix1 b), spV_apply, congrFun (rel_v32 V) (ix1 b), col_apply 0 _ _ _ b 0 rfl, v30_diag V b 0 rfl]
  rfl

theorem v35_apply (V : Valuation τ sig (Elt Ideal)) (b : Fin 32768) :
    (after ops V (main_v35 : DevRef τ sig) : S32768.Idx → EReal) (ix1 b)
      = Cert.Spec.l10 (fun j => (V (main_arg0 : DevRef τ sig) : S32768x1024.Idx → EReal) (ix2 b j)) ((V (main_arg1 : DevRef τ sig) : S32768.Idx → EReal) (ix1 b))
          (fun k j => (V (main_arg4 : DevRef τ sig) : S6x1024.Idx → EReal) (ix2 k j)) (fun k => (V (main_arg5 : DevRef τ sig) : S6.Idx → EReal) (ix1 k)) := by
  rw [congrFun (rel_v35 V) (ix1 b), col_apply 1 _ _ _ b 1 rfl, v30_off V b 1 rfl]
  rfl

theorem v38_apply (V : Valuation τ sig (Elt Ideal)) (b : Fin 32768) :
    (after ops V (main_v38 : DevRef τ sig) : S32768.Idx → EReal) (ix1 b)
      = Cert.Spec.l11 (fun j => (V (main_arg0 : DevRef τ sig) : S32768x1024.Idx → EReal) (ix2 b j)) ((V (main_arg1 : DevRef τ sig) : S32768.Idx → EReal) (ix1 b))
          (fun k j => (V (main_arg4 : DevRef τ sig) : S6x1024.Idx → EReal) (ix2 k j)) (fun k => (V (main_arg5 : DevRef τ sig) : S6.Idx → EReal) (ix1 k)) := by
  rw [congrFun (rel_v38 V) (ix1 b), spV_apply, congrFun (rel_v37 V) (ix1 b), col_apply 2 _ _ _ b 2 rfl, v30_diag V b 2 rfl]
  rfl

theorem v40_apply (V : Valuation τ sig (Elt Ideal)) (b : Fin 32768) :
    (after ops V (main_v40 : DevRef τ sig) : S32768.Idx → EReal) (ix1 b)
      = Cert.Spec.l20 (fun j => (V (main_arg0 : DevRef τ sig) : S32768x1024.Idx → EReal) (ix2 b j)) ((V (main_arg1 : DevRef τ sig) : S32768.Idx → EReal) (ix1 b))
          (fun k j => (V (main_arg4 : DevRef τ sig) : S6x1024.Idx → EReal) (ix2 k j)) (fun k => (V (main_arg5 : DevRef τ sig) : S6.Idx → EReal) (ix1 k)) := by
  rw [congrFun (rel_v40 V) (ix1 b), col_apply 3 _ _ _ b 3 rfl, v30_off V b 3 rfl]
  rfl

theorem v42_apply (V : Valuation τ sig (Elt Ideal)) (b : Fin 32768) :
    (after ops V (main_v42 : DevRef τ sig) : S32768.Idx → EReal) (ix1 b)
      = Cert.Spec.l21 (fun j => (V (main_arg0 : DevRef τ sig) : S32768x1024.Idx → EReal) (ix2 b j)) ((V (main_arg1 : DevRef τ sig) : S32768.Idx → EReal) (ix1 b))
          (fun k j => (V (main_arg4 : DevRef τ sig) : S6x1024.Idx → EReal) (ix2 k j)) (fun k => (V (main_arg5 : DevRef τ sig) : S6.Idx → EReal) (ix1 k)) := by
  rw [congrFun (rel_v42 V) (ix1 b), col_apply 4 _ _ _ b 4 rfl, v30_off V b 4 rfl]
  rfl

theorem v45_apply (V : Valuation τ sig (Elt Ideal)) (b : Fin 32768) :
    (after ops V (main_v45 : DevRef τ sig) : S32768.Idx → EReal) (ix1 b)
      = Cert.Spec.l22 (fun j => (V (main_arg0 : DevRef τ sig) : S32768x1024.Idx → EReal) (ix2 b j)) ((V (main_arg1 : DevRef τ sig) : S32768.Idx → EReal) (ix1 b))
          (fun k j => (V (main_arg4 : DevRef τ sig) : S6x1024.Idx → EReal) (ix2 k j)) (fun k => (V (main_arg5 : DevRef τ sig) : S6.Idx → EReal) (ix1 k)) := by
  rw [congrFun (rel_v45 V) (ix1 b), spV_apply, congrFun (rel_v44 V) (ix1 b), col_apply 5 _ _ _ b 5 rfl, v30_diag V b 5 rfl]
  rfl

end Cert.ReferenceIdeal.RefRow

end
-- ==== Proof.RefValue.lean ====
/-
  The reference's result is the specification's function of its argument arrays.
-/
import proofs.«145389_j78314433675745_1_alg».proof.Proof.RefGauss
import proofs.«145389_j78314433675745_1_alg».proof.Proof.RefRow
import proofs.«145389_j78314433675745_1_alg».proof.Proof.RefRun
import proofs.«145389_j78314433675745_1_alg».proof.Proof.SpecLaws
import proofs.«145389_j78314433675745_1_alg».proof.Proof.SpecArr
import Idealize.ShloMosaic.Lib.ValueIdx

noncomputable section

namespace Cert.ReferenceIdeal.RefValue

open Cert.ReferenceIdeal Cert.ReferenceIdeal.Gen Cert.ReferenceIdeal.RefOps Idealize.ShloMosaic Idealize.ShloMosaic.TcCoe Idealize.SL.Sem Idealize.ShloMosaic.StableHlo Idealize.ShloMosaic.ValueIdx

theorem ref_eq (V : Valuation τ sig (Elt Ideal)) :
    (after ops V (main_v105 : DevRef τ sig) : S32768x1323.Idx → EReal)
      = Cert.Spec.G (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  -- entry by entry: the softmax of the row of log-densities, whose nine parameters are the sample's mean and factor
  refine Cert.Spec.eq_G_of_apply _ _ _ _ _ _ _ _ fun b n => ?_
  rw [RefGauss.v105_apply V b n]
  rw [RefLin.v4_apply V b 0, RefLin.v4_apply V b 1, RefLin.v4_apply V b 2, RefRow.v33_apply V b,
    RefRow.v35_apply V b, RefRow.v38_apply V b, RefRow.v40_apply V b, RefRow.v42_apply V b, RefRow.v45_apply V b]
  -- what is left is the definition of an entry: the pixel table is read coordinate-first
  rfl

end Cert.ReferenceIdeal.RefValue

end
-- ==== Proof.RefArgs.lean ====
/-
  None of the reference's 163 operations writes an argument buffer, so after the run each of the seven argument
  buffers holds what it held at launch: reading the fold at an argument passes every operation by.
-/
import proofs.«145389_j78314433675745_1_alg».proof.Proof.RefRun

noncomputable section

namespace Cert.ReferenceIdeal.RefArgs

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxRecDepth 16384

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp

end Cert.ReferenceIdeal.RefArgs

end
-- ==== Proof.lean ====
/-
  The certificate. Both idealized programs compute, for every sample b and pixel n, the same function
  `Cert.Spec.G` of the seven argument arrays: the softmax over the pixels of their log-density under the sample's
  Gaussian. The kernel does it block by block, 256 samples at a grid point, and its blocks tile the result; the
  reference does it in one straight line of host operations. The two differ in three spellings only, each an
  identity on the extended reals: the clipped probability cubed as a product or as a real power; the factor's
  entries mixed with zero written with or without the zero term; softplus's `-|x|` written `0 - |x|` or as a
  negation, under a guard `x ≠ x` that is never true. No step needs the inputs to be finite, so the precondition
  is never opened. The three frames: each kernel program's is generated whole; the reference's is its run with
  the result forgotten. The idealization rewrote no operation, so there is nothing to preserve.
-/
import proofs.«145389_j78314433675745_1_alg».proof.Defs
import proofs.«145389_j78314433675745_1_alg».proof.Proof.Gen.Kernel
import proofs.«145389_j78314433675745_1_alg».proof.Proof.Gen.Kernel.Frame
import proofs.«145389_j78314433675745_1_alg».proof.Proof.Gen.KernelIdeal
import proofs.«145389_j78314433675745_1_alg».proof.Proof.Gen.KernelIdeal.Frame
import proofs.«145389_j78314433675745_1_alg».proof.Proof.Gen.KernelIdeal.Value
import proofs.«145389_j78314433675745_1_alg».proof.Proof.Gen.ReferenceIdeal
import proofs.«145389_j78314433675745_1_alg».proof.Proof.Gen.Pre_finite_inputs
import proofs.«145389_j78314433675745_1_alg».proof.Proof.KerBlocks
import proofs.«145389_j78314433675745_1_alg».proof.Proof.RefValue
import proofs.«145389_j78314433675745_1_alg».proof.Proof.RefArgs
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and no operation of it writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefArgs.arg0_eq _),
     (h c Cert.ReferenceIdeal.main_arg1).trans (Cert.ReferenceIdeal.RefArgs.arg1_eq _),
     (h c Cert.ReferenceIdeal.main_arg2).trans (Cert.ReferenceIdeal.RefArgs.arg2_eq _),
     (h c Cert.ReferenceIdeal.main_arg3).trans (Cert.ReferenceIdeal.RefArgs.arg3_eq _),
     (h c Cert.ReferenceIdeal.main_arg4).trans (Cert.ReferenceIdeal.RefArgs.arg4_eq _),
     (h c Cert.ReferenceIdeal.main_arg5).trans (Cert.ReferenceIdeal.RefArgs.arg5_eq _),
     (h c Cert.ReferenceIdeal.main_arg6).trans (Cert.ReferenceIdeal.RefArgs.arg6_eq _)⟩)
    (Cert.ReferenceIdeal.RefRun.run_main (F := Ideal) m ρ)

/-- The two idealized programs, run from memories that agree on the arguments, end with the same result array:
    `Cert.Spec.G` of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Blocks.run m ρ, ?_⟩
  refine (θ_run Cert.ReferenceIdeal.defs _ _).mono (fun r h c =>
    ⟨?_,
     (h c Cert.ReferenceIdeal.main_arg0).trans (Cert.ReferenceIdeal.RefArgs.arg0_eq _),
     (h c Cert.ReferenceIdeal.main_arg1).trans (Cert.ReferenceIdeal.RefArgs.arg1_eq _),
     (h c Cert.ReferenceIdeal.main_arg2).trans (Cert.ReferenceIdeal.RefArgs.arg2_eq _),
     (h c Cert.ReferenceIdeal.main_arg3).trans (Cert.ReferenceIdeal.RefArgs.arg3_eq _),
     (h c Cert.ReferenceIdeal.main_arg4).trans (Cert.ReferenceIdeal.RefArgs.arg4_eq _),
     (h c Cert.ReferenceIdeal.main_arg5).trans (Cert.ReferenceIdeal.RefArgs.arg5_eq _),
     (h c Cert.ReferenceIdeal.main_arg6).trans (Cert.ReferenceIdeal.RefArgs.arg6_eq _)⟩)
    (Cert.ReferenceIdeal.RefRun.run_main (F := Ideal) m' ρ')
  have e0 : launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := (hagree c).1
  have e1 : launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := (hagree c).2.1
  have e2 : launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) := (hagree c).2.2.1
  have e3 : launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := (hagree c).2.2.2.1
  have e4 : launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) := (hagree c).2.2.2.2.1
  have e5 : launchContents m' c (Cert.ReferenceIdeal.main_arg5 : DevRef Cert.ReferenceIdeal.τ Cert.ReferenceIdeal.sig) = m ((c.tc : Thread Cert.KernelIdeal.nD Cert.KernelIdeal.τ).loc Cert.KernelIdeal.main_arg5) := (hagree c).2.2.2.2.2.1
  have e6 : launchContents m' c (Cert.ReferenceIdeal.main_arg6 : DevRef Cert.ReferenceIdeal.τ Cert.ReferenceIdeal.sig) = m ((c.tc : Thread Cert.KernelIdeal.nD Cert.KernelIdeal.τ).loc Cert.KernelIdeal.main_arg6) := (hagree c).2.2.2.2.2.2
  refine (h c Cert.ReferenceIdeal.main_v105).trans ((Cert.ReferenceIdeal.RefValue.ref_eq (launchContents m' c)).trans ?_)
  rw [e0, e1, e2, e3, e4, e5, e6]

/-- Every claim of the certificate. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
